-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S625000 : Shape := ⟨1, ![625000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_
  bcast_S_S50000 : S_.BroadcastsInDim S50000 (![] : Fin 0 → Fin S50000.rank)
  reducesTo_S50000_S_d0 : S50000.ReducesTo [0] S_

variable [Facts]

def fn_part1 {F : FTy → Type} [FloatOps F] (main_arg4 : FVec F S40 .f32) (main_arg7 : IVec S50000 32) (main_v13 : IVec S_ 1) (main_v16 : IVec S40x128 1) : IVec S_ 1 :=
  let main_c_5 : IVec S_ 1 := constantI S_ 1 1#1
  let main_v17 : IVec S_ 1 := (fun x v => Host.reduce IntOp.andi x v reducesTo_S40x128_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_c_8 : IVec S_ 32 := constantI S_ 32 0#32
  let main_v24 : IVec S50000 32 := broadcastInDim S50000 ![] bcast_S_S50000 main_c_8
  let main_v25 : IVec S50000 1 := cmpi .sge main_arg7 main_v24
  let main_c_9 : IVec S_ 1 := constantI S_ 1 1#1
  let main_v26 : IVec S_ 1 := (fun x v => Host.reduce IntOp.andi x v reducesTo_S50000_S_d0 h_S_) main_v25 main_c_9
  let main_v27 : IVec S_ 1 := andi main_v23 main_v26
  let main_c_10 : IVec S_ 32 := constantI S_ 32 40#32
  let main_v28 : IVec S50000 32 := broadcastInDim S50000 ![] bcast_S_S50000 main_c_10
  let main_v29 : IVec S50000 1 := cmpi .slt main_arg7 main_v28
  let main_c_11 : IVec S_ 1 := constantI S_ 1 1#1
  let main_v30 : IVec S_ 1 := (fun x v => Host.reduce IntOp.andi x v reducesTo_S50000_S_d0 h_S_) main_v29 main_c_11
  let main_v31 : IVec S_ 1 := andi main_v27 main_v30
  main_v31

def fn {F : FTy → Type} [FloatOps F] (main_arg0 : FVec F S50000x128 .f32) (main_arg1 : FVec F S128x128 .f32) (main_arg2 : FVec F S128 .f32) (main_arg3 : FVec F S40x128 .f32) (main_arg4 : FVec F S40 .f32) (main_arg5 : IVec S625000 32) (main_arg6 : IVec S625000 32) (main_arg7 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S40x128 .f32 := Host.absf main_arg3
  let main_cst_4 : FVec F S_ .f32 := constant S_ .f32 0x7F800000#32
  let main_v15 : FVec F S40x128 .f32 := broadcastInDim S40x128 ![] bcast_S_S40x128 main_cst_4
  let main_v16 : IVec S40x128 1 := cmpf .olt main_v14 main_v15
  fn_part1 (F := F) main_arg4 main_arg7 main_v13 main_v16
-- ==== Kernel.lean ====
abbrev S50000x128 : Shape := ⟨2, ![50000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S625000 : Shape := ⟨1, ![625000]⟩
abbrev S50000 : Shape := ⟨1, ![50000]⟩
abbrev S_ : Shape := ⟨0, ![]⟩
abbrev S625000x1 : Shape := ⟨2, ![625000, 1]⟩
abbrev S50000x1 : Shape := ⟨2, ![50000, 1]⟩
abbrev S625000x128 : Shape := ⟨2, ![625000, 128]⟩
abbrev S128x40 : Shape := ⟨2, ![128, 40]⟩
abbrev S1x128 : Shape := ⟨2, ![1, 128]⟩
abbrev S1x40 : Shape := ⟨2, ![1, 40]⟩
abbrev S2000x128 : Shape := ⟨2, ![2000, 128]⟩
abbrev S2000x1 : Shape := ⟨2, ![2000, 1]⟩
abbrev S40x1 : Shape := ⟨2, ![40, 1]⟩
abbrev S2000x40 : Shape := ⟨2, ![2000, 40]⟩
abbrev S40x2000 : Shape := ⟨2, ![40, 2000]⟩
abbrev S50000x40 : Shape := ⟨2, ![50000, 40]⟩

abbrev nBuf : Space → Nat
  | .hbm => 86
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S40x128, .f32⟩
  | .hbm, ⟨4, _⟩ => ⟨S40, .f32⟩
  | .hbm, ⟨5, _⟩ => ⟨S625000, .i32⟩
  | .hbm, ⟨6, _⟩ => ⟨S625000, .i32⟩
  | .hbm, ⟨7, _⟩ => ⟨S50000, .i32⟩
  | .hbm, ⟨8, _⟩ => ⟨S_, .f32⟩
  | .hbm, ⟨9, _⟩ => ⟨S625000, .f32⟩
  | .hbm, ⟨10, _⟩ => ⟨S_, .f32⟩
  | .hbm, ⟨11, _⟩ => ⟨S50000, .f32⟩
  | .hbm, ⟨12, _⟩ => ⟨S625000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S625000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S625000, .i32⟩
  | .hbm, ⟨31, _⟩ => ⟨S625000, .i1⟩
  | .hbm, ⟨32, _⟩ => ⟨S_, .i32⟩
  | .hbm, ⟨33, _⟩ => ⟨S625000, .i32⟩
  | .hbm, ⟨34, _⟩ => ⟨S625000, .i32⟩
  | .hbm, ⟨35, _⟩ => ⟨S625000, .i32⟩
  | .hbm, ⟨36, _⟩ => ⟨S625000x1, .i32⟩
  | .hbm, ⟨37, _⟩ => ⟨S625000x128, .f32⟩
  | .hbm, ⟨38, _⟩ => ⟨S_, .f32⟩
  | .hbm, ⟨39, _⟩ => ⟨S50000x128, .f32⟩
  | .hbm, ⟨40, _⟩ => ⟨S625000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S625000, .i32⟩
  | .hbm, ⟨57, _⟩ => ⟨S625000, .i1⟩
  | .hbm, ⟨58, _⟩ => ⟨S_, .i32⟩
  | .hbm, ⟨59, _⟩ => ⟨S625000, .i32⟩
  | .hbm, ⟨60, _⟩ => ⟨S625000, .i32⟩
  | .hbm, ⟨61, _⟩ => ⟨S625000, .i32⟩
  | .hbm, ⟨62, _⟩ => ⟨S625000x1, .i32⟩
  | .hbm, ⟨63, _⟩ => ⟨S625000x128, .f32⟩
  | .hbm, ⟨64, _⟩ => ⟨S_, .f32⟩
  | .hbm, ⟨65, _⟩ => ⟨S50000x128, .f32⟩
  | .hbm, ⟨66, _⟩ => ⟨S625000x1, .i32⟩
  | .hbm, ⟨67, _⟩ => ⟨S50000x128, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x1, .i32⟩
  | .hbm, ⟨79, _⟩ => ⟨S128x128, .f32⟩
  | .hbm, ⟨80, _⟩ => ⟨S128x40, .f32⟩
  | .hbm, ⟨81, _⟩ => ⟨S1x128, .f32⟩
  | .hbm, ⟨82, _⟩ => ⟨S1x40, .f32⟩
  | .hbm, ⟨83, _⟩ => ⟨S40x128, .f32⟩
  | .hbm, ⟨84, _⟩ => ⟨S40x128, .f32⟩
  | .hbm, ⟨85, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x1, .i32⟩
  | .local _ .vmem, ⟨3, _⟩ => ⟨S2000x1, .i32⟩
  | .local _ .vmem, ⟨4, _⟩ => ⟨S40x128, .f32⟩
  | .local _ .vmem, ⟨5, _⟩ => ⟨S40x128, .f32⟩
  | .local _ .vmem, ⟨6, _⟩ => ⟨S40x128, .f32⟩
  | .local _ .vmem, ⟨7, _⟩ => ⟨S40x128, .f32⟩
  | .local _ .vmem, ⟨8, _⟩ => ⟨S40x1, .f32⟩
  | .local _ .vmem, ⟨9, _⟩ => ⟨S2000x128, .f32⟩
  | .local _ .vmem, ⟨10, _⟩ => ⟨S2000x128, .f32⟩
  | .local _ .vmem, ⟨11, _⟩ => ⟨S2000x1, .i32⟩
  | .local _ .vmem, ⟨12, _⟩ => ⟨S2000x1, .i32⟩
  | .local _ .vmem, ⟨13, _⟩ => ⟨S40x128, .f32⟩
  | .local _ .vmem, ⟨14, _⟩ => ⟨S40x128, .f32⟩
  | .local _ .vmem, ⟨15, _⟩ => ⟨S128x128, .f32⟩
  | .local _ .vmem, ⟨16, _⟩ => ⟨S1x128, .f32⟩
  | .local _ .vmem, ⟨17, _⟩ => ⟨S128x40, .f32⟩
  | .local _ .vmem, ⟨18, _⟩ => ⟨S1x40, .f32⟩
  | .local _ .vmem, ⟨19, _⟩ => ⟨S2000x40, .f32⟩
  | .local _ .vmem, ⟨20, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60_0 : Ref sig .tc := ⟨.hbm, 83, rfl⟩
abbrev main_v60_1 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg8_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v35 : BitVec 1 := Scalar.cmpi .eq arg0 c24_i32
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x40 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  transposes_S128x128_S128x128_1_0 : S128x128.Transposes [1, 0] S128x128
  transposes_S40x128_S128x40_1_0 : S40x128.Transposes [1, 0] S128x40
  shapeCasts_S128_S1x128 : S128.ShapeCasts S1x128
  shapeCasts_S40_S1x40 : S40.ShapeCasts S1x40
  inb_S40x128_S40x128_0_0 : ∀ a, (![0, 0] : Fin 2 → Nat) a + S40x128.size a ≤ S40x128.size a
  h_S40x128 : 0 < S40x128.numel
  shapeCasts_S40x128_S40x128 : S40x128.ShapeCasts S40x128
  inb_S40x1_S40x1_0_0 : ∀ a, (![0, 0] : Fin 2 → Nat) a + S40x1.size a ≤ S40x1.size a
  h_S40x1 : 0 < S40x1.numel
  shapeCasts_S40x1_S40x1 : S40x1.ShapeCasts S40x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x40_d1_w32 : S2000x40.Iotas .tc 32 [1]
  broadcasts_S2000x1_S2000x40 : S2000x1.Broadcasts S2000x40
  natLt_1_32 : 1 < 32
  transposes_S2000x40_p1_0_S40x2000 : S2000x40.Transposes [1, 0] S40x2000
  broadcasts_S40x1_S40x128 : S40x1.Broadcasts S40x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S40x2000_S2000x128_S40x128_1_0_0_1_n_n_wf : DotDims.WF S40x2000 S2000x128 S40x128 [1] [0] [0] [1] [] []
  dot_S40x2000_S2000x1_S40x1_1_0_0_1_n_n_wf : DotDims.WF S40x2000 S2000x1 S40x1 [1] [0] [0] [1] [] []
  dot_S2000x40_S40x128_S2000x128_1_0_0_1_n_n_wf : DotDims.WF S2000x40 S40x128 S2000x128 [1] [0] [0] [1] [] []
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .i32 = 32 ∨ (Rect.block (s := S50000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x128.size a ≤ S40x128.size a
  hwx0_2 : ∀ i : grid0.Coords, EltTy.bits .f32 = 32 ∨ (Rect.block (s := S40x128) S40x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40x128.size a ≤ S40x128.size a
  hwx0_3 : ∀ i : grid0.Coords, EltTy.bits .f32 = 32 ∨ (Rect.block (s := S40x128) S40x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .i32 = 32 ∨ (Rect.block (s := S50000x1) S2000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x128.size a ≤ S40x128.size a
  hwx1_2 : ∀ i : grid1.Coords, EltTy.bits .f32 = 32 ∨ (Rect.block (s := S40x128) S40x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x128.size a ≤ S40x128.size a
  hwx1_3 : ∀ i : grid1.Coords, EltTy.bits .f32 = 32 ∨ (Rect.block (s := S40x128) S40x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x40.size a ≤ S128x40.size a
  hwx1_6 : ∀ i : grid1.Coords, EltTy.bits .f32 = 32 ∨ (Rect.block (s := S128x40) S128x40.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x40.size a ≤ S1x40.size a
  hwx1_7 : ∀ i : grid1.Coords, EltTy.bits .f32 = 32 ∨ (Rect.block (s := S1x40) S1x40.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x40.size a ≤ S50000x40.size a
  hwx1_8 : ∀ i : grid1.Coords, EltTy.bits .f32 = 32 ∨ (Rect.block (s := S50000x40) S2000x40.size (cc1_transform_8 i) (hinb1_8 i)).WholeWords (EltTy.packing .f32)

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S40x2000_S2000x128_S40x128_1_0_0_1_n_n : DotDims S40x2000 S2000x128 S40x128 where
  lhsContracting := [1]
  rhsContracting := [0]
  lhsNonContracting := [0]
  rhsNonContracting := [1]
  lhsBatch := []
  rhsBatch := []
  wf := dot_S40x2000_S2000x128_S40x128_1_0_0_1_n_n_wf
def dot_S40x2000_S2000x1_S40x1_1_0_0_1_n_n : DotDims S40x2000 S2000x1 S40x1 where
  lhsContracting := [1]
  rhsContracting := [0]
  lhsNonContracting := [0]
  rhsNonContracting := [1]
  lhsBatch := []
  rhsBatch := []
  wf := dot_S40x2000_S2000x1_S40x1_1_0_0_1_n_n_wf
def dot_S2000x40_S40x128_S2000x128_1_0_0_1_n_n : DotDims S2000x40 S40x128 S2000x128 where
  lhsContracting := [1]
  rhsContracting := [0]
  lhsNonContracting := [0]
  rhsNonContracting := [1]
  lhsBatch := []
  rhsBatch := []
  wf := dot_S2000x40_S40x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v54) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60_0) S40x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v60_1) S40x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v54) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60_0) S40x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60_1) S40x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v57) S128x40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S1x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v61) S2000x40.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S40x128 : Shape := ⟨2, ![40, 128]⟩
abbrev S40 : Shape := ⟨1, ![40]⟩
abbrev S625000 : Shape := ⟨1, ![625000]⟩
abbrev S50000 : Shape := ⟨1, ![50000]⟩
abbrev S_ : Shape := ⟨0, ![]⟩
abbrev S625000x1 : Shape := ⟨2, ![625000, 1]⟩
abbrev S50000x1 : Shape := ⟨2, ![50000, 1]⟩
abbrev S625000x128 : Shape := ⟨2, ![625000, 128]⟩
abbrev S40x1 : Shape := ⟨2, ![40, 1]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S40x128, .f32⟩
  | 4 => ⟨S40, .f32⟩
  | 5 => ⟨S625000, .i32⟩
  | 6 => ⟨S625000, .i32⟩
  | 7 => ⟨S50000, .i32⟩
  | 8 => ⟨S_, .f32⟩
  | 9 => ⟨S625000, .f32⟩
  | 10 => ⟨S_, .f32⟩
  | 11 => ⟨S50000, .f32⟩
  | 12 => ⟨S625000x1, .i32⟩
  | 13 => ⟨S50000, .f32⟩
  | 14 => ⟨S_, .f32⟩
  | 15 => ⟨S50000, .f32⟩
  | 16 => ⟨S625000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000, .f32⟩
  | 26 => ⟨S50000x1, .f32⟩
  | 27 => ⟨S50000x128, .f32⟩
  | 28 => ⟨S50000x128, .f32⟩
  | 29 => ⟨S_, .i32⟩
  | 30 => ⟨S625000, .i32⟩
  | 31 => ⟨S625000, .i1⟩
  | 32 => ⟨S_, .i32⟩
  | 33 => ⟨S625000, .i32⟩
  | 34 => ⟨S625000, .i32⟩
  | 35 => ⟨S625000, .i32⟩
  | 36 => ⟨S625000x1, .i32⟩
  | 37 => ⟨S625000x128, .f32⟩
  | 38 => ⟨S_, .f32⟩
  | 39 => ⟨S50000x128, .f32⟩
  | 40 => ⟨S625000x1, .i32⟩
  | 41 => ⟨S50000x128, .f32⟩
  | 42 => ⟨S50000x1, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S50000x1, .f32⟩
  | 53 => ⟨S50000x128, .f32⟩
  | 54 => ⟨S50000x128, .f32⟩
  | 55 => ⟨S_, .i32⟩
  | 56 => ⟨S625000, .i32⟩
  | 57 => ⟨S625000, .i1⟩
  | 58 => ⟨S_, .i32⟩
  | 59 => ⟨S625000, .i32⟩
  | 60 => ⟨S625000, .i32⟩
  | 61 => ⟨S625000, .i32⟩
  | 62 => ⟨S625000x1, .i32⟩
  | 63 => ⟨S625000x128, .f32⟩
  | 64 => ⟨S_, .f32⟩
  | 65 => ⟨S50000x128, .f32⟩
  | 66 => ⟨S625000x1, .i32⟩
  | 67 => ⟨S50000x128, .f32⟩
  | 68 => ⟨S50000x1, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .f32⟩
  | 79 => ⟨S50000, .f32⟩
  | 80 => ⟨S_, .f32⟩
  | 81 => ⟨S40, .f32⟩
  | 82 => ⟨S50000x1, .i32⟩
  | 83 => ⟨S40, .f32⟩
  | 84 => ⟨S_, .f32⟩
  | 85 => ⟨S40, .f32⟩
  | 86 => ⟨S40, .f32⟩
  | 87 => ⟨S_, .f32⟩
  | 88 => ⟨S40x128, .f32⟩
  | 89 => ⟨S50000x1, .i32⟩
  | 90 => ⟨S40x128, .f32⟩
  | 91 => ⟨S40x1, .f32⟩
  | 92 => ⟨S40x128, .f32⟩
  | 93 => ⟨S40x128, .f32⟩
  | 94 => ⟨S50000x128, .f32⟩
  | 95 => ⟨S_, .f32⟩
  | 96 => ⟨S40x128, .f32⟩
  | 97 => ⟨S50000x1, .i32⟩
  | 98 => ⟨S40x128, .f32⟩
  | 99 => ⟨S40x1, .f32⟩
  | 100 => ⟨S40x128, .f32⟩
  | 101 => ⟨S40x128, .f32⟩
  | 102 => ⟨S40x128, .f32⟩
  | 103 => ⟨S40x128, .f32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S50000x128, .f32⟩
  | 113 => ⟨S50000x128, .f32⟩
  | 114 => ⟨S_, .i32⟩
  | 115 => ⟨S50000, .i32⟩
  | 116 => ⟨S50000, .i1⟩
  | 117 => ⟨S_, .i32⟩
  | 118 => ⟨S50000, .i32⟩
  | 119 => ⟨S50000, .i32⟩
  | 120 => ⟨S50000, .i32⟩
  | 121 => ⟨S50000x1, .i32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S128x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S128x40, .f32⟩
  | 12 => ⟨S50000x40, .f32⟩
  | 13 => ⟨S1x40, .f32⟩
  | 14 => ⟨S50000x40, .f32⟩
  | 15 => ⟨S50000x40, .f32⟩
  | 16 => ⟨S50000x40, .f32⟩
  | 17 => ⟨S50000x40, .f32⟩
  | 18 => ⟨S_, .f32⟩
  | 19 => ⟨S50000x40, .f32⟩
  | 20 => ⟨S50000x40, .f32⟩
  | 21 => ⟨S_, .f32⟩
  | 22 => ⟨S50000x40, .f32⟩
  | 23 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩
abbrev main_v60 : Ref sig .tc := ⟨.hbm, 86, rfl⟩
abbrev main_cst_16 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_17 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_c_19 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_c_21 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_22 : Ref sig .tc := ⟨.hbm, 123, rfl⟩
abbrev main_v91 : Ref sig .tc := ⟨.hbm, 124, rfl⟩
abbrev main_v92 : Ref sig .tc := ⟨.hbm, 125, rfl⟩
abbrev main_cst_23 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_call0_cst : Ref sig .tc := ⟨.hbm, 136, rfl⟩
abbrev main_call0_v0 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_24 : Ref sig .tc := ⟨.hbm, 146, rfl⟩
abbrev main_v110 : Ref sig .tc := ⟨.hbm, 147, rfl⟩
abbrev main_v111 : Ref sig .tc := ⟨.hbm, 148, rfl⟩
abbrev main_cst_25 : Ref sig .tc := ⟨.hbm, 149, rfl⟩
abbrev main_v112 : Ref sig .tc := ⟨.hbm, 150, rfl⟩
abbrev main_v113 : Ref sig .tc := ⟨.hbm, 151, rfl⟩

abbrev nD : Nat := 1
abbrev τ : Topo := Topo.v7x

variable {F : FTy → Type} [FloatOps F]

class Facts₀ : Prop where
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S_S40 : S_.BroadcastsInDim S40 (![] : Fin 0 → Fin S40.rank)
  bcast_S_S40x128 : S_.BroadcastsInDim S40x128 (![] : Fin 0 → Fin S40x128.rank)
  bcast_S40_S40x1_0 : S40.BroadcastsInDim S40x1 (![0] : Fin 1 → Fin S40x1.rank)
  bcast_S40x1_S40x128_0_1 : S40x1.BroadcastsInDim S40x128 (![0, 1] : Fin 2 → Fin S40x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S_S50000x40 : S_.BroadcastsInDim S50000x40 (![] : Fin 0 → Fin S50000x40.rank)
  scatter_S50000_S625000x1_S625000_n_0_0_1_wf : ScatterDims.WF S50000 S625000x1 S625000 [] [0] [0] 1
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S40_S50000x1_S50000_n_0_0_1_wf : ScatterDims.WF S40 S50000x1 S50000 [] [0] [0] 1
  scatter_S40x128_S50000x1_S50000x128_1_0_0_1_wf : ScatterDims.WF S40x128 S50000x1 S50000x128 [1] [0] [0] 1
  gather_S40x128_S50000x1_S50000x128_1_0_n_n_0_1_1128_wf : GatherDims.WF S40x128 S50000x1 S50000x128 [1] [0] [] [0] [] 1 ![1, 128]
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S40_S50000x1_S50000_n_0_0_1 : ScatterDims S40 S50000x1 S50000 where
  updateWindowDims := []
  insertedWindowDims := [0]
  scatterDimsToOperandDims := [0]
  indexVectorDim := 1
  wf := scatter_S40_S50000x1_S50000_n_0_0_1_wf
def scatter_S40x128_S50000x1_S50000x128_1_0_0_1 : ScatterDims S40x128 S50000x1 S50000x128 where
  updateWindowDims := [1]
  insertedWindowDims := [0]
  scatterDimsToOperandDims := [0]
  indexVectorDim := 1
  wf := scatter_S40x128_S50000x1_S50000x128_1_0_0_1_wf
def gather_S40x128_S50000x1_S50000x128_1_0_n_n_0_1_1128 : GatherDims S40x128 S50000x1 S50000x128 where
  offsetDims := [1]
  collapsedSliceDims := [0]
  operandBatchingDims := []
  startIndicesBatchingDims := []
  startIndexMap := [0]
  indexVectorDim := 1
  sliceSizes := ![1, 128]
  wf := gather_S40x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KData.lean ====
/-
  The proof data of the two kernel regions of `Kernel`, at a parameter `V`: the core's buffer contents when a
  region is entered.

  Region 0 (the statistics kernel, 25 grid points over blocks of 2000 rows) keeps three accumulators in scratch:
  the per-group sums of the rows, of their squares, and the group counts. After point `n` they hold the fold of the
  point's update over the blocks `0 … n` from zero (`sAt0`); the invariant between points carries exactly these
  contents (`PhiS0`). Its two results are written at the last point only: the mean (sum over count clamped at one)
  and the variance (mean square less squared mean), both computed from the accumulators of that point.
  Region 1 (the normalise–MLP–sigmoid kernel) is one pure function of its eight input blocks at each point (`out1_8`).
-/
import proofs.«421518_j21474836480044_1_alg».proof.Proof.Gen.Kernel.Launch
import proofs.«421518_j21474836480044_1_alg».proof.Proof.Gen.Kernel.Skeleton
import proofs.«421518_j21474836480044_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the blocks, the accumulators, the invariant -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 2000 rows of the propagated features at point `t`, -/
abbrev hblk0 (c : Dev nD) (t : Fin cfg0.N) : Vec F S2000x128 .f32 := iblk0 V c 0 t
/-- and the block of their 2000 time groups. -/
abbrev tblk0 (c : Dev nD) (t : Fin cfg0.N) : Vec F S2000x1 .i32 := iblk0 V c 1 t

/-- The scratch operands as memrefs. -/
abbrev scM0 : Memref sig .tc .vmem S40x128 .f32 := Memref.whole cc0_scratch0
abbrev scM1 : Memref sig .tc .vmem S40x128 .f32 := Memref.whole cc0_scratch1
abbrev scM2 : Memref sig .tc .vmem S40x1 .f32 := Memref.whole cc0_scratch2

/-- THE ACCUMULATION: the three accumulators (sums, sums of squares, counts) after the body at point `n`: the
    point's update of what point `n - 1` left, from zero at the first point. -/
def sAt0 (c : Dev nD) : (n : ℕ) → n < cfg0.N → Vec F S40x128 .f32 × Vec F S40x128 .f32 × Vec F S40x1 .f32
  | 0, hn =>
    (k0_pay10 (hblk0 V c ⟨0, hn⟩) (tblk0 V c ⟨0, hn⟩) k0_pay5,
     k0_pay11 (hblk0 V c ⟨0, hn⟩) (tblk0 V c ⟨0, hn⟩) k0_pay6,
     k0_pay1 (k0_pay12 (tblk0 V c ⟨0, hn⟩) k0_pay7))
  | n + 1, hn =>
    (k0_pay10 (hblk0 V c ⟨n + 1, hn⟩) (tblk0 V c ⟨n + 1, hn⟩) (sAt0 c n (Nat.lt_of_succ_lt hn)).1,
     k0_pay11 (hblk0 V c ⟨n + 1, hn⟩) (tblk0 V c ⟨n + 1, hn⟩) (sAt0 c n (Nat.lt_of_succ_lt hn)).2.1,
     k0_pay1 (k0_pay12 (tblk0 V c ⟨n + 1, hn⟩) (sAt0 c n (Nat.lt_of_succ_lt hn)).2.2))

theorem sAt0_zero (c : Dev nD) (hn : 0 < cfg0.N) :
    sAt0 V c 0 hn = (k0_pay10 (hblk0 V c ⟨0, hn⟩) (tblk0 V c ⟨0, hn⟩) k0_pay5,
      k0_pay11 (hblk0 V c ⟨0, hn⟩) (tblk0 V c ⟨0, hn⟩) k0_pay6,
      k0_pay1 (k0_pay12 (tblk0 V c ⟨0, hn⟩) k0_pay7)) := rfl

theorem sAt0_succ (c : Dev nD) (n : ℕ) (hn : n + 1 < cfg0.N) :
    sAt0 V c (n + 1) hn = (k0_pay10 (hblk0 V c ⟨n + 1, hn⟩) (tblk0 V c ⟨n + 1, hn⟩) (sAt0 V c n (Nat.lt_of_succ_lt hn)).1,
      k0_pay11 (hblk0 V c ⟨n + 1, hn⟩) (tblk0 V c ⟨n + 1, hn⟩) (sAt0 V c n (Nat.lt_of_succ_lt hn)).2.1,
      k0_pay1 (k0_pay12 (tblk0 V c ⟨n + 1, hn⟩) (sAt0 V c n (Nat.lt_of_succ_lt hn)).2.2)) := rfl

/-- The core's scoped buffers that region 0 neither stages through nor accumulates in (region 1's staging buffers),
    each whole at some contents. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f)
      ∗ (∃ f : Buf (Elt F) ((c : Thread nD τ).loc cc1_stg8_1), ((c : Thread nD τ).loc cc1_stg8_1) ↦{fullShare} f))

/-- The region invariant before position `n`: before the first point every scoped buffer at anything; afterwards
    the three accumulators at what the point before left, the other scoped buffers at anything; the generator
    register at some state throughout. -/
def PhiS0 (c : Dev nD) : (n : ℕ) → n ≤ cfg0.N → sProp 𝕄
  | 0, _ => Pipeline.ΦA spec0 c
  | n + 1, hn => iprop(owns (c : Thread nD τ) scM0 fullShare (sAt0 V c n hn).1
      ∗ owns (c : Thread nD τ) scM1 fullShare (sAt0 V c n hn).2.1
      ∗ owns (c : Thread nD τ) scM2 fullShare (sAt0 V c n hn).2.2
      ∗ rest0 c ∗ ∃ r, prngReg c r)

/-- The proof data of region 0 on core `c`: the arrays as the region finds them; after the body each input's buffer
    at its block, and the two results' buffers at the mean and the variance of that point's accumulators (consulted
    at the last point only: the results are idle before it). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (sAt0 V c t.val t.isLt).2.2 (sAt0 V c t.val t.isLt).1
    | ⟨3, _⟩ => k0_pay4 (sAt0 V c t.val t.isLt).2.2 (sAt0 V c t.val t.isLt).1 (sAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (sAt0 V c t.val t.isLt).2.2 (sAt0 V c t.val t.isLt).1 := by dsimp only [dat0]
theorem after0_3 (c : Dev nD) (t : Fin cfg0.N) :
    (dat0 V c).after 3 t = k0_pay4 (sAt0 V c t.val t.isLt).2.2 (sAt0 V c t.val t.isLt).1 (sAt0 V c t.val t.isLt).2.1 := by
  dsimp only [dat0]

/-! ## Region 1: the blocks and the body's one store -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the result's staging buffer: the sigmoid of the second layer, a pure function of the
    rows' block, their groups' block, the two tables, and the weights and biases. -/
def out1_8 (x0 : Vec F S2000x128 .f32) (x1 : Vec F S2000x1 .i32) (x2 x3 : Vec F S40x128 .f32) (x4 : Vec F S128x128 .f32)
    (x5 : Vec F S1x128 .f32) (x6 : Vec F S128x40 .f32) (x7 : Vec F S1x40 .f32) : Vec F S2000x40 .f32 :=
  k1_pay1 (k1_pay2 x0 x1 x2 x3 x4 x5 x6) x7

/-- The proof data of region 1 on core `c`: every input's buffer at its block, the result's at `out1_8` of them; the
    invariant is the scoped rest and the generator register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_in (c : Dev nD) (t : Fin cfg1.N) :
    (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t ∧ (dat1 V c).after 5 t = iblk1 V c 5 t
    ∧ (dat1 V c).after 6 t = iblk1 V c 6 t ∧ (dat1 V c).after 7 t = iblk1 V c 7 t := by
  dsimp only [dat1]; exact ⟨rfl, rfl, rfl, rfl, rfl, rfl, rfl, rfl⟩

theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by
  dsimp only [dat1]

end Cert.Kernel.Hand

end
-- ==== Proof.KBody0.lean ====
/-
  The body obligation of region 0 (the statistics kernel): at every grid point the body, handed the two input
  blocks and the accumulators as the point before left them, leaves the accumulators at this point's update
  (zeroing them first at the first point), and at the last point stores the mean and the variance.
-/
import proofs.«421518_j21474836480044_1_alg».proof.Proof.KData
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body over the grid, and where the results are idle -/

/-- The condition of the body's first conditional (the reset), from the grid coordinate. -/
abbrev cond0_0 (i : grid0.Coords) : Prop :=
  (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the results' stores). -/
abbrev cond0_1 (i : grid0.Coords) : Prop := k0_cond2 i = 1#1
/-- It holds at the last point only. -/
theorem hcond0_1 : ∀ t : Fin cfg0.N, cond0_1 (grid0.coords t) ↔ t.val = 24 :=
  (by decide +kernel : ∀ t : Fin grid0.N, cond0_1 (grid0.coords t) ↔ t.val = 24)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Before the last point the results are idle and not written back; -/
theorem idleAt0_2 : ∀ t : Fin cfg0.N, t.val ≠ 24 → cfg0.idle 2 (grid0.coords t) = true := by decide +kernel
theorem idleAt0_3 : ∀ t : Fin cfg0.N, t.val ≠ 24 → cfg0.idle 3 (grid0.coords t) = true := by decide +kernel
theorem noFlush0_2 : ∀ t : Fin cfg0.N, t.val ≠ 24 → (cfg0.win 2).flush t = false := by decide +kernel
theorem noFlush0_3 : ∀ t : Fin cfg0.N, t.val ≠ 24 → (cfg0.win 3).flush t = false := by decide +kernel
/-- at the last point they are live. -/
theorem liveAt0_2 : ∀ t : Fin cfg0.N, t.val = 24 → cfg0.idle 2 (grid0.coords t) = false := by decide +kernel
theorem liveAt0_3 : ∀ t : Fin cfg0.N, t.val = 24 → cfg0.idle 3 (grid0.coords t) = false := by decide +kernel

/-! ## The class invariant, the accumulators named -/

/-- Two assertions that entail one another are equal. -/
theorem eq_of_entails0 {P Q : sProp 𝕄} (h₁ : P ⊢ Q) (h₂ : Q ⊢ P) : P = Q := BI.equiv_iff.mp ⟨h₁, h₂⟩

/-- The class invariant with the three accumulators owned as memrefs at some contents. -/
theorem PhiA0_eq (c : Dev nD) :
    (Pipeline.ΦA spec0 c : sProp 𝕄)
      = iprop((∃ d, owns (c : Thread nD τ) scM0 fullShare d) ∗ (∃ d, owns (c : Thread nD τ) scM1 fullShare d)
        ∗ (∃ d, owns (c : Thread nD τ) scM2 fullShare d) ∗ rest0 c ∗ ∃ r, prngReg c r) := by
  unfold Pipeline.ΦA; rw [scopedRest0_eq]; unfold rest0; simp only [owns_whole]
  refine eq_of_entails0 ?_ ?_
  · iintro ⟨⟨H0, H1, H2, HR⟩, Hg⟩
    isplitl [H0]; · iexact H0
    isplitl [H1]; · iexact H1
    isplitl [H2]; · iexact H2
    isplitl [HR]; · iexact HR
    iexact Hg
  · iintro ⟨H0, H1, H2, HR, Hg⟩
    isplitr [Hg]
    · isplitl [H0]; · iexact H0
      isplitl [H1]; · iexact H1
      isplitl [H2]; · iexact H2
      iexact HR
    iexact Hg

/-! ## Loads and stores through the whole of a buffer -/

theorem offs0_zero : (![0, 0] : Fin 2 → ℕ) = fun _ => 0 := by funext a; fin_cases a <;> rfl

/-- A load through the whole-shape rectangle reads the contents. -/
theorem load0_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb _

/-- After a store through the whole-shape rectangle the buffer reads as the stored value, whatever was stored before. -/
theorem store0_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩),
    View.canon_cons_unit_zero h inb w L]

/-- A load through the whole-shape rectangle, after a store through it in the same run, reads the stored value. -/
theorem reload0_whole {κ : Kind} {sp : Space} {S : Shape} {e : EltTy} (v : View sig κ sp S e)
    {off : Fin S.rank → ℕ} (h : off = fun _ => 0) (inb : ∀ a, off a + S.size a ≤ S.size a) (w : S.Idx → Elt F e)
    (L : List (View.Piece (Elt F) S e)) :
    v.readCov (⟨Rect.unit off S.size inb, w⟩ :: L) (Rect.unit off S.size inb).toLoadRect = w :=
  View.readCov_cons_toLoadRect v (Rect.unit off S.size inb) w L

set_option maxHeartbeats 4000000 in
theorem sound_kernel0_first (c : Dev nD) (E : Set ℕ) (i : grid0.Coords)
    (arg1 : Memref sig .tc .vmem S2000x128 .f32) (harg1 : arg1.IsWhole) (arg2 : Memref sig .tc .vmem S2000x1 .i32) (harg2 : arg2.IsWhole)
    (arg3 : Memref sig .tc .vmem S40x128 .f32) (harg3 : arg3.IsWhole) (arg4 : Memref sig .tc .vmem S40x128 .f32) (harg4 : arg4.IsWhole)
    (arg5 : Memref sig .tc .vmem S40x128 .f32) (harg5 : arg5.IsWhole) (arg6 : Memref sig .tc .vmem S40x128 .f32) (harg6 : arg6.IsWhole)
    (arg7 : Memref sig .tc .vmem S40x1 .f32) (harg7 : arg7.IsWhole)
    (hc0 : cond0_0 i) (hc1 : ¬cond0_1 i)
    (x0 : Vec F S2000x128 .f32) (x1 : Vec F S2000x1 .i32) (K : PUnit → sProp 𝕄) :
    iprop(owns (c : Thread nD τ) arg1 fullShare x0 ∗ owns (c : Thread nD τ) arg2 fullShare x1
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg5 fullShare (k0_pay10 x0 x1 k0_pay5) ∗ owns (c : Thread nD τ) arg6 fullShare (k0_pay11 x0 x1 k0_pay6)
            ∗ owns (c : Thread nD τ) arg7 fullShare (k0_pay1 (k0_pay12 x1 k0_pay7))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d0, %g0, -, HS0⟩, ⟨%d1, %g1, -, HS1⟩, ⟨%d2, %g2, -, HS2⟩, Hk⟩
  subst hf0 hf1
  sl_exec (disch := first | exact hc0 | exact hc1)
  sl_step

  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    rw [store0_whole (S := S40x128) _ _ offs0_zero, load0_whole (S := S2000x128) _ _ offs0_zero,
      load0_whole (S := S2000x1) _ _ offs0_zero]
    unfold sound_kernel0_first.sl.v13 sound_kernel0_first.sl.HS0_1
    rw [reload0_whole (S := S40x128) _ offs0_zero]
  isplitl [HS1]
  · iexists _; isplitr
    swap; · iexact HS1
    ipureintro
    rw [store0_whole (S := S40x128) _ _ offs0_zero, load0_whole (S := S2000x128) _ _ offs0_zero,
      load0_whole (S := S2000x1) _ _ offs0_zero]
    unfold sound_kernel0_first.sl.v20 sound_kernel0_first.sl.HS1_1
    rw [reload0_whole (S := S40x128) _ offs0_zero]
  iexists _; isplitr
  swap; · iexact HS2
  ipureintro
  rw [store0_whole (S := S40x1) _ _ offs0_zero, load0_whole (S := S2000x1) _ _ offs0_zero]
  unfold sound_kernel0_first.sl.v28 sound_kernel0_first.sl.HS2_1
  rw [reload0_whole (S := S40x1) _ offs0_zero]

set_option maxHeartbeats 4000000 in
theorem sound_kernel0_mid (c : Dev nD) (E : Set ℕ) (i : grid0.Coords)
    (arg1 : Memref sig .tc .vmem S2000x128 .f32) (harg1 : arg1.IsWhole) (arg2 : Memref sig .tc .vmem S2000x1 .i32) (harg2 : arg2.IsWhole)
    (arg3 : Memref sig .tc .vmem S40x128 .f32) (harg3 : arg3.IsWhole) (arg4 : Memref sig .tc .vmem S40x128 .f32) (harg4 : arg4.IsWhole)
    (arg5 : Memref sig .tc .vmem S40x128 .f32) (harg5 : arg5.IsWhole) (arg6 : Memref sig .tc .vmem S40x128 .f32) (harg6 : arg6.IsWhole)
    (arg7 : Memref sig .tc .vmem S40x1 .f32) (harg7 : arg7.IsWhole)
    (hc0 : ¬cond0_0 i) (hc1 : ¬cond0_1 i)
    (x0 : Vec F S2000x128 .f32) (x1 : Vec F S2000x1 .i32) (s0 s1 : Vec F S40x128 .f32) (s2 : Vec F S40x1 .f32) (K : PUnit → sProp 𝕄) :
    iprop(owns (c : Thread nD τ) arg1 fullShare x0 ∗ owns (c : Thread nD τ) arg2 fullShare x1
        ∗ owns (c : Thread nD τ) arg5 fullShare s0 ∗ owns (c : Thread nD τ) arg6 fullShare s1 ∗ owns (c : Thread nD τ) arg7 fullShare s2
        ∗ (iprop(owns (c : Thread nD τ) arg1 fullShare x0 ∗ owns (c : Thread nD τ) arg2 fullShare x1
            ∗ owns (c : Thread nD τ) arg5 fullShare (k0_pay10 x0 x1 s0) ∗ owns (c : Thread nD τ) arg6 fullShare (k0_pay11 x0 x1 s1)
            ∗ owns (c : Thread nD τ) arg7 fullShare (k0_pay1 (k0_pay12 x1 s2))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%g0, %hg0, HS0⟩, ⟨%g1, %hg1, HS1⟩, ⟨%g2, %hg2, HS2⟩, Hk⟩
  subst hf0 hf1 hg0 hg1 hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    rw [store0_whole (S := S40x128) _ _ offs0_zero, load0_whole (S := S2000x128) _ _ offs0_zero,
      load0_whole (S := S2000x1) _ _ offs0_zero, load0_whole (S := S40x128) _ _ offs0_zero]
  isplitl [HS1]
  · iexists _; isplitr
    swap; · iexact HS1
    ipureintro
    rw [store0_whole (S := S40x128) _ _ offs0_zero, load0_whole (S := S2000x128) _ _ offs0_zero,
      load0_whole (S := S2000x1) _ _ offs0_zero, load0_whole (S := S40x128) _ _ offs0_zero]
  iexists _; isplitr
  swap; · iexact HS2
  ipureintro
  rw [store0_whole (S := S40x1) _ _ offs0_zero, load0_whole (S := S2000x1) _ _ offs0_zero, load0_whole (S := S40x1) _ _ offs0_zero]

set_option maxHeartbeats 4000000 in
theorem sound_kernel0_last (c : Dev nD) (E : Set ℕ) (i : grid0.Coords)
    (arg1 : Memref sig .tc .vmem S2000x128 .f32) (harg1 : arg1.IsWhole) (arg2 : Memref sig .tc .vmem S2000x1 .i32) (harg2 : arg2.IsWhole)
    (arg3 : Memref sig .tc .vmem S40x128 .f32) (harg3 : arg3.IsWhole) (arg4 : Memref sig .tc .vmem S40x128 .f32) (harg4 : arg4.IsWhole)
    (arg5 : Memref sig .tc .vmem S40x128 .f32) (harg5 : arg5.IsWhole) (arg6 : Memref sig .tc .vmem S40x128 .f32) (harg6 : arg6.IsWhole)
    (arg7 : Memref sig .tc .vmem S40x1 .f32) (harg7 : arg7.IsWhole)
    (hc0 : ¬cond0_0 i) (hc1 : cond0_1 i)
    (x0 : Vec F S2000x128 .f32) (x1 : Vec F S2000x1 .i32) (s0 s1 : Vec F S40x128 .f32) (s2 : Vec F S40x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1 ∗ owns (c : Thread nD τ) arg7 fullShare s2
        ∗ (iprop(owns (c : Thread nD τ) arg1 fullShare x0 ∗ owns (c : Thread nD τ) arg2 fullShare x1
            ∗ owns (c : Thread nD τ) arg3 fullShare (k0_pay3 (k0_pay1 (k0_pay12 x1 s2)) (k0_pay10 x0 x1 s0))
            ∗ owns (c : Thread nD τ) arg4 fullShare (k0_pay4 (k0_pay1 (k0_pay12 x1 s2)) (k0_pay10 x0 x1 s0) (k0_pay11 x0 x1 s1))
            ∗ owns (c : Thread nD τ) arg5 fullShare (k0_pay10 x0 x1 s0) ∗ owns (c : Thread nD τ) arg6 fullShare (k0_pay11 x0 x1 s1)
            ∗ owns (c : Thread nD τ) arg7 fullShare (k0_pay1 (k0_pay12 x1 s2))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%g0, %hg0, HS0⟩, ⟨%g1, %hg1, HS1⟩, ⟨%g2, %hg2, HS2⟩, Hk⟩
  subst hf0 hf1 hg0 hg1 hg2
  sl_exec (disch := first | exact hc0 | exact hc1)
  sl_step

  have e0 : arg5.view.readCov (sound_kernel0_last.sl.HS0_1 c arg1 arg2 arg5 f0 f1 g0)
        (Rect.unit ![0, 0] S40x128.size inb_S40x128_S40x128_0_0).toLoadRect
      = k0_pay10 (View.read (Elt F) arg1.view f0) (View.read (Elt F) arg2.view f1) (View.read (Elt F) arg5.view g0) := by
    unfold sound_kernel0_last.sl.HS0_1
    rw [reload0_whole (S := S40x128) _ offs0_zero, load0_whole (S := S2000x128) _ _ offs0_zero,
      load0_whole (S := S2000x1) _ _ offs0_zero, load0_whole (S := S40x128) _ _ offs0_zero]
  have e1 : arg6.view.readCov (sound_kernel0_last.sl.HS1_1 c arg1 arg2 arg6 f0 f1 g1)
        (Rect.unit ![0, 0] S40x128.size inb_S40x128_S40x128_0_0).toLoadRect
      = k0_pay11 (View.read (Elt F) arg1.view f0) (View.read (Elt F) arg2.view f1) (View.read (Elt F) arg6.view g1) := by
    unfold sound_kernel0_last.sl.HS1_1
    rw [reload0_whole (S := S40x128) _ offs0_zero, load0_whole (S := S2000x128) _ _ offs0_zero,
      load0_whole (S := S2000x1) _ _ offs0_zero, load0_whole (S := S40x128) _ _ offs0_zero]
  have e2 : arg7.view.readCov (sound_kernel0_last.sl.HS2_1 c i arg2 arg7 f1 g2)
        (Rect.unit ![0, 0] S40x1.size inb_S40x1_S40x1_0_0).toLoadRect
      = k0_pay1 (k0_pay12 (View.read (Elt F) arg2.view f1) (View.read (Elt F) arg7.view g2)) := by
    unfold sound_kernel0_last.sl.HS2_1
    rw [reload0_whole (S := S40x1) _ offs0_zero, load0_whole (S := S2000x1) _ _ offs0_zero, load0_whole (S := S40x1) _ _ offs0_zero]
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [store0_whole (S := S40x128) _ _ offs0_zero]
    unfold sound_kernel0_last.sl.v38 sound_kernel0_last.sl.v41
    rw [e0]; exact congrArg (fun z => k0_pay3 z _) e2
  isplitl [H3]
  · iexists _; isplitr
    swap; · iexact H3
    ipureintro
    rw [store0_whole (S := S40x128) _ _ offs0_zero]
    unfold sound_kernel0_last.sl.v38 sound_kernel0_last.sl.v41 sound_kernel0_last.sl.v44
    rw [e0, e1]; exact congrArg (fun z => k0_pay4 z _ _) e2
  isplitl [HS0]
  · iexists _; isplitr
    swap; · iexact HS0
    ipureintro
    unfold sound_kernel0_last.sl.HS0_1
    rw [store0_whole (S := S40x128) _ _ offs0_zero, load0_whole (S := S2000x128) _ _ offs0_zero,
      load0_whole (S := S2000x1) _ _ offs0_zero, load0_whole (S := S40x128) _ _ offs0_zero]
  isplitl [HS1]
  · iexists _; isplitr
    swap; · iexact HS1
    ipureintro
    unfold sound_kernel0_last.sl.HS1_1
    rw [store0_whole (S := S40x128) _ _ offs0_zero, load0_whole (S := S2000x128) _ _ offs0_zero,
      load0_whole (S := S2000x1) _ _ offs0_zero, load0_whole (S := S40x128) _ _ offs0_zero]
  iexists _; isplitr
  swap; · iexact HS2
  ipureintro
  unfold sound_kernel0_last.sl.HS2_1
  rw [store0_whole (S := S40x1) _ _ offs0_zero, load0_whole (S := S2000x1) _ _ offs0_zero, load0_whole (S := S40x1) _ _ offs0_zero]

/-! ## What the body finds at a point -/

/-- The block of rows stays in its buffer at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- So does the block of time groups. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The invariant before the first point is the class's; -/
theorem PhiS0_zero (c : Dev nD) (n : ℕ) (h : n ≤ cfg0.N) (hz : n = 0) : PhiS0 V c n h = Pipeline.ΦA spec0 c := by
  subst hz; rfl

/-- after point `n` it names the accumulators of that point; -/
theorem PhiS0_succ (c : Dev nD) (n : ℕ) (hn : n < cfg0.N) :
    PhiS0 V c (n + 1) hn = iprop(owns (c : Thread nD τ) scM0 fullShare (sAt0 V c n hn).1
      ∗ owns (c : Thread nD τ) scM1 fullShare (sAt0 V c n hn).2.1
      ∗ owns (c : Thread nD τ) scM2 fullShare (sAt0 V c n hn).2.2
      ∗ rest0 c ∗ ∃ r, prngReg c r) := rfl

/-- before a point that is not the first, those of the point before. -/
theorem PhiS0_pos (c : Dev nD) (n : ℕ) (h : n ≤ cfg0.N) (hz : n ≠ 0) :
    PhiS0 V c n h = iprop(owns (c : Thread nD τ) scM0 fullShare (sAt0 V c (n - 1) (by omega)).1
      ∗ owns (c : Thread nD τ) scM1 fullShare (sAt0 V c (n - 1) (by omega)).2.1
      ∗ owns (c : Thread nD τ) scM2 fullShare (sAt0 V c (n - 1) (by omega)).2.2
      ∗ rest0 c ∗ ∃ r, prngReg c r) := by
  cases n with
  | zero => exact absurd rfl hz
  | succ n => rfl

theorem Phi0_castSucc (c : Dev nD) (t : Fin cfg0.N) :
    (dat0 V c).Φ t.castSucc = PhiS0 V c t.val (Nat.le_of_lt t.isLt) := by
  dsimp only [dat0]; simp only [Fin.coe_castSucc]

/-- The accumulators after the first point: the update of zero. -/
theorem sAt0_first (c : Dev nD) (t : Fin cfg0.N) (h : t.val = 0) :
    sAt0 V c t.val t.isLt = (k0_pay10 (hblk0 V c t) (tblk0 V c t) k0_pay5, k0_pay11 (hblk0 V c t) (tblk0 V c t) k0_pay6,
      k0_pay1 (k0_pay12 (tblk0 V c t) k0_pay7)) := by
  obtain ⟨n, hn⟩ := t
  cases n with
  | zero => exact sAt0_zero V c hn
  | succ n => exact absurd h (Nat.succ_ne_zero n)

/-- The accumulators after a later point: the update of the point before's. -/
theorem sAt0_later (c : Dev nD) (t : Fin cfg0.N) (h : t.val ≠ 0) :
    sAt0 V c t.val t.isLt = (k0_pay10 (hblk0 V c t) (tblk0 V c t) (sAt0 V c (t.val - 1) (by omega)).1,
      k0_pay11 (hblk0 V c t) (tblk0 V c t) (sAt0 V c (t.val - 1) (by omega)).2.1,
      k0_pay1 (k0_pay12 (tblk0 V c t) (sAt0 V c (t.val - 1) (by omega)).2.2)) := by
  obtain ⟨n, hn⟩ := t
  cases n with
  | zero => exact absurd rfl h
  | succ n => exact sAt0_succ V c n hn

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4000000 in
/-- The first point: the invariant hands the accumulators at anything; the body zeroes them and adds the point's
    sums; the results' buffers go back as they came. -/
theorem sound_body0_first (c : Dev nD) (t : Fin cfg0.N) (hz : t.val = 0) :
    bodyPre0 V c t ⊢ wp frame (wpE (defs₀ (F := F)) Variants.none c none) Set.univ (bodyAt0 t) (fun _ => bodyPost0 V c t) := by
  have h24 : t.val ≠ 24 := by omega
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [Dat.leavesExact_idle (dat0 V c) 2 t (idleAt0_2 t h24) (noFlush0_2 t h24)]
  rw [Dat.leavesExact_idle (dat0 V c) 3 t (idleAt0_3 t h24) (noFlush0_3 t h24)]
  rw [sAt0_first V c t hz]
  rw [Phi0_castSucc V c t, PhiS0_zero V c _ _ hz, PhiA0_eq]
  iintro ⟨⟨HS0, HS1, HS2, HR, Hg⟩, Ho, ⟨%d0, H0⟩, ⟨%d1, H1⟩, H2, H3⟩
  iapply (sound_kernel0_first c Set.univ (grid0.coords t) _ _ _ _ _ _ _ _ _ _ _ _ _ _ ((hcond0_0 t).mpr hz) (fun h => h24 ((hcond0_1 t).mp h))
    (iblk0 V c 0 t) (iblk0 V c 1 t) _)
  isplitl [H0]; · iexact H0
  isplitl [H1]; · iexact H1
  isplitl [HS0]; · iexact HS0
  isplitl [HS1]; · iexact HS1
  isplitl [HS2]; · iexact HS2
  iintro ⟨H0, H1, HS0, HS1, HS2⟩
  isplitl [HS0 HS1 HS2 HR Hg]
  · isplitl [HS0]; · iexact HS0
    isplitl [HS1]; · iexact HS1
    isplitl [HS2]; · iexact HS2
    isplitl [HR]; · iexact HR
    iexact Hg
  isplitl [Ho]; · iexact Ho
  isplitl [H0]; · iexact H0
  isplitl [H1]; · iexact H1
  isplitl [H2]; · iexact H2
  iexact H3

set_option maxHeartbeats 4000000 in
/-- A point between the first and the last: the invariant hands the accumulators as the point before left them; the
    body adds the point's sums; the results' buffers go back as they came. -/
theorem sound_body0_mid (c : Dev nD) (t : Fin cfg0.N) (hz : t.val ≠ 0) (h24 : t.val ≠ 24) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [Dat.leavesExact_idle (dat0 V c) 2 t (idleAt0_2 t h24) (noFlush0_2 t h24)]
  rw [Dat.leavesExact_idle (dat0 V c) 3 t (idleAt0_3 t h24) (noFlush0_3 t h24)]
  rw [sAt0_later V c t hz]
  rw [Phi0_castSucc V c t, PhiS0_pos V c _ _ hz]
  iintro ⟨⟨HS0, HS1, HS2, HR, Hg⟩, Ho, ⟨%d0, H0⟩, ⟨%d1, H1⟩, H2, H3⟩
  iapply (sound_kernel0_mid c Set.univ (grid0.coords t) _ _ _ _ _ _ _ _ _ _ _ _ _ _ (fun h => hz ((hcond0_0 t).mp h)) (fun h => h24 ((hcond0_1 t).mp h))
    (iblk0 V c 0 t) (iblk0 V c 1 t) _ _ _ _)
  isplitl [H0]; · iexact H0
  isplitl [H1]; · iexact H1
  isplitl [HS0]; · iexact HS0
  isplitl [HS1]; · iexact HS1
  isplitl [HS2]; · iexact HS2
  iintro ⟨H0, H1, HS0, HS1, HS2⟩
  isplitl [HS0 HS1 HS2 HR Hg]
  · isplitl [HS0]; · iexact HS0
    isplitl [HS1]; · iexact HS1
    isplitl [HS2]; · iexact HS2
    isplitl [HR]; · iexact HR
    iexact Hg
  isplitl [Ho]; · iexact Ho
  isplitl [H0]; · iexact H0
  isplitl [H1]; · iexact H1
  isplitl [H2]; · iexact H2
  iexact H3

set_option maxHeartbeats 4000000 in
/-- The last point: the body adds the point's sums, then stores the mean and the variance of the accumulators into
    the results' buffers, which the pipeline writes back. -/
theorem sound_body0_last (c : Dev nD) (t : Fin cfg0.N) (hz : t.val ≠ 0) (h24 : t.val = 24) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t h24], after0_2]
  rw [show (dat0 V c).leavesExact 3 t = owns (c : Thread nD τ) (st0_3 t) fullShare ((dat0 V c).after 3 t) from by
    unfold Dat.leavesExact; rw [liveAt0_3 t h24], after0_3]
  rw [sAt0_later V c t hz]
  rw [Phi0_castSucc V c t, PhiS0_pos V c _ _ hz]
  iintro ⟨⟨HS0, HS1, HS2, HR, Hg⟩, Ho, ⟨%d0, H0⟩, ⟨%d1, H1⟩, ⟨%d2, H2⟩, ⟨%d3, H3⟩⟩
  iapply (sound_kernel0_last c Set.univ (grid0.coords t) _ _ _ _ _ _ _ _ _ _ _ _ _ _ (fun h => hz ((hcond0_0 t).mp h)) ((hcond0_1 t).mpr h24)
    (iblk0 V c 0 t) (iblk0 V c 1 t) _ _ _ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 HR Hg]
  · isplitl [HS0]; · iexact HS0
    isplitl [HS1]; · iexact HS1
    isplitl [HS2]; · iexact HS2
    isplitl [HR]; · iexact HR
    iexact Hg
  isplitl [Ho]; · iexact Ho
  isplitl [H0]; · iexact H0
  isplitl [H1]; · iexact H1
  isplitl [H2]; · iexact H2
  iexact H3

/-- The body at any point, by its place on the grid. -/
theorem sound_body0 (c : Dev nD) (t : Fin cfg0.N) :
    bodyPre0 V c t ⊢ wp frame (wpE (defs₀ (F := F)) Variants.none c none) Set.univ (bodyAt0 t) (fun _ => bodyPost0 V c t) := by
  by_cases hz : t.val = 0
  · exact sound_body0_first V c t hz
  · by_cases h24 : t.val = 24
    · exact sound_body0_last V c t hz h24
    · exact sound_body0_mid V c t hz h24

/-! ## The four facts the run takes -/

/-- The library's body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers and the generator register back. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨HS0, HS1, HS2, HR, Hg⟩
  isplitl [HS0]; · iexists _; iexact HS0
  isplitl [HS1]; · iexists _; iexact HS1
  isplitl [HS2]; · iexists _; iexact HS2
  isplitl [HR]; · iexact HR
  iexact Hg

end Cert.Kernel.Hand

end
-- ==== Proof.KBody1.lean ====
/-
  The body obligation of region 1 (normalise, two-layer perceptron, sigmoid): at every grid point the body reads its
  eight input blocks and stores one pure function of them into the result's block.
-/
import proofs.«421518_j21474836480044_1_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers at a point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]

/-- Input window 0's current staging buffer holds its block at every point, fetched there or not: where it is not
    fetched its block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not: where it is not
    fetched its block index has not moved, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not: where it is not
    fetched its block index has not moved, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not: where it is not
    fetched its block index has not moved, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's current staging buffer holds its block at every point, fetched there or not: where it is not
    fetched its block index has not moved, and the body leaves the block in place. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's current staging buffer holds its block at every point, fetched there or not: where it is not
    fetched its block index has not moved, and the body leaves the block in place. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's current staging buffer holds its block at every point, fetched there or not: where it is not
    fetched its block index has not moved, and the body leaves the block in place. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- Input window 7's current staging buffer holds its block at every point, fetched there or not: where it is not
    fetched its block index has not moved, and the body leaves the block in place. -/
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body's triple -/

/-- The two offsets of a whole-buffer rectangle are zero. -/
theorem offs1_zero : (![0, 0] : Fin 2 → ℕ) = fun _ => 0 := funext fun a => by fin_cases a <;> rfl

/-- A load through the rectangle of a buffer's whole shape at zero offsets reads what the buffer reads: each of its
    indices sits at itself. -/
theorem load1_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) :
    View.readAt Val v (Rect.unit off S.size inb).toLoadRect f = View.read Val v f := by
  subst h; funext x
  show View.read Val v f ((Rect.whole S).emb x) = View.read Val v f x
  rw [Rect.emb_whole_apply]

/-- One store through that rectangle leaves its payload, whatever the buffer held: every index is under it. -/
theorem store1_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb (v := v) (f := f) (Rect.whole S) w [] y
  rwa [Rect.emb_whole_apply] at e

set_option maxHeartbeats 1000000 in
/-- The kernel body on whole staging memrefs, the eight inputs' at read contents `x0 … x7` and the result's at anything,
    runs to the continuation holding the inputs' as they were and the result's at `out1_8` of them: eight loads through
    whole-buffer rectangles, and one store of the payload of what they read through the whole-buffer rectangle of
    the result, which alone covers it. -/
theorem sound_kernel1 (c : Dev nD) (E : Set ℕ) (i : grid1.Coords)
    (arg1 : Memref sig .tc .vmem S2000x128 .f32) (harg1 : arg1.IsWhole) (arg2 : Memref sig .tc .vmem S2000x1 .i32) (harg2 : arg2.IsWhole)
    (arg3 : Memref sig .tc .vmem S40x128 .f32) (harg3 : arg3.IsWhole) (arg4 : Memref sig .tc .vmem S40x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x40 .f32) (harg7 : arg7.IsWhole) (arg8 : Memref sig .tc .vmem S1x40 .f32) (harg8 : arg8.IsWhole)
    (arg9 : Memref sig .tc .vmem S2000x40 .f32) (harg9 : arg9.IsWhole)
    (x0 : Vec F S2000x128 .f32) (x1 : Vec F S2000x1 .i32) (x2 x3 : Vec F S40x128 .f32) (x4 : Vec F S128x128 .f32)
    (x5 : Vec F S1x128 .f32) (x6 : Vec F S128x40 .f32) (x7 : Vec F S1x40 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__apply_kernel i arg1 harg1 arg2 harg2 arg3 harg3 arg4 harg4 arg5 harg5 arg6 harg6 arg7 harg7 arg8 harg8 arg9 harg9) K := by
  simp only [cc1__apply_kernel_eq_skeleton]; unfold cc1__apply_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (store1_whole (S := S2000x40) arg9.view f8 offs1_zero inb_S2000x40_S2000x40_0_0 _).trans ?_
  unfold out1_8
  rw [load1_whole arg1.view f0 offs1_zero, load1_whole arg2.view f1 offs1_zero, load1_whole arg3.view f2 offs1_zero,
    load1_whole arg4.view f3 offs1_zero, load1_whole arg5.view f4 offs1_zero, load1_whole arg6.view f5 offs1_zero,
    load1_whole arg7.view f6 offs1_zero, load1_whole arg8.view f7 offs1_zero]

/-! ## The body obligation, at a generic point -/

/-- What the body is called with at point `t`: the invariant, the core's dues, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' buffers hold their blocks, so the kernel's triple applies at the blocks; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The run of @main: seventy-five host operations (the two hops of graph propagation and the reshapes and
  transposes of the operands), then the statistics region, then the normalise–perceptron–sigmoid region.

  The buffer contents at each boundary are a fold from the launch memory: `W1` after the host operations, `W2` with
  region 0's arrays at what its write-backs leave (the mean and the variance tables), `W3` likewise after region 1
  (the result). Each region is entered from every unscoped buffer at the boundary's contents and left at the next;
  the generator register and the core's empty debt ride along. The run's post: every unscoped buffer holds `W3`.
-/
import proofs.«421518_j21474836480044_1_alg».proof.Proof.KBody0
import proofs.«421518_j21474836480044_1_alg».proof.Proof.KBody1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer no host operation writes and no region's window names ends as launched. -/
theorem W3_of_untouched (c : Dev nD) (b : Ref sig .tc) (h0 : ∀ w, Pipeline.arrRef spec0 w ≠ b) (h1 : ∀ w, Pipeline.arrRef spec1 w ≠ b)
    (hw : ∀ op ∈ (hostOps0 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := W3_of_ne m ρ c b h1
    _ = W1 m ρ c (Proc.devRef .tc b) := W2_of_ne m ρ c b h0
    _ = W0 m ρ c (Proc.devRef .tc b) := StableHlo.after_of_forall_not_mem (b := Proc.devRef .tc b) _ _ hw
    _ = m ((c : Thread nD τ).loc b) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No host operation allocates a buffer. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0: entered from every unscoped buffer at `W1`, left at `W2`; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from hin0 (V1 m ρ) c)
    unfold Pipeline.ΦA
    iintro ⟨Hp, -, Hr⟩
    isplitl [Hr]; · iexact Hr
    iexact Hp
  hout c := by
    refine BIBase.Entails.trans (show (pdats m ρ 0 c).Φ (Fin.last _) ⊢ (Pipeline.ΦA spec0 c : sProp 𝕄) from hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]

set_option maxHeartbeats 4000000 in
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state has every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.KArgs.lean ====
/-
  No host operation of @main writes an argument array: each of the eight reaches the regions, and the end, as launched.
-/

import proofs.«421518_j21474836480044_1_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- None of the seventy-five host operations writes an argument's buffer. -/
theorem hostOps0_keeps_args (b : Ref sig .tc)
    (hb : b = main_arg0 ∨ b = main_arg1 ∨ b = main_arg2 ∨ b = main_arg3 ∨ b = main_arg4 ∨ b = main_arg5 ∨ b = main_arg6 ∨ b = main_arg7) :
    ∀ op ∈ (hostOps0 : List (HloOp τ sig (Elt F))), Proc.devRef .tc b ∉ op.writes := by
  -- one argument at a time
  rcases hb with rfl | rfl | rfl | rfl | rfl | rfl | rfl | rfl
  all_goals
    -- over the explicit list the claim is a conjunction, one conjunct per operation
    refine List.forall_iff_forall_mem.mp ?_
    -- each operation writes exactly its result's buffer
    simp only [hostOps0, List.Forall, StableHlo.nullary_writes, StableHlo.unary_writes, StableHlo.binary_writes,
      StableHlo.ternary_writes, StableHlo.reshape_writes, Finset.mem_singleton]
    repeat' apply And.intro
    -- and no result is an argument: distinct references name distinct buffers
    all_goals exact StableHlo.devRef_ne_of_ne (by decide)

end Cert.Kernel.Hand

end
-- ==== Proof.KFrame.lean ====
/-
  The frame of the program, and the run with the result's buffer named: from the run's post (every unscoped buffer at
  the last boundary's contents) each argument array is read back to its launch contents — no host operation writes
  one and no region's window names one.
-/
import proofs.«421518_j21474836480044_1_alg».proof.Proof.KRun
import proofs.«421518_j21474836480044_1_alg».proof.Proof.KArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An argument's buffer ends as launched. -/
theorem W3_arg (c : Dev nD) (b : Ref sig .tc)
    (hb : b = main_arg0 ∨ b = main_arg1 ∨ b = main_arg2 ∨ b = main_arg3 ∨ b = main_arg4 ∨ b = main_arg5 ∨ b = main_arg6 ∨ b = main_arg7) :
    W3 m ρ c (Proc.devRef .tc b) = m ((c : Thread nD τ).loc b) := by
  refine W3_of_untouched m ρ c b ?_ ?_ (hostOps0_keeps_args b hb)
  · rcases hb with rfl | rfl | rfl | rfl | rfl | rfl | rfl | rfl <;> decide
  · rcases hb with rfl | rfl | rfl | rfl | rfl | rfl | rfl | rfl <;> decide

/-- The run with the result named: the result's buffer at `W3`, every argument as launched. -/
theorem run_value : θ_run defs (onTc (τ := τ) (main (F := F))) ⟨m, fun _ => 0, ρ⟩ (fun r => ∀ c : Dev nD,
      r.2.mem ((c.tc : Thread nD τ).loc main_v61) = W3 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v61 (by decide)),
      (h c _ (mem_uc main_arg0 (by decide))).trans (W3_arg m ρ c main_arg0 (Or.inl rfl)),
      (h c _ (mem_uc main_arg1 (by decide))).trans (W3_arg m ρ c main_arg1 (Or.inr (Or.inl rfl))),
      (h c _ (mem_uc main_arg2 (by decide))).trans (W3_arg m ρ c main_arg2 (Or.inr (Or.inr (Or.inl rfl)))),
      (h c _ (mem_uc main_arg3 (by decide))).trans (W3_arg m ρ c main_arg3 (Or.inr (Or.inr (Or.inr (Or.inl rfl))))),
      (h c _ (mem_uc main_arg4 (by decide))).trans (W3_arg m ρ c main_arg4 (Or.inr (Or.inr (Or.inr (Or.inr (Or.inl rfl)))))),
      (h c _ (mem_uc main_arg5 (by decide))).trans (W3_arg m ρ c main_arg5 (Or.inr (Or.inr (Or.inr (Or.inr (Or.inr (Or.inl rfl))))))),
      (h c _ (mem_uc main_arg6 (by decide))).trans (W3_arg m ρ c main_arg6 (Or.inr (Or.inr (Or.inr (Or.inr (Or.inr (Or.inr (Or.inl rfl)))))))),
      (h c _ (mem_uc main_arg7 (by decide))).trans (W3_arg m ρ c main_arg7 (Or.inr (Or.inr (Or.inr (Or.inr (Or.inr (Or.inr (Or.inr (rfl)))))))))⟩)
    (run_main m ρ)

/-- The frame: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_value m ρ)

end Cert.Kernel.Hand

end
-- ==== Proof.KIData.lean ====
/-
  The proof data of the two kernel regions of `KernelIdeal`, at a parameter `V`: the core's buffer contents when a
  region is entered.

  Region 0 (the statistics kernel, 25 grid points over blocks of 2000 rows) keeps three accumulators in scratch:
  the per-group sums of the rows, of their squares, and the group counts. After point `n` they hold the fold of the
  point's update over the blocks `0 … n` from zero (`sAt0`); the invariant between points carries exactly these
  contents (`PhiS0`). Its two results are written at the last point only: the mean (sum over count clamped at one)
  and the variance (mean square less squared mean), both computed from the accumulators of that point.
  Region 1 (the normalise–MLP–sigmoid kernel) is one pure function of its eight input blocks at each point (`out1_8`).
-/
import proofs.«421518_j21474836480044_1_alg».proof.Proof.Gen.KernelIdeal.Launch
import proofs.«421518_j21474836480044_1_alg».proof.Proof.Gen.KernelIdeal.Skeleton
import proofs.«421518_j21474836480044_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the blocks, the accumulators, the invariant -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of 2000 rows of the propagated features at point `t`, -/
abbrev hblk0 (c : Dev nD) (t : Fin cfg0.N) : Vec F S2000x128 .f32 := iblk0 V c 0 t
/-- and the block of their 2000 time groups. -/
abbrev tblk0 (c : Dev nD) (t : Fin cfg0.N) : Vec F S2000x1 .i32 := iblk0 V c 1 t

/-- The scratch operands as memrefs. -/
abbrev scM0 : Memref sig .tc .vmem S40x128 .f32 := Memref.whole cc0_scratch0
abbrev scM1 : Memref sig .tc .vmem S40x128 .f32 := Memref.whole cc0_scratch1
abbrev scM2 : Memref sig .tc .vmem S40x1 .f32 := Memref.whole cc0_scratch2

/-- THE ACCUMULATION: the three accumulators (sums, sums of squares, counts) after the body at point `n`: the
    point's update of what point `n - 1` left, from zero at the first point. -/
def sAt0 (c : Dev nD) : (n : ℕ) → n < cfg0.N → Vec F S40x128 .f32 × Vec F S40x128 .f32 × Vec F S40x1 .f32
  | 0, hn =>
    (k0_pay10 (hblk0 V c ⟨0, hn⟩) (tblk0 V c ⟨0, hn⟩) k0_pay5,
     k0_pay11 (hblk0 V c ⟨0, hn⟩) (tblk0 V c ⟨0, hn⟩) k0_pay6,
     k0_pay1 (k0_pay12 (tblk0 V c ⟨0, hn⟩) k0_pay7))
  | n + 1, hn =>
    (k0_pay10 (hblk0 V c ⟨n + 1, hn⟩) (tblk0 V c ⟨n + 1, hn⟩) (sAt0 c n (Nat.lt_of_succ_lt hn)).1,
     k0_pay11 (hblk0 V c ⟨n + 1, hn⟩) (tblk0 V c ⟨n + 1, hn⟩) (sAt0 c n (Nat.lt_of_succ_lt hn)).2.1,
     k0_pay1 (k0_pay12 (tblk0 V c ⟨n + 1, hn⟩) (sAt0 c n (Nat.lt_of_succ_lt hn)).2.2))

theorem sAt0_zero (c : Dev nD) (hn : 0 < cfg0.N) :
    sAt0 V c 0 hn = (k0_pay10 (hblk0 V c ⟨0, hn⟩) (tblk0 V c ⟨0, hn⟩) k0_pay5,
      k0_pay11 (hblk0 V c ⟨0, hn⟩) (tblk0 V c ⟨0, hn⟩) k0_pay6,
      k0_pay1 (k0_pay12 (tblk0 V c ⟨0, hn⟩) k0_pay7)) := rfl

theorem sAt0_succ (c : Dev nD) (n : ℕ) (hn : n + 1 < cfg0.N) :
    sAt0 V c (n + 1) hn = (k0_pay10 (hblk0 V c ⟨n + 1, hn⟩) (tblk0 V c ⟨n + 1, hn⟩) (sAt0 V c n (Nat.lt_of_succ_lt hn)).1,
      k0_pay11 (hblk0 V c ⟨n + 1, hn⟩) (tblk0 V c ⟨n + 1, hn⟩) (sAt0 V c n (Nat.lt_of_succ_lt hn)).2.1,
      k0_pay1 (k0_pay12 (tblk0 V c ⟨n + 1, hn⟩) (sAt0 V c n (Nat.lt_of_succ_lt hn)).2.2)) := rfl

/-- The core's scoped buffers that region 0 neither stages through nor accumulates in (region 1's staging buffers),
    each whole at some contents. -/
def rest0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg6_0), ((c : Thread nD τ).loc cc1_stg6_0) ↦{fullShare} f)
      ∗ (∃ f : Buf (Elt F) ((c : Thread nD τ).loc cc1_stg7_0), ((c : Thread nD τ).loc cc1_stg7_0) ↦{fullShare} f)
      ∗ (∃ f : Buf (Elt F) ((c : Thread nD τ).loc cc1_stg8_0), ((c : Thread nD τ).loc cc1_stg8_0) ↦{fullShare} f)
      ∗ (∃ f : Buf (Elt F) ((c : Thread nD τ).loc cc1_stg8_1), ((c : Thread nD τ).loc cc1_stg8_1) ↦{fullShare} f))

/-- The region invariant before position `n`: before the first point every scoped buffer at anything; afterwards
    the three accumulators at what the point before left, the other scoped buffers at anything; the generator
    register at some state throughout. -/
def PhiS0 (c : Dev nD) : (n : ℕ) → n ≤ cfg0.N → sProp 𝕄
  | 0, _ => Pipeline.ΦA spec0 c
  | n + 1, hn => iprop(owns (c : Thread nD τ) scM0 fullShare (sAt0 V c n hn).1
      ∗ owns (c : Thread nD τ) scM1 fullShare (sAt0 V c n hn).2.1
      ∗ owns (c : Thread nD τ) scM2 fullShare (sAt0 V c n hn).2.2
      ∗ rest0 c ∗ ∃ r, prngReg c r)

/-- The proof data of region 0 on core `c`: the arrays as the region finds them; after the body each input's buffer
    at its block, and the two results' buffers at the mean and the variance of that point's accumulators (consulted
    at the last point only: the results are idle before it). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (sAt0 V c t.val t.isLt).2.2 (sAt0 V c t.val t.isLt).1
    | ⟨3, _⟩ => k0_pay4 (sAt0 V c t.val t.isLt).2.2 (sAt0 V c t.val t.isLt).1 (sAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (sAt0 V c t.val t.isLt).2.2 (sAt0 V c t.val t.isLt).1 := by dsimp only [dat0]
theorem after0_3 (c : Dev nD) (t : Fin cfg0.N) :
    (dat0 V c).after 3 t = k0_pay4 (sAt0 V c t.val t.isLt).2.2 (sAt0 V c t.val t.isLt).1 (sAt0 V c t.val t.isLt).2.1 := by
  dsimp only [dat0]

/-! ## Region 1: the blocks and the body's one store -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the result's staging buffer: the sigmoid of the second layer, a pure function of the
    rows' block, their groups' block, the two tables, and the weights and biases. -/
def out1_8 (x0 : Vec F S2000x128 .f32) (x1 : Vec F S2000x1 .i32) (x2 x3 : Vec F S40x128 .f32) (x4 : Vec F S128x128 .f32)
    (x5 : Vec F S1x128 .f32) (x6 : Vec F S128x40 .f32) (x7 : Vec F S1x40 .f32) : Vec F S2000x40 .f32 :=
  k1_pay1 (k1_pay2 x0 x1 x2 x3 x4 x5 x6) x7

/-- The proof data of region 1 on core `c`: every input's buffer at its block, the result's at `out1_8` of them; the
    invariant is the scoped rest and the generator register, untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_in (c : Dev nD) (t : Fin cfg1.N) :
    (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t ∧ (dat1 V c).after 5 t = iblk1 V c 5 t
    ∧ (dat1 V c).after 6 t = iblk1 V c 6 t ∧ (dat1 V c).after 7 t = iblk1 V c 7 t := by
  dsimp only [dat1]; exact ⟨rfl, rfl, rfl, rfl, rfl, rfl, rfl, rfl⟩

theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by
  dsimp only [dat1]

end Cert.KernelIdeal.Hand

end
-- ==== Proof.KIBody0.lean ====
/-
  The body obligation of region 0 (the statistics kernel): at every grid point the body, handed the two input
  blocks and the accumulators as the point before left them, leaves the accumulators at this point's update
  (zeroing them first at the first point), and at the last point stores the mean and the variance.
-/
import proofs.«421518_j21474836480044_1_alg».proof.Proof.KIData
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body over the grid, and where the results are idle -/

/-- The condition of the body's first conditional (the reset), from the grid coordinate. -/
abbrev cond0_0 (i : grid0.Coords) : Prop :=
  (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The condition of the body's second conditional (the results' stores). -/
abbrev cond0_1 (i : grid0.Coords) : Prop := k0_cond2 i = 1#1
/-- It holds at the last point only. -/
theorem hcond0_1 : ∀ t : Fin cfg0.N, cond0_1 (grid0.coords t) ↔ t.val = 24 :=
  (by decide +kernel : ∀ t : Fin grid0.N, cond0_1 (grid0.coords t) ↔ t.val = 24)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Before the last point the results are idle and not written back; -/
theorem idleAt0_2 : ∀ t : Fin cfg0.N, t.val ≠ 24 → cfg0.idle 2 (grid0.coords t) = true := by decide +kernel
theorem idleAt0_3 : ∀ t : Fin cfg0.N, t.val ≠ 24 → cfg0.idle 3 (grid0.coords t) = true := by decide +kernel
theorem noFlush0_2 : ∀ t : Fin cfg0.N, t.val ≠ 24 → (cfg0.win 2).flush t = false := by decide +kernel
theorem noFlush0_3 : ∀ t : Fin cfg0.N, t.val ≠ 24 → (cfg0.win 3).flush t = false := by decide +kernel
/-- at the last point they are live. -/
theorem liveAt0_2 : ∀ t : Fin cfg0.N, t.val = 24 → cfg0.idle 2 (grid0.coords t) = false := by decide +kernel
theorem liveAt0_3 : ∀ t : Fin cfg0.N, t.val = 24 → cfg0.idle 3 (grid0.coords t) = false := by decide +kernel

/-! ## The class invariant, the accumulators named -/

/-- Two assertions that entail one another are equal. -/
theorem eq_of_entails0 {P Q : sProp 𝕄} (h₁ : P ⊢ Q) (h₂ : Q ⊢ P) : P = Q := BI.equiv_iff.mp ⟨h₁, h₂⟩

/-- The class invariant with the three accumulators owned as memrefs at some contents. -/
theorem PhiA0_eq (c : Dev nD) :
    (Pipeline.ΦA spec0 c : sProp 𝕄)
      = iprop((∃ d, owns (c : Thread nD τ) scM0 fullShare d) ∗ (∃ d, owns (c : Thread nD τ) scM1 fullShare d)
        ∗ (∃ d, owns (c : Thread nD τ) scM2 fullShare d) ∗ rest0 c ∗ ∃ r, prngReg c r) := by
  unfold Pipeline.ΦA; rw [scopedRest0_eq]; unfold rest0; simp only [owns_whole]
  refine eq_of_entails0 ?_ ?_
  · iintro ⟨⟨H0, H1, H2, HR⟩, Hg⟩
    isplitl [H0]; · iexact H0
    isplitl [H1]; · iexact H1
    isplitl [H2]; · iexact H2
    isplitl [HR]; · iexact HR
    iexact Hg
  · iintro ⟨H0, H1, H2, HR, Hg⟩
    isplitr [Hg]
    · isplitl [H0]; · iexact H0
      isplitl [H1]; · iexact H1
      isplitl [H2]; · iexact H2
      iexact HR
    iexact Hg

/-! ## Loads and stores through the whole of a buffer -/

theorem offs0_zero : (![0, 0] : Fin 2 → ℕ) = fun _ => 0 := by funext a; fin_cases a <;> rfl

/-- A load through the whole-shape rectangle reads the contents. -/
theorem load0_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb _

/-- After a store through the whole-shape rectangle the buffer reads as the stored value, whatever was stored before. -/
theorem store0_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩),
    View.canon_cons_unit_zero h inb w L]

/-- A load through the whole-shape rectangle, after a store through it in the same run, reads the stored value. -/
theorem reload0_whole {κ : Kind} {sp : Space} {S : Shape} {e : EltTy} (v : View sig κ sp S e)
    {off : Fin S.rank → ℕ} (h : off = fun _ => 0) (inb : ∀ a, off a + S.size a ≤ S.size a) (w : S.Idx → Elt F e)
    (L : List (View.Piece (Elt F) S e)) :
    v.readCov (⟨Rect.unit off S.size inb, w⟩ :: L) (Rect.unit off S.size inb).toLoadRect = w :=
  View.readCov_cons_toLoadRect v (Rect.unit off S.size inb) w L

set_option maxHeartbeats 4000000 in
theorem sound_kernel0_first (c : Dev nD) (E : Set ℕ) (i : grid0.Coords)
    (arg1 : Memref sig .tc .vmem S2000x128 .f32) (harg1 : arg1.IsWhole) (arg2 : Memref sig .tc .vmem S2000x1 .i32) (harg2 : arg2.IsWhole)
    (arg3 : Memref sig .tc .vmem S40x128 .f32) (harg3 : arg3.IsWhole) (arg4 : Memref sig .tc .vmem S40x128 .f32) (harg4 : arg4.IsWhole)
    (arg5 : Memref sig .tc .vmem S40x128 .f32) (harg5 : arg5.IsWhole) (arg6 : Memref sig .tc .vmem S40x128 .f32) (harg6 : arg6.IsWhole)
    (arg7 : Memref sig .tc .vmem S40x1 .f32) (harg7 : arg7.IsWhole)
    (hc0 : cond0_0 i) (hc1 : ¬cond0_1 i)
    (x0 : Vec F S2000x128 .f32) (x1 : Vec F S2000x1 .i32) (K : PUnit → sProp 𝕄) :
    iprop(owns (c : Thread nD τ) arg1 fullShare x0 ∗ owns (c : Thread nD τ) arg2 fullShare x1
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg5 fullShare (k0_pay10 x0 x1 k0_pay5) ∗ owns (c : Thread nD τ) arg6 fullShare (k0_pay11 x0 x1 k0_pay6)
            ∗ owns (c : Thread nD τ) arg7 fullShare (k0_pay1 (k0_pay12 x1 k0_pay7))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d0, %g0, -, HS0⟩, ⟨%d1, %g1, -, HS1⟩, ⟨%d2, %g2, -, HS2⟩, Hk⟩
  subst hf0 hf1
  sl_exec (disch := first | exact hc0 | exact hc1)
  sl_step

  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    rw [store0_whole (S := S40x128) _ _ offs0_zero, load0_whole (S := S2000x128) _ _ offs0_zero,
      load0_whole (S := S2000x1) _ _ offs0_zero]
    unfold sound_kernel0_first.sl.v13 sound_kernel0_first.sl.HS0_1
    rw [reload0_whole (S := S40x128) _ offs0_zero]
  isplitl [HS1]
  · iexists _; isplitr
    swap; · iexact HS1
    ipureintro
    rw [store0_whole (S := S40x128) _ _ offs0_zero, load0_whole (S := S2000x128) _ _ offs0_zero,
      load0_whole (S := S2000x1) _ _ offs0_zero]
    unfold sound_kernel0_first.sl.v20 sound_kernel0_first.sl.HS1_1
    rw [reload0_whole (S := S40x128) _ offs0_zero]
  iexists _; isplitr
  swap; · iexact HS2
  ipureintro
  rw [store0_whole (S := S40x1) _ _ offs0_zero, load0_whole (S := S2000x1) _ _ offs0_zero]
  unfold sound_kernel0_first.sl.v28 sound_kernel0_first.sl.HS2_1
  rw [reload0_whole (S := S40x1) _ offs0_zero]

set_option maxHeartbeats 4000000 in
theorem sound_kernel0_mid (c : Dev nD) (E : Set ℕ) (i : grid0.Coords)
    (arg1 : Memref sig .tc .vmem S2000x128 .f32) (harg1 : arg1.IsWhole) (arg2 : Memref sig .tc .vmem S2000x1 .i32) (harg2 : arg2.IsWhole)
    (arg3 : Memref sig .tc .vmem S40x128 .f32) (harg3 : arg3.IsWhole) (arg4 : Memref sig .tc .vmem S40x128 .f32) (harg4 : arg4.IsWhole)
    (arg5 : Memref sig .tc .vmem S40x128 .f32) (harg5 : arg5.IsWhole) (arg6 : Memref sig .tc .vmem S40x128 .f32) (harg6 : arg6.IsWhole)
    (arg7 : Memref sig .tc .vmem S40x1 .f32) (harg7 : arg7.IsWhole)
    (hc0 : ¬cond0_0 i) (hc1 : ¬cond0_1 i)
    (x0 : Vec F S2000x128 .f32) (x1 : Vec F S2000x1 .i32) (s0 s1 : Vec F S40x128 .f32) (s2 : Vec F S40x1 .f32) (K : PUnit → sProp 𝕄) :
    iprop(owns (c : Thread nD τ) arg1 fullShare x0 ∗ owns (c : Thread nD τ) arg2 fullShare x1
        ∗ owns (c : Thread nD τ) arg5 fullShare s0 ∗ owns (c : Thread nD τ) arg6 fullShare s1 ∗ owns (c : Thread nD τ) arg7 fullShare s2
        ∗ (iprop(owns (c : Thread nD τ) arg1 fullShare x0 ∗ owns (c : Thread nD τ) arg2 fullShare x1
            ∗ owns (c : Thread nD τ) arg5 fullShare (k0_pay10 x0 x1 s0) ∗ owns (c : Thread nD τ) arg6 fullShare (k0_pay11 x0 x1 s1)
            ∗ owns (c : Thread nD τ) arg7 fullShare (k0_pay1 (k0_pay12 x1 s2))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%g0, %hg0, HS0⟩, ⟨%g1, %hg1, HS1⟩, ⟨%g2, %hg2, HS2⟩, Hk⟩
  subst hf0 hf1 hg0 hg1 hg2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HS0]
  · iexists _; isplitr
    swap; · iexact HS0
    ipureintro
    rw [store0_whole (S := S40x128) _ _ offs0_zero, load0_whole (S := S2000x128) _ _ offs0_zero,
      load0_whole (S := S2000x1) _ _ offs0_zero, load0_whole (S := S40x128) _ _ offs0_zero]
  isplitl [HS1]
  · iexists _; isplitr
    swap; · iexact HS1
    ipureintro
    rw [store0_whole (S := S40x128) _ _ offs0_zero, load0_whole (S := S2000x128) _ _ offs0_zero,
      load0_whole (S := S2000x1) _ _ offs0_zero, load0_whole (S := S40x128) _ _ offs0_zero]
  iexists _; isplitr
  swap; · iexact HS2
  ipureintro
  rw [store0_whole (S := S40x1) _ _ offs0_zero, load0_whole (S := S2000x1) _ _ offs0_zero, load0_whole (S := S40x1) _ _ offs0_zero]

set_option maxHeartbeats 4000000 in
theorem sound_kernel0_last (c : Dev nD) (E : Set ℕ) (i : grid0.Coords)
    (arg1 : Memref sig .tc .vmem S2000x128 .f32) (harg1 : arg1.IsWhole) (arg2 : Memref sig .tc .vmem S2000x1 .i32) (harg2 : arg2.IsWhole)
    (arg3 : Memref sig .tc .vmem S40x128 .f32) (harg3 : arg3.IsWhole) (arg4 : Memref sig .tc .vmem S40x128 .f32) (harg4 : arg4.IsWhole)
    (arg5 : Memref sig .tc .vmem S40x128 .f32) (harg5 : arg5.IsWhole) (arg6 : Memref sig .tc .vmem S40x128 .f32) (harg6 : arg6.IsWhole)
    (arg7 : Memref sig .tc .vmem S40x1 .f32) (harg7 : arg7.IsWhole)
    (hc0 : ¬cond0_0 i) (hc1 : cond0_1 i)
    (x0 : Vec F S2000x128 .f32) (x1 : Vec F S2000x1 .i32) (s0 s1 : Vec F S40x128 .f32) (s2 : Vec F S40x1 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare s0 ∗ owns (c : Thread nD τ) arg6 fullShare s1 ∗ owns (c : Thread nD τ) arg7 fullShare s2
        ∗ (iprop(owns (c : Thread nD τ) arg1 fullShare x0 ∗ owns (c : Thread nD τ) arg2 fullShare x1
            ∗ owns (c : Thread nD τ) arg3 fullShare (k0_pay3 (k0_pay1 (k0_pay12 x1 s2)) (k0_pay10 x0 x1 s0))
            ∗ owns (c : Thread nD τ) arg4 fullShare (k0_pay4 (k0_pay1 (k0_pay12 x1 s2)) (k0_pay10 x0 x1 s0) (k0_pay11 x0 x1 s1))
            ∗ owns (c : Thread nD τ) arg5 fullShare (k0_pay10 x0 x1 s0) ∗ owns (c : Thread nD τ) arg6 fullShare (k0_pay11 x0 x1 s1)
            ∗ owns (c : Thread nD τ) arg7 fullShare (k0_pay1 (k0_pay12 x1 s2))) -∗ K ⟨⟩))
      ⊢ wp frame (wpE (defs₀ (F := F)) Variants.none c none) E (cc0__stats_kernel i arg1 harg1 arg2 harg2 arg3 harg3 arg4 harg4 arg5 harg5 arg6 harg6 arg7 harg7) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%g0, %hg0, HS0⟩, ⟨%g1, %hg1, HS1⟩, ⟨%g2, %hg2, HS2⟩, Hk⟩
  subst hf0 hf1 hg0 hg1 hg2
  sl_exec (disch := first | exact hc0 | exact hc1)
  sl_step

  have e0 : arg5.view.readCov (sound_kernel0_last.sl.HS0_1 c arg1 arg2 arg5 f0 f1 g0)
        (Rect.unit ![0, 0] S40x128.size inb_S40x128_S40x128_0_0).toLoadRect
      = k0_pay10 (View.read (Elt F) arg1.view f0) (View.read (Elt F) arg2.view f1) (View.read (Elt F) arg5.view g0) := by
    unfold sound_kernel0_last.sl.HS0_1
    rw [reload0_whole (S := S40x128) _ offs0_zero, load0_whole (S := S2000x128) _ _ offs0_zero,
      load0_whole (S := S2000x1) _ _ offs0_zero, load0_whole (S := S40x128) _ _ offs0_zero]
  have e1 : arg6.view.readCov (sound_kernel0_last.sl.HS1_1 c arg1 arg2 arg6 f0 f1 g1)
        (Rect.unit ![0, 0] S40x128.size inb_S40x128_S40x128_0_0).toLoadRect
      = k0_pay11 (View.read (Elt F) arg1.view f0) (View.read (Elt F) arg2.view f1) (View.read (Elt F) arg6.view g1) := by
    unfold sound_kernel0_last.sl.HS1_1
    rw [reload0_whole (S := S40x128) _ offs0_zero, load0_whole (S := S2000x128) _ _ offs0_zero,
      load0_whole (S := S2000x1) _ _ offs0_zero, load0_whole (S := S40x128) _ _ offs0_zero]
  have e2 : arg7.view.readCov (sound_kernel0_last.sl.HS2_1 c i arg2 arg7 f1 g2)
        (Rect.unit ![0, 0] S40x1.size inb_S40x1_S40x1_0_0).toLoadRect
      = k0_pay1 (k0_pay12 (View.read (Elt F) arg2.view f1) (View.read (Elt F) arg7.view g2)) := by
    unfold sound_kernel0_last.sl.HS2_1
    rw [reload0_whole (S := S40x1) _ offs0_zero, load0_whole (S := S2000x1) _ _ offs0_zero, load0_whole (S := S40x1) _ _ offs0_zero]
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [store0_whole (S := S40x128) _ _ offs0_zero]
    unfold sound_kernel0_last.sl.v38 sound_kernel0_last.sl.v41
    rw [e0]; exact congrArg (fun z => k0_pay3 z _) e2
  isplitl [H3]
  · iexists _; isplitr
    swap; · iexact H3
    ipureintro
    rw [store0_whole (S := S40x128) _ _ offs0_zero]
    unfold sound_kernel0_last.sl.v38 sound_kernel0_last.sl.v41 sound_kernel0_last.sl.v44
    rw [e0, e1]; exact congrArg (fun z => k0_pay4 z _ _) e2
  isplitl [HS0]
  · iexists _; isplitr
    swap; · iexact HS0
    ipureintro
    unfold sound_kernel0_last.sl.HS0_1
    rw [store0_whole (S := S40x128) _ _ offs0_zero, load0_whole (S := S2000x128) _ _ offs0_zero,
      load0_whole (S := S2000x1) _ _ offs0_zero, load0_whole (S := S40x128) _ _ offs0_zero]
  isplitl [HS1]
  · iexists _; isplitr
    swap; · iexact HS1
    ipureintro
    unfold sound_kernel0_last.sl.HS1_1
    rw [store0_whole (S := S40x128) _ _ offs0_zero, load0_whole (S := S2000x128) _ _ offs0_zero,
      load0_whole (S := S2000x1) _ _ offs0_zero, load0_whole (S := S40x128) _ _ offs0_zero]
  iexists _; isplitr
  swap; · iexact HS2
  ipureintro
  unfold sound_kernel0_last.sl.HS2_1
  rw [store0_whole (S := S40x1) _ _ offs0_zero, load0_whole (S := S2000x1) _ _ offs0_zero, load0_whole (S := S40x1) _ _ offs0_zero]

/-! ## What the body finds at a point -/

/-- The block of rows stays in its buffer at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- So does the block of time groups. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- The invariant before the first point is the class's; -/
theorem PhiS0_zero (c : Dev nD) (n : ℕ) (h : n ≤ cfg0.N) (hz : n = 0) : PhiS0 V c n h = Pipeline.ΦA spec0 c := by
  subst hz; rfl

/-- after point `n` it names the accumulators of that point; -/
theorem PhiS0_succ (c : Dev nD) (n : ℕ) (hn : n < cfg0.N) :
    PhiS0 V c (n + 1) hn = iprop(owns (c : Thread nD τ) scM0 fullShare (sAt0 V c n hn).1
      ∗ owns (c : Thread nD τ) scM1 fullShare (sAt0 V c n hn).2.1
      ∗ owns (c : Thread nD τ) scM2 fullShare (sAt0 V c n hn).2.2
      ∗ rest0 c ∗ ∃ r, prngReg c r) := rfl

/-- before a point that is not the first, those of the point before. -/
theorem PhiS0_pos (c : Dev nD) (n : ℕ) (h : n ≤ cfg0.N) (hz : n ≠ 0) :
    PhiS0 V c n h = iprop(owns (c : Thread nD τ) scM0 fullShare (sAt0 V c (n - 1) (by omega)).1
      ∗ owns (c : Thread nD τ) scM1 fullShare (sAt0 V c (n - 1) (by omega)).2.1
      ∗ owns (c : Thread nD τ) scM2 fullShare (sAt0 V c (n - 1) (by omega)).2.2
      ∗ rest0 c ∗ ∃ r, prngReg c r) := by
  cases n with
  | zero => exact absurd rfl hz
  | succ n => rfl

theorem Phi0_castSucc (c : Dev nD) (t : Fin cfg0.N) :
    (dat0 V c).Φ t.castSucc = PhiS0 V c t.val (Nat.le_of_lt t.isLt) := by
  dsimp only [dat0]; simp only [Fin.coe_castSucc]

/-- The accumulators after the first point: the update of zero. -/
theorem sAt0_first (c : Dev nD) (t : Fin cfg0.N) (h : t.val = 0) :
    sAt0 V c t.val t.isLt = (k0_pay10 (hblk0 V c t) (tblk0 V c t) k0_pay5, k0_pay11 (hblk0 V c t) (tblk0 V c t) k0_pay6,
      k0_pay1 (k0_pay12 (tblk0 V c t) k0_pay7)) := by
  obtain ⟨n, hn⟩ := t
  cases n with
  | zero => exact sAt0_zero V c hn
  | succ n => exact absurd h (Nat.succ_ne_zero n)

/-- The accumulators after a later point: the update of the point before's. -/
theorem sAt0_later (c : Dev nD) (t : Fin cfg0.N) (h : t.val ≠ 0) :
    sAt0 V c t.val t.isLt = (k0_pay10 (hblk0 V c t) (tblk0 V c t) (sAt0 V c (t.val - 1) (by omega)).1,
      k0_pay11 (hblk0 V c t) (tblk0 V c t) (sAt0 V c (t.val - 1) (by omega)).2.1,
      k0_pay1 (k0_pay12 (tblk0 V c t) (sAt0 V c (t.val - 1) (by omega)).2.2)) := by
  obtain ⟨n, hn⟩ := t
  cases n with
  | zero => exact absurd rfl h
  | succ n => exact sAt0_succ V c n hn

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t
    ∗ (dat0 V c).leavesExact 2 t ∗ (dat0 V c).leavesExact 3 t)

set_option maxHeartbeats 4000000 in
/-- The first point: the invariant hands the accumulators at anything; the body zeroes them and adds the point's
    sums; the results' buffers go back as they came. -/
theorem sound_body0_first (c : Dev nD) (t : Fin cfg0.N) (hz : t.val = 0) :
    bodyPre0 V c t ⊢ wp frame (wpE (defs₀ (F := F)) Variants.none c none) Set.univ (bodyAt0 t) (fun _ => bodyPost0 V c t) := by
  have h24 : t.val ≠ 24 := by omega
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [Dat.leavesExact_idle (dat0 V c) 2 t (idleAt0_2 t h24) (noFlush0_2 t h24)]
  rw [Dat.leavesExact_idle (dat0 V c) 3 t (idleAt0_3 t h24) (noFlush0_3 t h24)]
  rw [sAt0_first V c t hz]
  rw [Phi0_castSucc V c t, PhiS0_zero V c _ _ hz, PhiA0_eq]
  iintro ⟨⟨HS0, HS1, HS2, HR, Hg⟩, Ho, ⟨%d0, H0⟩, ⟨%d1, H1⟩, H2, H3⟩
  iapply (sound_kernel0_first c Set.univ (grid0.coords t) _ _ _ _ _ _ _ _ _ _ _ _ _ _ ((hcond0_0 t).mpr hz) (fun h => h24 ((hcond0_1 t).mp h))
    (iblk0 V c 0 t) (iblk0 V c 1 t) _)
  isplitl [H0]; · iexact H0
  isplitl [H1]; · iexact H1
  isplitl [HS0]; · iexact HS0
  isplitl [HS1]; · iexact HS1
  isplitl [HS2]; · iexact HS2
  iintro ⟨H0, H1, HS0, HS1, HS2⟩
  isplitl [HS0 HS1 HS2 HR Hg]
  · isplitl [HS0]; · iexact HS0
    isplitl [HS1]; · iexact HS1
    isplitl [HS2]; · iexact HS2
    isplitl [HR]; · iexact HR
    iexact Hg
  isplitl [Ho]; · iexact Ho
  isplitl [H0]; · iexact H0
  isplitl [H1]; · iexact H1
  isplitl [H2]; · iexact H2
  iexact H3

set_option maxHeartbeats 4000000 in
/-- A point between the first and the last: the invariant hands the accumulators as the point before left them; the
    body adds the point's sums; the results' buffers go back as they came. -/
theorem sound_body0_mid (c : Dev nD) (t : Fin cfg0.N) (hz : t.val ≠ 0) (h24 : t.val ≠ 24) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [Dat.leavesExact_idle (dat0 V c) 2 t (idleAt0_2 t h24) (noFlush0_2 t h24)]
  rw [Dat.leavesExact_idle (dat0 V c) 3 t (idleAt0_3 t h24) (noFlush0_3 t h24)]
  rw [sAt0_later V c t hz]
  rw [Phi0_castSucc V c t, PhiS0_pos V c _ _ hz]
  iintro ⟨⟨HS0, HS1, HS2, HR, Hg⟩, Ho, ⟨%d0, H0⟩, ⟨%d1, H1⟩, H2, H3⟩
  iapply (sound_kernel0_mid c Set.univ (grid0.coords t) _ _ _ _ _ _ _ _ _ _ _ _ _ _ (fun h => hz ((hcond0_0 t).mp h)) (fun h => h24 ((hcond0_1 t).mp h))
    (iblk0 V c 0 t) (iblk0 V c 1 t) _ _ _ _)
  isplitl [H0]; · iexact H0
  isplitl [H1]; · iexact H1
  isplitl [HS0]; · iexact HS0
  isplitl [HS1]; · iexact HS1
  isplitl [HS2]; · iexact HS2
  iintro ⟨H0, H1, HS0, HS1, HS2⟩
  isplitl [HS0 HS1 HS2 HR Hg]
  · isplitl [HS0]; · iexact HS0
    isplitl [HS1]; · iexact HS1
    isplitl [HS2]; · iexact HS2
    isplitl [HR]; · iexact HR
    iexact Hg
  isplitl [Ho]; · iexact Ho
  isplitl [H0]; · iexact H0
  isplitl [H1]; · iexact H1
  isplitl [H2]; · iexact H2
  iexact H3

set_option maxHeartbeats 4000000 in
/-- The last point: the body adds the point's sums, then stores the mean and the variance of the accumulators into
    the results' buffers, which the pipeline writes back. -/
theorem sound_body0_last (c : Dev nD) (t : Fin cfg0.N) (hz : t.val ≠ 0) (h24 : t.val = 24) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t h24], after0_2]
  rw [show (dat0 V c).leavesExact 3 t = owns (c : Thread nD τ) (st0_3 t) fullShare ((dat0 V c).after 3 t) from by
    unfold Dat.leavesExact; rw [liveAt0_3 t h24], after0_3]
  rw [sAt0_later V c t hz]
  rw [Phi0_castSucc V c t, PhiS0_pos V c _ _ hz]
  iintro ⟨⟨HS0, HS1, HS2, HR, Hg⟩, Ho, ⟨%d0, H0⟩, ⟨%d1, H1⟩, ⟨%d2, H2⟩, ⟨%d3, H3⟩⟩
  iapply (sound_kernel0_last c Set.univ (grid0.coords t) _ _ _ _ _ _ _ _ _ _ _ _ _ _ (fun h => hz ((hcond0_0 t).mp h)) ((hcond0_1 t).mpr h24)
    (iblk0 V c 0 t) (iblk0 V c 1 t) _ _ _ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 HR Hg]
  · isplitl [HS0]; · iexact HS0
    isplitl [HS1]; · iexact HS1
    isplitl [HS2]; · iexact HS2
    isplitl [HR]; · iexact HR
    iexact Hg
  isplitl [Ho]; · iexact Ho
  isplitl [H0]; · iexact H0
  isplitl [H1]; · iexact H1
  isplitl [H2]; · iexact H2
  iexact H3

/-- The body at any point, by its place on the grid. -/
theorem sound_body0 (c : Dev nD) (t : Fin cfg0.N) :
    bodyPre0 V c t ⊢ wp frame (wpE (defs₀ (F := F)) Variants.none c none) Set.univ (bodyAt0 t) (fun _ => bodyPost0 V c t) := by
  by_cases hz : t.val = 0
  · exact sound_body0_first V c t hz
  · by_cases h24 : t.val = 24
    · exact sound_body0_last V c t hz h24
    · exact sound_body0_mid V c t hz h24

/-! ## The four facts the run takes -/

/-- The library's body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers and the generator register back. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨HS0, HS1, HS2, HR, Hg⟩
  isplitl [HS0]; · iexists _; iexact HS0
  isplitl [HS1]; · iexists _; iexact HS1
  isplitl [HS2]; · iexists _; iexact HS2
  isplitl [HR]; · iexact HR
  iexact Hg

end Cert.KernelIdeal.Hand

end
-- ==== Proof.KIBody1.lean ====
/-
  The body obligation of region 1 (normalise, two-layer perceptron, sigmoid): at every grid point the body reads its
  eight input blocks and stores one pure function of them into the result's block.
-/
import proofs.«421518_j21474836480044_1_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers at a point -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]

/-- Input window 0's current staging buffer holds its block at every point, fetched there or not: where it is not
    fetched its block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not: where it is not
    fetched its block index has not moved, and the body leaves the block in place. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not: where it is not
    fetched its block index has not moved, and the body leaves the block in place. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not: where it is not
    fetched its block index has not moved, and the body leaves the block in place. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's current staging buffer holds its block at every point, fetched there or not: where it is not
    fetched its block index has not moved, and the body leaves the block in place. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's current staging buffer holds its block at every point, fetched there or not: where it is not
    fetched its block index has not moved, and the body leaves the block in place. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's current staging buffer holds its block at every point, fetched there or not: where it is not
    fetched its block index has not moved, and the body leaves the block in place. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- Input window 7's current staging buffer holds its block at every point, fetched there or not: where it is not
    fetched its block index has not moved, and the body leaves the block in place. -/
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body's triple -/

/-- The two offsets of a whole-buffer rectangle are zero. -/
theorem offs1_zero : (![0, 0] : Fin 2 → ℕ) = fun _ => 0 := funext fun a => by fin_cases a <;> rfl

/-- A load through the rectangle of a buffer's whole shape at zero offsets reads what the buffer reads: each of its
    indices sits at itself. -/
theorem load1_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) :
    View.readAt Val v (Rect.unit off S.size inb).toLoadRect f = View.read Val v f := by
  subst h; funext x
  show View.read Val v f ((Rect.whole S).emb x) = View.read Val v f x
  rw [Rect.emb_whole_apply]

/-- One store through that rectangle leaves its payload, whatever the buffer held: every index is under it. -/
theorem store1_whole {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h; funext y
  have e := View.read_writes_cons_emb (v := v) (f := f) (Rect.whole S) w [] y
  rwa [Rect.emb_whole_apply] at e

set_option maxHeartbeats 1000000 in
/-- The kernel body on whole staging memrefs, the eight inputs' at read contents `x0 … x7` and the result's at anything,
    runs to the continuation holding the inputs' as they were and the result's at `out1_8` of them: eight loads through
    whole-buffer rectangles, and one store of the payload of what they read through the whole-buffer rectangle of
    the result, which alone covers it. -/
theorem sound_kernel1 (c : Dev nD) (E : Set ℕ) (i : grid1.Coords)
    (arg1 : Memref sig .tc .vmem S2000x128 .f32) (harg1 : arg1.IsWhole) (arg2 : Memref sig .tc .vmem S2000x1 .i32) (harg2 : arg2.IsWhole)
    (arg3 : Memref sig .tc .vmem S40x128 .f32) (harg3 : arg3.IsWhole) (arg4 : Memref sig .tc .vmem S40x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S128x40 .f32) (harg7 : arg7.IsWhole) (arg8 : Memref sig .tc .vmem S1x40 .f32) (harg8 : arg8.IsWhole)
    (arg9 : Memref sig .tc .vmem S2000x40 .f32) (harg9 : arg9.IsWhole)
    (x0 : Vec F S2000x128 .f32) (x1 : Vec F S2000x1 .i32) (x2 x3 : Vec F S40x128 .f32) (x4 : Vec F S128x128 .f32)
    (x5 : Vec F S1x128 .f32) (x6 : Vec F S128x40 .f32) (x7 : Vec F S1x40 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__apply_kernel i arg1 harg1 arg2 harg2 arg3 harg3 arg4 harg4 arg5 harg5 arg6 harg6 arg7 harg7 arg8 harg8 arg9 harg9) K := by
  simp only [cc1__apply_kernel_eq_skeleton]; unfold cc1__apply_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (store1_whole (S := S2000x40) arg9.view f8 offs1_zero inb_S2000x40_S2000x40_0_0 _).trans ?_
  unfold out1_8
  rw [load1_whole arg1.view f0 offs1_zero, load1_whole arg2.view f1 offs1_zero, load1_whole arg3.view f2 offs1_zero,
    load1_whole arg4.view f3 offs1_zero, load1_whole arg5.view f4 offs1_zero, load1_whole arg6.view f5 offs1_zero,
    load1_whole arg7.view f6 offs1_zero, load1_whole arg8.view f7 offs1_zero]

/-! ## The body obligation, at a generic point -/

/-- What the body is called with at point `t`: the invariant, the core's dues, and each window's current staging
    buffer at what the pipeline left in it, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: the same, each buffer at what the proof data say the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point: the inputs' buffers hold their blocks, so the kernel's triple applies at the blocks; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of @main: seventy-five host operations (the two hops of graph propagation and the reshapes and
  transposes of the operands), then the statistics region, then the normalise–perceptron–sigmoid region.

  The buffer contents at each boundary are a fold from the launch memory: `W1` after the host operations, `W2` with
  region 0's arrays at what its write-backs leave (the mean and the variance tables), `W3` likewise after region 1
  (the result). Each region is entered from every unscoped buffer at the boundary's contents and left at the next;
  the generator register and the core's empty debt ride along. The run's post: every unscoped buffer holds `W3`.
-/
import proofs.«421518_j21474836480044_1_alg».proof.Proof.KIBody0
import proofs.«421518_j21474836480044_1_alg».proof.Proof.KIBody1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- A buffer no host operation writes and no region's window names ends as launched. -/
theorem W3_of_untouched (c : Dev nD) (b : Ref sig .tc) (h0 : ∀ w, Pipeline.arrRef spec0 w ≠ b) (h1 : ∀ w, Pipeline.arrRef spec1 w ≠ b)
    (hw : ∀ op ∈ (hostOps0 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := W3_of_ne m ρ c b h1
    _ = W1 m ρ c (Proc.devRef .tc b) := W2_of_ne m ρ c b h0
    _ = W0 m ρ c (Proc.devRef .tc b) := StableHlo.after_of_forall_not_mem (b := Proc.devRef .tc b) _ _ hw
    _ = m ((c : Thread nD τ).loc b) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No host operation allocates a buffer. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0: entered from every unscoped buffer at `W1`, left at `W2`; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m ρ 0 c).Φ 0 from hin0 (V1 m ρ) c)
    unfold Pipeline.ΦA
    iintro ⟨Hp, -, Hr⟩
    isplitl [Hr]; · iexact Hr
    iexact Hp
  hout c := by
    refine BIBase.Entails.trans (show (pdats m ρ 0 c).Φ (Fin.last _) ⊢ (Pipeline.ΦA spec0 c : sProp 𝕄) from hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]

set_option maxHeartbeats 4000000 in
/-- @main is the run of the segments. -/
theorem main_run (c : Dev nD) : main (F := F) c = Pipeline.Seg.run (segs m ρ) := (main_chain c).trans (by chain_rfl)

set_option backward.isDefEq.respectTransparency.types false in
/-- From any memory with zero counters every weakly fair execution of @main on the TensorCores terminates, nothing
    faulting, and every final state has every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KIArgs.lean ====
/-
  No host operation of @main writes an argument array: each of the eight reaches the regions, and the end, as launched.
-/

import proofs.«421518_j21474836480044_1_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- None of the seventy-five host operations writes an argument's buffer. -/
theorem hostOps0_keeps_args (b : Ref sig .tc)
    (hb : b = main_arg0 ∨ b = main_arg1 ∨ b = main_arg2 ∨ b = main_arg3 ∨ b = main_arg4 ∨ b = main_arg5 ∨ b = main_arg6 ∨ b = main_arg7) :
    ∀ op ∈ (hostOps0 : List (HloOp τ sig (Elt F))), Proc.devRef .tc b ∉ op.writes := by
  -- one argument at a time
  rcases hb with rfl | rfl | rfl | rfl | rfl | rfl | rfl | rfl
  all_goals
    -- over the explicit list the claim is a conjunction, one conjunct per operation
    refine List.forall_iff_forall_mem.mp ?_
    -- each operation writes exactly its result's buffer
    simp only [hostOps0, List.Forall, StableHlo.nullary_writes, StableHlo.unary_writes, StableHlo.binary_writes,
      StableHlo.ternary_writes, StableHlo.reshape_writes, Finset.mem_singleton]
    repeat' apply And.intro
    -- and no result is an argument: distinct references name distinct buffers
    all_goals exact StableHlo.devRef_ne_of_ne (by decide)

end Cert.KernelIdeal.Hand

end
-- ==== Proof.KIFrame.lean ====
/-
  The frame of the program, and the run with the result's buffer named: from the run's post (every unscoped buffer at
  the last boundary's contents) each argument array is read back to its launch contents — no host operation writes
  one and no region's window names one.
-/
import proofs.«421518_j21474836480044_1_alg».proof.Proof.KIRun
import proofs.«421518_j21474836480044_1_alg».proof.Proof.KIArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An argument's buffer ends as launched. -/
theorem W3_arg (c : Dev nD) (b : Ref sig .tc)
    (hb : b = main_arg0 ∨ b = main_arg1 ∨ b = main_arg2 ∨ b = main_arg3 ∨ b = main_arg4 ∨ b = main_arg5 ∨ b = main_arg6 ∨ b = main_arg7) :
    W3 m ρ c (Proc.devRef .tc b) = m ((c : Thread nD τ).loc b) := by
  refine W3_of_untouched m ρ c b ?_ ?_ (hostOps0_keeps_args b hb)
  · rcases hb with rfl | rfl | rfl | rfl | rfl | rfl | rfl | rfl <;> decide
  · rcases hb with rfl | rfl | rfl | rfl | rfl | rfl | rfl | rfl <;> decide

/-- The run with the result named: the result's buffer at `W3`, every argument as launched. -/
theorem run_value : θ_run defs (onTc (τ := τ) (main (F := F))) ⟨m, fun _ => 0, ρ⟩ (fun r => ∀ c : Dev nD,
      r.2.mem ((c.tc : Thread nD τ).loc main_v61) = W3 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v61 (by decide)),
      (h c _ (mem_uc main_arg0 (by decide))).trans (W3_arg m ρ c main_arg0 (Or.inl rfl)),
      (h c _ (mem_uc main_arg1 (by decide))).trans (W3_arg m ρ c main_arg1 (Or.inr (Or.inl rfl))),
      (h c _ (mem_uc main_arg2 (by decide))).trans (W3_arg m ρ c main_arg2 (Or.inr (Or.inr (Or.inl rfl)))),
      (h c _ (mem_uc main_arg3 (by decide))).trans (W3_arg m ρ c main_arg3 (Or.inr (Or.inr (Or.inr (Or.inl rfl))))),
      (h c _ (mem_uc main_arg4 (by decide))).trans (W3_arg m ρ c main_arg4 (Or.inr (Or.inr (Or.inr (Or.inr (Or.inl rfl)))))),
      (h c _ (mem_uc main_arg5 (by decide))).trans (W3_arg m ρ c main_arg5 (Or.inr (Or.inr (Or.inr (Or.inr (Or.inr (Or.inl rfl))))))),
      (h c _ (mem_uc main_arg6 (by decide))).trans (W3_arg m ρ c main_arg6 (Or.inr (Or.inr (Or.inr (Or.inr (Or.inr (Or.inr (Or.inl rfl)))))))),
      (h c _ (mem_uc main_arg7 (by decide))).trans (W3_arg m ρ c main_arg7 (Or.inr (Or.inr (Or.inr (Or.inr (Or.inr (Or.inr (Or.inr (rfl)))))))))⟩)
    (run_main m ρ)

/-- The frame: every weakly fair execution terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_value m ρ)

end Cert.KernelIdeal.Hand

end
-- ==== Proof.KIBlocks.lean ====
/-
  From blocks to arrays. Region 1's result array after its 25 write-backs: row `n` is what point `n / 2000` stored at
  row `n % 2000` of its block. Region 0's two result arrays: what the last point stored. And each window's block at a
  point read at an index of its array as the region finds it.
-/
import proofs.«421518_j21474836480044_1_alg».proof.Proof.KIData
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

/-- The point whose block holds row `n`, and the row inside it. -/
def ptOf (n : Fin 50000) : Fin cfg1.N := ⟨n.val / 2000, by have : cfg1.N = 25 := N_1; omega⟩
def rowIn (n : Fin 50000) : Fin 2000 := ⟨n.val % 2000, Nat.mod_lt _ (by omega)⟩

/-! ## The printed index maps, decided over the grids -/

/-- Region 1: the two blocked inputs and the result sit at block `(t, 0)` at point `t`; the six whole-array inputs at
    block `(0, 0)` throughout. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

/-- Region 0: the two blocked inputs sit at block `(t, 0)` at point `t`; the two results at block `(0, 0)`. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-! ## Region 1's result array -/

theorem ptOf_val (n : Fin 50000) : (ptOf n).val = n.val / 2000 := rfl

/-- The result as ONE function of the entry arrays: row `n` is row `n % 2000` of what the body computes of the blocks at
    point `n / 2000`. -/
def res1 (c : Dev nD) : S50000x40.Idx → Elt F .f32 := fun i =>
  out1_8 (iblk1 V c 0 (ptOf (i 0))) (iblk1 V c 1 (ptOf (i 0))) (iblk1 V c 2 (ptOf (i 0))) (iblk1 V c 3 (ptOf (i 0))) (iblk1 V c 4 (ptOf (i 0))) (iblk1 V c 5 (ptOf (i 0))) (iblk1 V c 6 (ptOf (i 0))) (iblk1 V c 7 (ptOf (i 0))) (ix2 (rowIn (i 0)) (i 1))

/-- At an array index whose row is `2000 t + r` that function is row `r` of what the body computes of the blocks at
    point `t`: the row's point is `t` and its row inside the block is `r`. -/
theorem res1_at (c : Dev nD) (t : Fin cfg1.N) (y : S2000x40.Idx) (i : S50000x40.Idx)
    (e0 : (i 0).val = t.val * 2000 + (y 0).val) (e1 : (i 1).val = (y 1).val) :
    res1 V c i = out1_8 (iblk1 V c 0 t) (iblk1 V c 1 t) (iblk1 V c 2 t) (iblk1 V c 3 t) (iblk1 V c 4 t) (iblk1 V c 5 t) (iblk1 V c 6 t) (iblk1 V c 7 t) y := by
  have hN : cfg1.N = 25 := N_1
  have ht : t.val < 25 := hN ▸ t.isLt
  have hy0 : (y 0).val < 2000 := (y 0).isLt
  have hp : ptOf (i 0) = t := Fin.ext (by show (i 0).val / 2000 = t.val; omega)
  have hr : (ix2 (rowIn (i 0)) (i 1) : S2000x40.Idx) = y := by
    funext a
    match a with
    | ⟨0, _⟩ => exact Fin.ext (by show (i 0).val % 2000 = (y 0).val; omega)
    | ⟨1, _⟩ => exact Fin.ext e1
  show out1_8 (iblk1 V c 0 (ptOf (i 0))) (iblk1 V c 1 (ptOf (i 0))) (iblk1 V c 2 (ptOf (i 0))) (iblk1 V c 3 (ptOf (i 0))) (iblk1 V c 4 (ptOf (i 0))) (iblk1 V c 5 (ptOf (i 0))) (iblk1 V c 6 (ptOf (i 0))) (iblk1 V c 7 (ptOf (i 0))) (ix2 (rowIn (i 0)) (i 1) : S2000x40.Idx) = _
  rw [hp, hr]

/-- What point `t` writes back is block `t` of that function: an element of the block at row `r` sits at row
    `2000 t + r` of the array. -/
theorem flushed1_8_eq (c : Dev nD) (t : Fin cfg1.N) :
    (dat1 V c).flushed 8 t = ((cfg1.win 8).blk t).view.read (Elt F) (res1 V c) := by
  show (cfg1.win 8).cut (grid1.coords t) ((dat1 V c).after 8 t) = _
  rw [after1_8]
  obtain ⟨h0, h1⟩ := (idx1 t).2.2.2.2.2.2.2.2
  funext y
  show out1_8 (iblk1 V c 0 t) (iblk1 V c 1 t) (iblk1 V c 2 t) (iblk1 V c 3 t) (iblk1 V c 4 t) (iblk1 V c 5 t) (iblk1 V c 6 t) (iblk1 V c 7 t) y = res1 V c (((cfg1.win 8).blk t).view.emb y)
  exact (res1_at V c t y _
    (by show win1_8.index t (0 : Fin 2) * 2000 + 1 * (y 0).val = _; omega)
    (by show win1_8.index t (1 : Fin 2) * 40 + 1 * (y 1).val = _; omega)).symm

/-- An index of the array is in point `t`'s block iff each coordinate is in the block's range on its axis. -/
theorem mem_blk1_8 (t : Fin cfg1.N) (i : S50000x40.Idx) :
    i ∈ ((cfg1.win 8).blk t).view.set ↔ ∀ a : Fin 2, win1_8.index t a * S2000x40.size a ≤ (i a).val ∧ (i a).val < win1_8.index t a * S2000x40.size a + S2000x40.size a := by
  show i ∈ ((View.whole main_v61).slice (win1_8.rect t)).set ↔ _
  rw [View.set_slice_whole, Rect.mem_set_unit]
  exact Iff.rfl

/-- The blocks cover the array: row `n` is in the block of point `n / 2000`. -/
theorem cover1_8 (i : S50000x40.Idx) : ∃ t : Fin cfg1.N, (cfg1.win 8).flush t = true ∧ i ∈ ((cfg1.win 8).blk t).view.set := by
  refine ⟨ptOf (i 0), flush1_8 _, ?_⟩
  rw [mem_blk1_8]
  obtain ⟨h0, h1⟩ := (idx1 (ptOf (i 0))).2.2.2.2.2.2.2.2
  have hp : (ptOf (i 0)).val = (i 0).val / 2000 := ptOf_val _
  have hi0 : (i 0).val < 50000 := (i 0).isLt
  have hi1 : (i 1).val < 40 := (i 1).isLt
  intro a
  match a with
  | ⟨0, _⟩ => show win1_8.index (ptOf (i 0)) (0 : Fin 2) * 2000 ≤ (i 0).val ∧ (i 0).val < win1_8.index (ptOf (i 0)) (0 : Fin 2) * 2000 + 2000; omega
  | ⟨1, _⟩ => show win1_8.index (ptOf (i 0)) (1 : Fin 2) * 40 ≤ (i 1).val ∧ (i 1).val < win1_8.index (ptOf (i 0)) (1 : Fin 2) * 40 + 40; omega

/-- So the array ends holding that function. -/
theorem final1_8_fun (c : Dev nD) : (dat1 V c).arrAt 8 cfg1.N = res1 V c :=
  (dat1 V c).arrAt_eq_of_cover 8 (res1 V c) (fun t _ => flushed1_8_eq V c t) cover1_8

/-- Region 1's result array after the run, entry by entry. -/
theorem final1_8 (c : Dev nD) (n : Fin 50000) (j : Fin 40) :
    ((dat1 V c).arrAt 8 cfg1.N : S50000x40.Idx → Elt F .f32) (ix2 n j)
      = out1_8 (iblk1 V c 0 (ptOf n)) (iblk1 V c 1 (ptOf n)) (iblk1 V c 2 (ptOf n)) (iblk1 V c 3 (ptOf n))
          (iblk1 V c 4 (ptOf n)) (iblk1 V c 5 (ptOf n)) (iblk1 V c 6 (ptOf n)) (iblk1 V c 7 (ptOf n)) (ix2 (rowIn n) j) :=
  congrFun (final1_8_fun V c) (ix2 n j)

/-! ## The blocks read at an index -/

/-- Region 1's blocks read at an index: the two blocked inputs, -/
theorem iblk1_0_apply (c : Dev nD) (t : Fin cfg1.N) (r : Fin 2000) (d : Fin 128) (n : Fin 50000) (hn : n.val = 2000 * t.val + r.val) :
    (iblk1 V c 0 t : Vec F S2000x128 .f32) (ix2 r d) = (V c main_v54 : S50000x128.Idx → Elt F .f32) (ix2 n d) := by
  obtain ⟨h0, h1⟩ := (idx1 t).1
  show V c main_v54 (((cfg1.win 0).blk t).view.emb (ix2 r d)) = V c main_v54 (ix2 n d)
  congr 1
  funext a; apply Fin.ext
  match a with
  | ⟨0, _⟩ => show win1_0.index t (0 : Fin 2) * 2000 + 1 * r.val = n.val; omega
  | ⟨1, _⟩ => show win1_0.index t (1 : Fin 2) * 128 + 1 * d.val = d.val; omega
theorem iblk1_1_apply (c : Dev nD) (t : Fin cfg1.N) (r : Fin 2000) (n : Fin 50000) (hn : n.val = 2000 * t.val + r.val) :
    (iblk1 V c 1 t : Vec F S2000x1 .i32) (ix2 r (0 : Fin 1)) = (V c main_v55 : S50000x1.Idx → Elt F .i32) (ix2 n (0 : Fin 1)) := by
  obtain ⟨h0, h1⟩ := (idx1 t).2.1
  show V c main_v55 (((cfg1.win 1).blk t).view.emb (ix2 r (0 : Fin 1))) = V c main_v55 (ix2 n (0 : Fin 1))
  congr 1
  funext a; apply Fin.ext
  match a with
  | ⟨0, _⟩ => show win1_1.index t (0 : Fin 2) * 2000 + 1 * r.val = n.val; omega
  | ⟨1, _⟩ => show win1_1.index t (1 : Fin 2) * 1 + 1 * (0 : Fin 1).val = (0 : Fin 1).val; omega
/-- and the six whole-array inputs. -/
theorem iblk1_2_eq (c : Dev nD) (t : Fin cfg1.N) : (iblk1 V c 2 t : Vec F S40x128 .f32) = (V c main_v60_0 : S40x128.Idx → Elt F .f32) := by
  obtain ⟨h0, h1⟩ := (idx1 t).2.2.1
  funext y
  show V c main_v60_0 (((cfg1.win 2).blk t).view.emb y) = V c main_v60_0 y
  congr 1
  funext a; apply Fin.ext
  match a with
  | ⟨0, _⟩ => show win1_2.index t (0 : Fin 2) * 40 + 1 * (y 0).val = (y 0).val; omega
  | ⟨1, _⟩ => show win1_2.index t (1 : Fin 2) * 128 + 1 * (y 1).val = (y 1).val; omega
theorem iblk1_3_eq (c : Dev nD) (t : Fin cfg1.N) : (iblk1 V c 3 t : Vec F S40x128 .f32) = (V c main_v60_1 : S40x128.Idx → Elt F .f32) := by
  obtain ⟨h0, h1⟩ := (idx1 t).2.2.2.1
  funext y
  show V c main_v60_1 (((cfg1.win 3).blk t).view.emb y) = V c main_v60_1 y
  congr 1
  funext a; apply Fin.ext
  match a with
  | ⟨0, _⟩ => show win1_3.index t (0 : Fin 2) * 40 + 1 * (y 0).val = (y 0).val; omega
  | ⟨1, _⟩ => show win1_3.index t (1 : Fin 2) * 128 + 1 * (y 1).val = (y 1).val; omega
theorem iblk1_4_eq (c : Dev nD) (t : Fin cfg1.N) : (iblk1 V c 4 t : Vec F S128x128 .f32) = (V c main_v56 : S128x128.Idx → Elt F .f32) := by
  obtain ⟨h0, h1⟩ := (idx1 t).2.2.2.2.1
  funext y
  show V c main_v56 (((cfg1.win 4).blk t).view.emb y) = V c main_v56 y
  congr 1
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega
theorem iblk1_5_eq (c : Dev nD) (t : Fin cfg1.N) : (iblk1 V c 5 t : Vec F S1x128 .f32) = (V c main_v58 : S1x128.Idx → Elt F .f32) := by
  obtain ⟨h0, h1⟩ := (idx1 t).2.2.2.2.2.1
  funext y
  show V c main_v58 (((cfg1.win 5).blk t).view.emb y) = V c main_v58 y
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega
theorem iblk1_6_eq (c : Dev nD) (t : Fin cfg1.N) : (iblk1 V c 6 t : Vec F S128x40 .f32) = (V c main_v57 : S128x40.Idx → Elt F .f32) := by
  obtain ⟨h0, h1⟩ := (idx1 t).2.2.2.2.2.2.1
  funext y
  show V c main_v57 (((cfg1.win 6).blk t).view.emb y) = V c main_v57 y
  congr 1
  funext a; apply Fin.ext
  match a with
  | ⟨0, _⟩ => show win1_6.index t (0 : Fin 2) * 128 + 1 * (y 0).val = (y 0).val; omega
  | ⟨1, _⟩ => show win1_6.index t (1 : Fin 2) * 40 + 1 * (y 1).val = (y 1).val; omega
theorem iblk1_7_eq (c : Dev nD) (t : Fin cfg1.N) : (iblk1 V c 7 t : Vec F S1x40 .f32) = (V c main_v59 : S1x40.Idx → Elt F .f32) := by
  obtain ⟨h0, h1⟩ := (idx1 t).2.2.2.2.2.2.2.1
  funext y
  show V c main_v59 (((cfg1.win 7).blk t).view.emb y) = V c main_v59 y
  congr 1
  funext a; apply Fin.ext
  match a with
  | ⟨0, _⟩ => show win1_7.index t (0 : Fin 2) * 1 + 1 * (y 0).val = (y 0).val; omega
  | ⟨1, _⟩ => show win1_7.index t (1 : Fin 2) * 40 + 1 * (y 1).val = (y 1).val; omega

/-- Region 0's blocks read at an index. -/
theorem hblk0_apply (c : Dev nD) (t : Fin cfg0.N) (r : Fin 2000) (d : Fin 128) (n : Fin 50000) (hn : n.val = 2000 * t.val + r.val) :
    hblk0 V c t (ix2 r d) = (V c main_v54 : S50000x128.Idx → Elt F .f32) (ix2 n d) := by
  obtain ⟨h0, h1⟩ := (idx0 t).1
  show V c main_v54 (((cfg0.win 0).blk t).view.emb (ix2 r d)) = V c main_v54 (ix2 n d)
  congr 1
  funext a; apply Fin.ext
  match a with
  | ⟨0, _⟩ => show win0_0.index t (0 : Fin 2) * 2000 + 1 * r.val = n.val; omega
  | ⟨1, _⟩ => show win0_0.index t (1 : Fin 2) * 128 + 1 * d.val = d.val; omega
theorem tblk0_apply (c : Dev nD) (t : Fin cfg0.N) (r : Fin 2000) (n : Fin 50000) (hn : n.val = 2000 * t.val + r.val) :
    tblk0 V c t (ix2 r (0 : Fin 1)) = (V c main_v55 : S50000x1.Idx → Elt F .i32) (ix2 n (0 : Fin 1)) := by
  obtain ⟨h0, h1⟩ := (idx0 t).2.1
  show V c main_v55 (((cfg0.win 1).blk t).view.emb (ix2 r (0 : Fin 1))) = V c main_v55 (ix2 n (0 : Fin 1))
  congr 1
  funext a; apply Fin.ext
  match a with
  | ⟨0, _⟩ => show win0_1.index t (0 : Fin 2) * 2000 + 1 * r.val = n.val; omega
  | ⟨1, _⟩ => show win0_1.index t (1 : Fin 2) * 1 + 1 * (0 : Fin 1).val = (0 : Fin 1).val; omega

/-! ## Region 0's result arrays: written back once, at the last point, wholly -/

/-- The one point that writes a result back is the last. -/
theorem last_of_flush (t : Fin cfg0.N) (h : t.val % 25 = 24) : t = ⟨24, by decide⟩ := by
  have hN : cfg0.N = 25 := N_0
  have ht : t.val < 25 := hN ▸ t.isLt
  exact Fin.ext (by show t.val = 24; omega)

/-- Window 2's block at any point is the whole array: reading a function through it gives the function. -/
theorem read_blk0_2 (t : Fin cfg0.N) (G : S40x128.Idx → Elt F .f32) : ((cfg0.win 2).blk t).view.read (Elt F) G = G := by
  obtain ⟨h0, h1⟩ := (idx0 t).2.2.1
  funext y
  show G (((cfg0.win 2).blk t).view.emb y) = G y
  congr 1
  funext a; apply Fin.ext
  match a with
  | ⟨0, _⟩ => show win0_2.index t (0 : Fin 2) * 40 + 1 * (y 0).val = (y 0).val; omega
  | ⟨1, _⟩ => show win0_2.index t (1 : Fin 2) * 128 + 1 * (y 1).val = (y 1).val; omega

/-- and every index of the array is in it. -/
theorem mem_blk0_2 (t : Fin cfg0.N) (i : S40x128.Idx) : i ∈ ((cfg0.win 2).blk t).view.set := by
  show i ∈ ((View.whole main_v60_0).slice (win0_2.rect t)).set
  rw [View.set_slice_whole, Rect.mem_set_unit]
  obtain ⟨h0, h1⟩ := (idx0 t).2.2.1
  have hi0 : (i 0).val < 40 := (i 0).isLt
  have hi1 : (i 1).val < 128 := (i 1).isLt
  intro a
  match a with
  | ⟨0, _⟩ => show win0_2.index t (0 : Fin 2) * 40 ≤ (i 0).val ∧ (i 0).val < win0_2.index t (0 : Fin 2) * 40 + 40; omega
  | ⟨1, _⟩ => show win0_2.index t (1 : Fin 2) * 128 ≤ (i 1).val ∧ (i 1).val < win0_2.index t (1 : Fin 2) * 128 + 128; omega

/-- Window 3's block at any point is the whole array: reading a function through it gives the function. -/
theorem read_blk0_3 (t : Fin cfg0.N) (G : S40x128.Idx → Elt F .f32) : ((cfg0.win 3).blk t).view.read (Elt F) G = G := by
  obtain ⟨h0, h1⟩ := (idx0 t).2.2.2
  funext y
  show G (((cfg0.win 3).blk t).view.emb y) = G y
  congr 1
  funext a; apply Fin.ext
  match a with
  | ⟨0, _⟩ => show win0_3.index t (0 : Fin 2) * 40 + 1 * (y 0).val = (y 0).val; omega
  | ⟨1, _⟩ => show win0_3.index t (1 : Fin 2) * 128 + 1 * (y 1).val = (y 1).val; omega

/-- and every index of the array is in it. -/
theorem mem_blk0_3 (t : Fin cfg0.N) (i : S40x128.Idx) : i ∈ ((cfg0.win 3).blk t).view.set := by
  show i ∈ ((View.whole main_v60_1).slice (win0_3.rect t)).set
  rw [View.set_slice_whole, Rect.mem_set_unit]
  obtain ⟨h0, h1⟩ := (idx0 t).2.2.2
  have hi0 : (i 0).val < 40 := (i 0).isLt
  have hi1 : (i 1).val < 128 := (i 1).isLt
  intro a
  match a with
  | ⟨0, _⟩ => show win0_3.index t (0 : Fin 2) * 40 ≤ (i 0).val ∧ (i 0).val < win0_3.index t (0 : Fin 2) * 40 + 40; omega
  | ⟨1, _⟩ => show win0_3.index t (1 : Fin 2) * 128 ≤ (i 1).val ∧ (i 1).val < win0_3.index t (1 : Fin 2) * 128 + 128; omega

/-- Region 0's result arrays after the run: what the last point stored. -/
theorem final0_2 (c : Dev nD) :
    ((dat0 V c).arrAt 2 cfg0.N : S40x128.Idx → Elt F .f32)
      = k0_pay3 (sAt0 V c 24 (by decide)).2.2 (sAt0 V c 24 (by decide)).1 := by
  refine (dat0 V c).arrAt_eq_of_cover 2 _ (fun t hf => ?_) (fun i => ⟨⟨24, by decide⟩, (flush0_2 _).mpr (by decide), mem_blk0_2 _ i⟩)
  obtain rfl := last_of_flush t ((flush0_2 t).mp hf)
  rw [read_blk0_2]
  show (cfg0.win 2).cut (grid0.coords ⟨24, by decide⟩) ((dat0 V c).after 2 ⟨24, by decide⟩) = _
  rw [after0_2]
  rfl
theorem final0_3 (c : Dev nD) :
    ((dat0 V c).arrAt 3 cfg0.N : S40x128.Idx → Elt F .f32)
      = k0_pay4 (sAt0 V c 24 (by decide)).2.2 (sAt0 V c 24 (by decide)).1 (sAt0 V c 24 (by decide)).2.1 := by
  refine (dat0 V c).arrAt_eq_of_cover 3 _ (fun t hf => ?_) (fun i => ⟨⟨24, by decide⟩, (flush0_3 _).mpr (by decide), mem_blk0_3 _ i⟩)
  obtain rfl := last_of_flush t ((flush0_3 t).mp hf)
  rw [read_blk0_3]
  show (cfg0.win 3).cut (grid0.coords ⟨24, by decide⟩) ((dat0 V c).after 3 ⟨24, by decide⟩) = _
  rw [after0_3]
  rfl

/-- An input window's array is as the region found it. -/
theorem final0_in (c : Dev nD) : (dat0 V c).arrAt 0 cfg0.N = V c main_v54 ∧ (dat0 V c).arrAt 1 cfg0.N = V c main_v55 :=
  ⟨((dat0 V c).arrAt_in 0 rfl _).trans (A_eq0 V c 0), ((dat0 V c).arrAt_in 1 rfl _).trans (A_eq0 V c 1)⟩

end Cert.KernelIdeal.Hand

end
-- ==== Proof.Spec.lean ====
/-
  THE SPECIFICATION both programs compute, over the extended reals, entry by entry.

  The rows `h n` (50000 rows of 128 features, already propagated over the graph) carry a time group `tm n` (an
  integer; a group is one of 40). Per group `g`: the count of its rows clamped below at one, the mean of its rows
  (their sum over that count) and their variance (mean square less squared mean). Each row is standardised by ITS
  group's mean and variance, `(h − mean) · (max var 0 + ε)^(-1/2)`, then passed through two affine layers, the first
  followed by `max · 0`, and the logistic function.

  A row's group is read as the table's row `min (tm n) 39` (the clamp is the identity on a group in range).
-/
import Idealize.ShloMosaic.PureOps.Ideal

noncomputable section

namespace Cert.Spec

open Idealize.ShloMosaic

variable (h : Fin 50000 → Fin 128 → EReal) (tm : Fin 50000 → ℤ)
  (w1 : Fin 128 → Fin 128 → EReal) (b1 : Fin 128 → EReal) (w2 : Fin 40 → Fin 128 → EReal) (b2 : Fin 40 → EReal)

/-- The guard under the inverse square root, the single-precision word both programs carry. -/
def eps : EReal := Ideal.ofBits .f32 0x3727C5AC#32

/-- The rows of group `g`. -/
def rowsOf (g : Fin 40) : Finset (Fin 50000) := Finset.univ.filter fun n => tm n = (g.val : ℤ)

/-- The table row a row's group names: the group itself when it is one of the 40. -/
def grp (n : Fin 50000) : Fin 40 := ⟨min (tm n).toNat 39, by omega⟩

/-- The number of rows of group `g`, -/
def cnt (g : Fin 40) : EReal := ∑ _n ∈ rowsOf tm g, (1 : EReal)
/-- clamped below at one. -/
def cntc (g : Fin 40) : EReal := max (cnt tm g) 1
/-- The sum of the rows of group `g`, feature by feature, -/
def sum1 (g : Fin 40) (d : Fin 128) : EReal := ∑ n ∈ rowsOf tm g, h n d
/-- and of their squares. -/
def sum2 (g : Fin 40) (d : Fin 128) : EReal := ∑ n ∈ rowsOf tm g, h n d * h n d
/-- The group's mean -/
def mean (g : Fin 40) (d : Fin 128) : EReal := Ideal.div (sum1 h tm g d) (cntc tm g)
/-- and variance. -/
def var (g : Fin 40) (d : Fin 128) : EReal := Ideal.div (sum2 h tm g d) (cntc tm g) - mean h tm g d * mean h tm g d
/-- The standardised row. -/
def hn (n : Fin 50000) (d : Fin 128) : EReal :=
  (h n d - mean h tm (grp tm n) d) * Ideal.rsqrt (max (var h tm (grp tm n) d) 0 + eps)
/-- The hidden layer. -/
def hid (n : Fin 50000) (k : Fin 128) : EReal := max ((∑ d : Fin 128, hn h tm n d * w1 k d) + b1 k) 0
/-- The result. -/
def out (n : Fin 50000) (j : Fin 40) : EReal :=
  Ideal.logistic ((∑ k : Fin 128, hid h tm w1 b1 n k * w2 j k) + b2 j)

end Cert.Spec

end
-- ==== Proof.KIPayIdx.lean ====
/-
  The kernels' arithmetic read at an index, over the extended reals: the weights of a block's rows by group, the
  three accumulators' updates, the mean and the variance, and the second kernel's result.
-/
import proofs.«421518_j21474836480044_1_alg».proof.Proof.KIData
import proofs.«421518_j21474836480044_1_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.PayIdx

open Cert.KernelIdeal Cert.KernelIdeal.Gen Cert.KernelIdeal.Hand
open Idealize.ShloMosaic Idealize.ShloMosaic.ValueIdx

/-- Whether row `r` of a block of time groups is of group `g`, as a weight. -/
def ohB (x1 : Vec Ideal S2000x1 .i32) (r : Fin 2000) (g : Fin 40) : EReal :=
  if (x1 (ix2 r (0 : Fin 1))).toInt = (g.val : ℤ) then 1 else 0

/-! ## The constants, the mean and the variance -/

theorem pay5_apply (g : Fin 40) (d : Fin 128) : k0_pay5 (F := Ideal) (ix2 g d) = (0 : EReal) := by
  unfold k0_pay5
  rw [shapeCast_self]
  exact Ideal.ofBits_zero_f32
theorem pay6_apply (g : Fin 40) (d : Fin 128) : k0_pay6 (F := Ideal) (ix2 g d) = (0 : EReal) := by
  unfold k0_pay6
  rw [shapeCast_self]
  exact Ideal.ofBits_zero_f32
theorem pay7_apply (g : Fin 40) : k0_pay7 (F := Ideal) (ix2 g (0 : Fin 1)) = (0 : EReal) := by
  unfold k0_pay7
  rw [shapeCast_self]
  exact Ideal.ofBits_zero_f32

/-- The count clamped below at one. -/
theorem pay2_apply (cn : Vec Ideal S40x1 .f32) (g : Fin 40) :
    k0_pay2 (F := Ideal) cn (ix2 g (0 : Fin 1)) = max (cn (ix2 g (0 : Fin 1))) 1 := by
  unfold k0_pay2
  show max (cn (ix2 g (0 : Fin 1))) (Ideal.ofBits .f32 0x3F800000#32) = _
  rw [Ideal.ofBits_one_f32]

/-- A [40,1] column broadcast along the rows to [40,128] reads, at (g, d), the column at g. -/
theorem bc_40x1_40x128 {α : Type} (v : S40x1.Idx → α) (g : Fin 40) (d : Fin 128) :
    broadcastTo S40x128 v broadcasts_S40x1_S40x128 (ix2 g d) = v (ix2 g (0 : Fin 1)) := by
  refine broadcastTo_apply v _ (ix2 g d) (ix2 g (0 : Fin 1)) fun ax => ?_
  match ax with
  | ⟨0, _⟩ => rfl
  | ⟨1, _⟩ => rfl

/-- The mean: the sum over the count clamped below at one. -/
theorem pay3_apply (cn : Vec Ideal S40x1 .f32) (s : Vec Ideal S40x128 .f32) (g : Fin 40) (d : Fin 128) :
    k0_pay3 (F := Ideal) cn s (ix2 g d) = Ideal.div (s (ix2 g d)) (max (cn (ix2 g (0 : Fin 1))) 1) := by
  unfold k0_pay3
  rw [divf_apply, bc_40x1_40x128, pay2_apply]

/-- The variance: the mean square less the squared mean. -/
theorem pay4_apply (cn : Vec Ideal S40x1 .f32) (s s2 : Vec Ideal S40x128 .f32) (g : Fin 40) (d : Fin 128) :
    k0_pay4 (F := Ideal) cn s s2 (ix2 g d)
      = Ideal.div (s2 (ix2 g d)) (max (cn (ix2 g (0 : Fin 1))) 1)
        - Ideal.div (s (ix2 g d)) (max (cn (ix2 g (0 : Fin 1))) 1) * Ideal.div (s (ix2 g d)) (max (cn (ix2 g (0 : Fin 1))) 1) := by
  unfold k0_pay4
  rw [subf_apply, divf_apply, mulf_apply, bc_40x1_40x128, pay2_apply, pay3_apply]

/-! ## The group weights -/

/-- A 32-bit word equals the word of a small number exactly when its signed reading is that number. -/
theorem word_eq_ofNat_iff (x : BitVec 32) (g : ℕ) (hg : g < 40) : x = BitVec.ofNat 32 g ↔ x.toInt = (g : ℤ) := by
  have hb : (BitVec.ofNat 32 g).toInt = (g : ℤ) := by
    rw [BitVec.toInt_ofNat']
    simp only [Int.bmod]
    omega
  constructor
  · rintro rfl
    exact hb
  · intro h
    apply BitVec.eq_of_toInt_eq
    rw [h, hb]

/-- The comparison of a word with a small number, widened and converted, is the weight one or zero. -/
theorem weight_word (x : BitVec 32) (g : ℕ) (hg : g < 40) :
    (((((IntOp.cmpi .eq x (BitVec.ofNat 32 g)).setWidth 32).toInt : ℝ)) : EReal) = if x.toInt = (g : ℤ) then 1 else 0 := by
  by_cases h : x.toInt = (g : ℤ)
  · rw [if_pos h]
    have e : IntOp.cmpi .eq x (BitVec.ofNat 32 g) = 1#1 := by
      have hx : x = BitVec.ofNat 32 g := (word_eq_ofNat_iff x g hg).2 h
      show BitVec.ofBool (x == BitVec.ofNat 32 g) = 1#1
      rw [hx, beq_self_eq_true]
      rfl
    rw [e]
    norm_num
  · rw [if_neg h]
    have e : IntOp.cmpi .eq x (BitVec.ofNat 32 g) = 0#1 := by
      have hx : x ≠ BitVec.ofNat 32 g := fun hx => h ((word_eq_ofNat_iff x g hg).1 hx)
      show BitVec.ofBool (x == BitVec.ofNat 32 g) = 0#1
      rw [beq_eq_false_iff_ne.2 hx]
      rfl
    rw [e]
    norm_num

/-- A [2000,1] column broadcast along the rows to [2000,40] reads, at (r, g), the column at r. -/
theorem bc_2000x1_2000x40 {α : Type} (v : S2000x1.Idx → α) (r : Fin 2000) (g : Fin 40) :
    broadcastTo S2000x40 v broadcasts_S2000x1_S2000x40 (ix2 r g) = v (ix2 r (0 : Fin 1)) := by
  refine broadcastTo_apply v _ (ix2 r g) (ix2 r (0 : Fin 1)) fun ax => ?_
  match ax with
  | ⟨0, _⟩ => rfl
  | ⟨1, _⟩ => rfl

/-- The comparison of the rows' groups with the group numbers, as weights: at (r, g) it is one when row `r` is of group
    `g`, else zero. -/
theorem weights_apply (x1 : Vec Ideal S2000x1 .i32) (r : Fin 2000) (g : Fin 40) :
    (sitofp .f32 (extui 32 (cmpi .eq (broadcastTo S2000x40 x1 broadcasts_S2000x1_S2000x40)
      (iota .tc S2000x40 32 [1] iota_S2000x40_d1_w32)) natLt_1_32) : FVec Ideal S2000x40 .f32) (ix2 r g) = ohB x1 r g := by
  unfold ohB
  rw [sitofp_apply, extui_apply]
  show (((((IntOp.cmpi .eq (broadcastTo S2000x40 x1 broadcasts_S2000x1_S2000x40 (ix2 r g))
      (iota .tc S2000x40 32 [1] iota_S2000x40_d1_w32 (ix2 r g))).setWidth 32).toInt : ℝ)) : EReal) = _
  rw [bc_2000x1_2000x40, iota_single_apply]
  exact weight_word _ g.val g.isLt

/-- The block's group weights. -/
theorem pay9_apply (x1 : Vec Ideal S2000x1 .i32) (r : Fin 2000) (g : Fin 40) :
    k0_pay9 (F := Ideal) x1 (ix2 r g) = ohB x1 r g := by
  unfold k0_pay9
  rw [shapeCast_self]
  exact weights_apply x1 r g

/-- The weights transposed read, at (g, r), the weights at (r, g). -/
theorem tr_2000x40 {α : Type} (v : S2000x40.Idx → α) (g : Fin 40) (r : Fin 2000) :
    transpose S40x2000 [1, 0] v transposes_S2000x40_p1_0_S40x2000 (ix2 g r) = v (ix2 r g) :=
  transpose_apply [1, 0] v transposes_S2000x40_p1_0_S40x2000 (ix2 g r) (ix2 r g) (fun b => match b with
    | ⟨0, _⟩ => rfl
    | ⟨1, _⟩ => rfl)

/-! ## The products into a zero accumulator, at an index -/

theorem lhs_dot_S40x2000_S2000x128_S40x128_1_0_0_1_n_n_0 (i : S40x128.Idx) (q : dot_S40x2000_S2000x128_S40x128_1_0_0_1_n_n.contr.Idx) :
    (dot_S40x2000_S2000x128_S40x128_1_0_0_1_n_n.lhsIdx i q 0).val = (i 0).val := by
  unfold DotDims.lhsIdx
  rw [dif_neg (show ¬(0 : Fin S40x2000.rank) ∈ dot_S40x2000_S2000x128_S40x128_1_0_0_1_n_n.lhsBatch by decide), dif_pos (show (0 : Fin S40x2000.rank) ∈ dot_S40x2000_S2000x128_S40x128_1_0_0_1_n_n.lhsNonContracting by decide)]
  rfl
theorem lhs_dot_S40x2000_S2000x128_S40x128_1_0_0_1_n_n_1 (i : S40x128.Idx) (q : dot_S40x2000_S2000x128_S40x128_1_0_0_1_n_n.contr.Idx) :
    (dot_S40x2000_S2000x128_S40x128_1_0_0_1_n_n.lhsIdx i q 1).val = (q ⟨0, by decide⟩).val :=
  dot_S40x2000_S2000x128_S40x128_1_0_0_1_n_n.lhsIdx_val_of_single rfl i q
theorem rhs_dot_S40x2000_S2000x128_S40x128_1_0_0_1_n_n_0 (i : S40x128.Idx) (q : dot_S40x2000_S2000x128_S40x128_1_0_0_1_n_n.contr.Idx) :
    (dot_S40x2000_S2000x128_S40x128_1_0_0_1_n_n.rhsIdx i q 0).val = (q ⟨0, by decide⟩).val :=
  dot_S40x2000_S2000x128_S40x128_1_0_0_1_n_n.rhsIdx_val_of_single rfl i q
theorem rhs_dot_S40x2000_S2000x128_S40x128_1_0_0_1_n_n_1 (i : S40x128.Idx) (q : dot_S40x2000_S2000x128_S40x128_1_0_0_1_n_n.contr.Idx) :
    (dot_S40x2000_S2000x128_S40x128_1_0_0_1_n_n.rhsIdx i q 1).val = (i 1).val := by
  unfold DotDims.rhsIdx
  rw [dif_neg (show ¬(1 : Fin S2000x128.rank) ∈ dot_S40x2000_S2000x128_S40x128_1_0_0_1_n_n.rhsBatch by decide), dif_pos (show (1 : Fin S2000x128.rank) ∈ dot_S40x2000_S2000x128_S40x128_1_0_0_1_n_n.rhsNonContracting by decide)]
  rfl
/-- The product of a [40,2000] by a [2000,128] array into a zero accumulator, at row `p` and column `q`: the sum over the
    contracted coordinate of the operands' products. -/
theorem mm_dot_S40x2000_S2000x128_S40x128_1_0_0_1_n_n {φ₁ φ₂ : FTy} (prec : Option ContractPrecision) (l : FVec Ideal S40x2000 φ₁) (r : FVec Ideal S2000x128 φ₂)
    (p : Fin 40) (q : Fin 128) :
    matmul dot_S40x2000_S2000x128_S40x128_1_0_0_1_n_n prec l r (constant S40x128 .f32 0x00000000#32) (ix2 p q) = ∑ k : Fin 2000, l (ix2 p k) * r (ix2 k q) := by
  simp only [matmul]
  rw [Ideal.matmul_constant_zero_apply, ← Equiv.sum_comp (contrEquiv1 dot_S40x2000_S2000x128_S40x128_1_0_0_1_n_n 2000 rfl rfl).symm]
  refine Finset.sum_congr rfl fun k _ => ?_
  have hk := contrEquiv1_symm_val dot_S40x2000_S2000x128_S40x128_1_0_0_1_n_n 2000 rfl rfl k
  have el : dot_S40x2000_S2000x128_S40x128_1_0_0_1_n_n.lhsIdx (ix2 p q) ((contrEquiv1 dot_S40x2000_S2000x128_S40x128_1_0_0_1_n_n 2000 rfl rfl).symm k) = ix2 p k := funext fun a => Fin.ext (by
    match a with
    | ⟨0, _⟩ => exact lhs_dot_S40x2000_S2000x128_S40x128_1_0_0_1_n_n_0 _ _
    | ⟨1, _⟩ => exact (lhs_dot_S40x2000_S2000x128_S40x128_1_0_0_1_n_n_1 _ _).trans hk)
  have er : dot_S40x2000_S2000x128_S40x128_1_0_0_1_n_n.rhsIdx (ix2 p q) ((contrEquiv1 dot_S40x2000_S2000x128_S40x128_1_0_0_1_n_n 2000 rfl rfl).symm k) = ix2 k q := funext fun a => Fin.ext (by
    match a with
    | ⟨0, _⟩ => exact (rhs_dot_S40x2000_S2000x128_S40x128_1_0_0_1_n_n_0 _ _).trans hk
    | ⟨1, _⟩ => exact rhs_dot_S40x2000_S2000x128_S40x128_1_0_0_1_n_n_1 _ _)
  rw [el, er]

theorem lhs_dot_S40x2000_S2000x1_S40x1_1_0_0_1_n_n_0 (i : S40x1.Idx) (q : dot_S40x2000_S2000x1_S40x1_1_0_0_1_n_n.contr.Idx) :
    (dot_S40x2000_S2000x1_S40x1_1_0_0_1_n_n.lhsIdx i q 0).val = (i 0).val := by
  unfold DotDims.lhsIdx
  rw [dif_neg (show ¬(0 : Fin S40x2000.rank) ∈ dot_S40x2000_S2000x1_S40x1_1_0_0_1_n_n.lhsBatch by decide), dif_pos (show (0 : Fin S40x2000.rank) ∈ dot_S40x2000_S2000x1_S40x1_1_0_0_1_n_n.lhsNonContracting by decide)]
  rfl
theorem lhs_dot_S40x2000_S2000x1_S40x1_1_0_0_1_n_n_1 (i : S40x1.Idx) (q : dot_S40x2000_S2000x1_S40x1_1_0_0_1_n_n.contr.Idx) :
    (dot_S40x2000_S2000x1_S40x1_1_0_0_1_n_n.lhsIdx i q 1).val = (q ⟨0, by decide⟩).val :=
  dot_S40x2000_S2000x1_S40x1_1_0_0_1_n_n.lhsIdx_val_of_single rfl i q
theorem rhs_dot_S40x2000_S2000x1_S40x1_1_0_0_1_n_n_0 (i : S40x1.Idx) (q : dot_S40x2000_S2000x1_S40x1_1_0_0_1_n_n.contr.Idx) :
    (dot_S40x2000_S2000x1_S40x1_1_0_0_1_n_n.rhsIdx i q 0).val = (q ⟨0, by decide⟩).val :=
  dot_S40x2000_S2000x1_S40x1_1_0_0_1_n_n.rhsIdx_val_of_single rfl i q
theorem rhs_dot_S40x2000_S2000x1_S40x1_1_0_0_1_n_n_1 (i : S40x1.Idx) (q : dot_S40x2000_S2000x1_S40x1_1_0_0_1_n_n.contr.Idx) :
    (dot_S40x2000_S2000x1_S40x1_1_0_0_1_n_n.rhsIdx i q 1).val = (i 1).val := by
  unfold DotDims.rhsIdx
  rw [dif_neg (show ¬(1 : Fin S2000x1.rank) ∈ dot_S40x2000_S2000x1_S40x1_1_0_0_1_n_n.rhsBatch by decide), dif_pos (show (1 : Fin S2000x1.rank) ∈ dot_S40x2000_S2000x1_S40x1_1_0_0_1_n_n.rhsNonContracting by decide)]
  rfl
/-- The product of a [40,2000] by a [2000,1] array into a zero accumulator, at row `p` and column `q`: the sum over the
    contracted coordinate of the operands' products. -/
theorem mm_dot_S40x2000_S2000x1_S40x1_1_0_0_1_n_n {φ₁ φ₂ : FTy} (prec : Option ContractPrecision) (l : FVec Ideal S40x2000 φ₁) (r : FVec Ideal S2000x1 φ₂)
    (p : Fin 40) (q : Fin 1) :
    matmul dot_S40x2000_S2000x1_S40x1_1_0_0_1_n_n prec l r (constant S40x1 .f32 0x00000000#32) (ix2 p q) = ∑ k : Fin 2000, l (ix2 p k) * r (ix2 k q) := by
  simp only [matmul]
  rw [Ideal.matmul_constant_zero_apply, ← Equiv.sum_comp (contrEquiv1 dot_S40x2000_S2000x1_S40x1_1_0_0_1_n_n 2000 rfl rfl).symm]
  refine Finset.sum_congr rfl fun k _ => ?_
  have hk := contrEquiv1_symm_val dot_S40x2000_S2000x1_S40x1_1_0_0_1_n_n 2000 rfl rfl k
  have el : dot_S40x2000_S2000x1_S40x1_1_0_0_1_n_n.lhsIdx (ix2 p q) ((contrEquiv1 dot_S40x2000_S2000x1_S40x1_1_0_0_1_n_n 2000 rfl rfl).symm k) = ix2 p k := funext fun a => Fin.ext (by
    match a with
    | ⟨0, _⟩ => exact lhs_dot_S40x2000_S2000x1_S40x1_1_0_0_1_n_n_0 _ _
    | ⟨1, _⟩ => exact (lhs_dot_S40x2000_S2000x1_S40x1_1_0_0_1_n_n_1 _ _).trans hk)
  have er : dot_S40x2000_S2000x1_S40x1_1_0_0_1_n_n.rhsIdx (ix2 p q) ((contrEquiv1 dot_S40x2000_S2000x1_S40x1_1_0_0_1_n_n 2000 rfl rfl).symm k) = ix2 k q := funext fun a => Fin.ext (by
    match a with
    | ⟨0, _⟩ => exact (rhs_dot_S40x2000_S2000x1_S40x1_1_0_0_1_n_n_0 _ _).trans hk
    | ⟨1, _⟩ => exact rhs_dot_S40x2000_S2000x1_S40x1_1_0_0_1_n_n_1 _ _)
  rw [el, er]

/-! ## The accumulators' updates -/

/-- The sums' update: the accumulator plus the block's weighted rows. -/
theorem pay10_apply (x0 : Vec Ideal S2000x128 .f32) (x1 : Vec Ideal S2000x1 .i32) (s : Vec Ideal S40x128 .f32) (g : Fin 40) (d : Fin 128) :
    k0_pay10 (F := Ideal) x0 x1 s (ix2 g d) = s (ix2 g d) + ∑ r : Fin 2000, ohB x1 r g * x0 (ix2 r d) := by
  unfold k0_pay10
  rw [shapeCast_self, addf_apply, mm_dot_S40x2000_S2000x128_S40x128_1_0_0_1_n_n]
  refine congrArg (s (ix2 g d) + ·) (Finset.sum_congr rfl fun r _ => ?_)
  rw [tr_2000x40, pay9_apply]
  unfold k0_pay8
  rw [shapeCast_self]

/-- The squares' update. -/
theorem pay11_apply (x0 : Vec Ideal S2000x128 .f32) (x1 : Vec Ideal S2000x1 .i32) (s : Vec Ideal S40x128 .f32) (g : Fin 40) (d : Fin 128) :
    k0_pay11 (F := Ideal) x0 x1 s (ix2 g d) = s (ix2 g d) + ∑ r : Fin 2000, ohB x1 r g * (x0 (ix2 r d) * x0 (ix2 r d)) := by
  unfold k0_pay11
  rw [shapeCast_self, addf_apply, mm_dot_S40x2000_S2000x128_S40x128_1_0_0_1_n_n]
  refine congrArg (s (ix2 g d) + ·) (Finset.sum_congr rfl fun r _ => ?_)
  rw [tr_2000x40, pay9_apply, mulf_apply]
  unfold k0_pay8
  rw [shapeCast_self]

/-- The counts' update. -/
theorem pay12_apply (x1 : Vec Ideal S2000x1 .i32) (s : Vec Ideal S40x1 .f32) (g : Fin 40) :
    k0_pay1 (F := Ideal) (k0_pay12 x1 s) (ix2 g (0 : Fin 1)) = s (ix2 g (0 : Fin 1)) + ∑ r : Fin 2000, ohB x1 r g * (1 : EReal) := by
  unfold k0_pay1 k0_pay12
  rw [shapeCast_self, addf_apply, mm_dot_S40x2000_S2000x1_S40x1_1_0_0_1_n_n]
  refine congrArg (s (ix2 g (0 : Fin 1)) + ·) (Finset.sum_congr rfl fun r _ => ?_)
  rw [tr_2000x40, pay9_apply, broadcast_apply]
  show ohB x1 r g * Ideal.ofBits .f32 0x3F800000#32 = _
  rw [Ideal.ofBits_one_f32]

/-! ## The second kernel: the three products, the two bias rows, the result -/

theorem lhs_dot_S2000x40_S40x128_S2000x128_1_0_0_1_n_n_0 (i : S2000x128.Idx) (q : dot_S2000x40_S40x128_S2000x128_1_0_0_1_n_n.contr.Idx) :
    (dot_S2000x40_S40x128_S2000x128_1_0_0_1_n_n.lhsIdx i q 0).val = (i 0).val := by
  unfold DotDims.lhsIdx
  rw [dif_neg (show ¬(0 : Fin S2000x40.rank) ∈ dot_S2000x40_S40x128_S2000x128_1_0_0_1_n_n.lhsBatch by decide), dif_pos (show (0 : Fin S2000x40.rank) ∈ dot_S2000x40_S40x128_S2000x128_1_0_0_1_n_n.lhsNonContracting by decide)]
  rfl
theorem lhs_dot_S2000x40_S40x128_S2000x128_1_0_0_1_n_n_1 (i : S2000x128.Idx) (q : dot_S2000x40_S40x128_S2000x128_1_0_0_1_n_n.contr.Idx) :
    (dot_S2000x40_S40x128_S2000x128_1_0_0_1_n_n.lhsIdx i q 1).val = (q ⟨0, by decide⟩).val :=
  dot_S2000x40_S40x128_S2000x128_1_0_0_1_n_n.lhsIdx_val_of_single rfl i q
theorem rhs_dot_S2000x40_S40x128_S2000x128_1_0_0_1_n_n_0 (i : S2000x128.Idx) (q : dot_S2000x40_S40x128_S2000x128_1_0_0_1_n_n.contr.Idx) :
    (dot_S2000x40_S40x128_S2000x128_1_0_0_1_n_n.rhsIdx i q 0).val = (q ⟨0, by decide⟩).val :=
  dot_S2000x40_S40x128_S2000x128_1_0_0_1_n_n.rhsIdx_val_of_single rfl i q
theorem rhs_dot_S2000x40_S40x128_S2000x128_1_0_0_1_n_n_1 (i : S2000x128.Idx) (q : dot_S2000x40_S40x128_S2000x128_1_0_0_1_n_n.contr.Idx) :
    (dot_S2000x40_S40x128_S2000x128_1_0_0_1_n_n.rhsIdx i q 1).val = (i 1).val := by
  unfold DotDims.rhsIdx
  rw [dif_neg (show ¬(1 : Fin S40x128.rank) ∈ dot_S2000x40_S40x128_S2000x128_1_0_0_1_n_n.rhsBatch by decide), dif_pos (show (1 : Fin S40x128.rank) ∈ dot_S2000x40_S40x128_S2000x128_1_0_0_1_n_n.rhsNonContracting by decide)]
  rfl
/-- The product of a [2000,40] by a [40,128] array into a zero accumulator, at row `p` and column `q`: the sum over the
    contracted coordinate of the operands' products. -/
theorem mm_dot_S2000x40_S40x128_S2000x128_1_0_0_1_n_n {φ₁ φ₂ : FTy} (prec : Option ContractPrecision) (l : FVec Ideal S2000x40 φ₁) (r : FVec Ideal S40x128 φ₂)
    (p : Fin 2000) (q : Fin 128) :
    matmul dot_S2000x40_S40x128_S2000x128_1_0_0_1_n_n prec l r (constant S2000x128 .f32 0x00000000#32) (ix2 p q) = ∑ k : Fin 40, l (ix2 p k) * r (ix2 k q) := by
  simp only [matmul]
  rw [Ideal.matmul_constant_zero_apply, ← Equiv.sum_comp (contrEquiv1 dot_S2000x40_S40x128_S2000x128_1_0_0_1_n_n 40 rfl rfl).symm]
  refine Finset.sum_congr rfl fun k _ => ?_
  have hk := contrEquiv1_symm_val dot_S2000x40_S40x128_S2000x128_1_0_0_1_n_n 40 rfl rfl k
  have el : dot_S2000x40_S40x128_S2000x128_1_0_0_1_n_n.lhsIdx (ix2 p q) ((contrEquiv1 dot_S2000x40_S40x128_S2000x128_1_0_0_1_n_n 40 rfl rfl).symm k) = ix2 p k := funext fun a => Fin.ext (by
    match a with
    | ⟨0, _⟩ => exact lhs_dot_S2000x40_S40x128_S2000x128_1_0_0_1_n_n_0 _ _
    | ⟨1, _⟩ => exact (lhs_dot_S2000x40_S40x128_S2000x128_1_0_0_1_n_n_1 _ _).trans hk)
  have er : dot_S2000x40_S40x128_S2000x128_1_0_0_1_n_n.rhsIdx (ix2 p q) ((contrEquiv1 dot_S2000x40_S40x128_S2000x128_1_0_0_1_n_n 40 rfl rfl).symm k) = ix2 k q := funext fun a => Fin.ext (by
    match a with
    | ⟨0, _⟩ => exact (rhs_dot_S2000x40_S40x128_S2000x128_1_0_0_1_n_n_0 _ _).trans hk
    | ⟨1, _⟩ => exact rhs_dot_S2000x40_S40x128_S2000x128_1_0_0_1_n_n_1 _ _)
  rw [el, er]

theorem lhs_dot_S2000x128_S128x128_S2000x128_1_0_0_1_n_n_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_dot_S2000x128_S128x128_S2000x128_1_0_0_1_n_n_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dot_S2000x128_S128x128_S2000x128_1_0_0_1_n_n_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dot_S2000x128_S128x128_S2000x128_1_0_0_1_n_n_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl
/-- The product of a [2000,128] by a [128,128] array into a zero accumulator, at row `p` and column `q`: the sum over the
    contracted coordinate of the operands' products. -/
theorem mm_dot_S2000x128_S128x128_S2000x128_1_0_0_1_n_n {φ₁ φ₂ : FTy} (prec : Option ContractPrecision) (l : FVec Ideal S2000x128 φ₁) (r : FVec Ideal S128x128 φ₂)
    (p : Fin 2000) (q : Fin 128) :
    matmul dot_S2000x128_S128x128_S2000x128_1_0_0_1_n_n prec l r (constant S2000x128 .f32 0x00000000#32) (ix2 p q) = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_dot_S2000x128_S128x128_S2000x128_1_0_0_1_n_n_0 _ _
    | ⟨1, _⟩ => exact (lhs_dot_S2000x128_S128x128_S2000x128_1_0_0_1_n_n_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_dot_S2000x128_S128x128_S2000x128_1_0_0_1_n_n_0 _ _).trans hk
    | ⟨1, _⟩ => exact rhs_dot_S2000x128_S128x128_S2000x128_1_0_0_1_n_n_1 _ _)
  rw [el, er]

theorem lhs_dot_S2000x128_S128x40_S2000x40_1_0_0_1_n_n_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs_dot_S2000x128_S128x40_S2000x40_1_0_0_1_n_n_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhs_dot_S2000x128_S128x40_S2000x40_1_0_0_1_n_n_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhs_dot_S2000x128_S128x40_S2000x40_1_0_0_1_n_n_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl
/-- The product of a [2000,128] by a [128,40] array into a zero accumulator, at row `p` and column `q`: the sum over the
    contracted coordinate of the operands' products. -/
theorem mm_dot_S2000x128_S128x40_S2000x40_1_0_0_1_n_n {φ₁ φ₂ : FTy} (prec : Option ContractPrecision) (l : FVec Ideal S2000x128 φ₁) (r : FVec Ideal S128x40 φ₂)
    (p : Fin 2000) (q : Fin 40) :
    matmul dot_S2000x128_S128x40_S2000x40_1_0_0_1_n_n prec l r (constant S2000x40 .f32 0x00000000#32) (ix2 p q) = ∑ k : Fin 128, l (ix2 p k) * r (ix2 k q) := by
  simp only [matmul]
  rw [Ideal.matmul_constant_zero_apply, ← Equiv.sum_comp (contrEquiv1 dot_S2000x128_S128x40_S2000x40_1_0_0_1_n_n 128 rfl rfl).symm]
  refine Finset.sum_congr rfl fun k _ => ?_
  have hk := contrEquiv1_symm_val dot_S2000x128_S128x40_S2000x40_1_0_0_1_n_n 128 rfl rfl k
  have el : dot_S2000x128_S128x40_S2000x40_1_0_0_1_n_n.lhsIdx (ix2 p q) ((contrEquiv1 dot_S2000x128_S128x40_S2000x40_1_0_0_1_n_n 128 rfl rfl).symm k) = ix2 p k := funext fun a => Fin.ext (by
    match a with
    | ⟨0, _⟩ => exact lhs_dot_S2000x128_S128x40_S2000x40_1_0_0_1_n_n_0 _ _
    | ⟨1, _⟩ => exact (lhs_dot_S2000x128_S128x40_S2000x40_1_0_0_1_n_n_1 _ _).trans hk)
  have er : dot_S2000x128_S128x40_S2000x40_1_0_0_1_n_n.rhsIdx (ix2 p q) ((contrEquiv1 dot_S2000x128_S128x40_S2000x40_1_0_0_1_n_n 128 rfl rfl).symm k) = ix2 k q := funext fun a => Fin.ext (by
    match a with
    | ⟨0, _⟩ => exact (rhs_dot_S2000x128_S128x40_S2000x40_1_0_0_1_n_n_0 _ _).trans hk
    | ⟨1, _⟩ => exact rhs_dot_S2000x128_S128x40_S2000x40_1_0_0_1_n_n_1 _ _)
  rw [el, er]

/-- A [1,128] row broadcast along the columns to [2000,128] reads, at (r, k), the row at k. -/
theorem bc_1x128_2000x128 {α : Type} (v : S1x128.Idx → α) (r : Fin 2000) (k : Fin 128) :
    broadcastTo S2000x128 v broadcasts_S1x128_S2000x128 (ix2 r k) = v (ix2 (0 : Fin 1) k) := by
  refine broadcastTo_apply v _ (ix2 r k) (ix2 (0 : Fin 1) k) fun ax => ?_
  match ax with
  | ⟨0, _⟩ => rfl
  | ⟨1, _⟩ => rfl

/-- A [1,40] row broadcast along the columns to [2000,40] reads, at (r, j), the row at j. -/
theorem bc_1x40_2000x40 {α : Type} (v : S1x40.Idx → α) (r : Fin 2000) (j : Fin 40) :
    broadcastTo S2000x40 v broadcasts_S1x40_S2000x40 (ix2 r j) = v (ix2 (0 : Fin 1) j) := by
  refine broadcastTo_apply v _ (ix2 r j) (ix2 (0 : Fin 1) j) fun ax => ?_
  match ax with
  | ⟨0, _⟩ => rfl
  | ⟨1, _⟩ => rfl

/-- The last step: the bias row added and the sigmoid applied. -/
theorem pay1_apply (y : FVec Ideal S2000x40 .f32) (x7 : Vec Ideal S1x40 .f32) (r : Fin 2000) (j : Fin 40) :
    k1_pay1 (F := Ideal) y x7 (ix2 r j) = Ideal.logistic (y (ix2 r j) + x7 (ix2 (0 : Fin 1) j)) := by
  unfold k1_pay1
  show Ideal.logistic (addf y (broadcastTo S2000x40 (shapeCast S1x40 x7 shapeCasts_S1x40_S1x40) broadcasts_S1x40_S2000x40) (ix2 r j)) = _
  rw [addf_apply, bc_1x40_2000x40, shapeCast_self]

/-- The weights' product with a table of group rows, at (r, d): the sum over the groups of row `r`'s weight by the table's
    row. -/
theorem wsum_apply (prec : Option ContractPrecision) (x1 : Vec Ideal S2000x1 .i32) (y : FVec Ideal S40x128 .f32) (r : Fin 2000) (d : Fin 128) :
    matmul dot_S2000x40_S40x128_S2000x128_1_0_0_1_n_n prec
      (sitofp .f32 (extui 32 (cmpi .eq (broadcastTo S2000x40 x1 broadcasts_S2000x1_S2000x40)
        (iota .tc S2000x40 32 [1] iota_S2000x40_d1_w32)) natLt_1_32) : FVec Ideal S2000x40 .f32)
      y (constant S2000x128 .f32 0x00000000#32) (ix2 r d) = ∑ g : Fin 40, ohB x1 r g * y (ix2 g d) := by
  rw [mm_dot_S2000x40_S40x128_S2000x128_1_0_0_1_n_n]
  exact Finset.sum_congr rfl fun g _ => by rw [weights_apply]

/-- The inverse square root of a vector reads, at an index, the inverse square root of the element. -/
theorem rsqrt_apply {s : Shape} {φ : FTy} (a : FVec Ideal s φ) (i : s.Idx) : rsqrt a i = Ideal.rsqrt (a i) := rfl

/-- The second kernel's product chain at row `r`, column `j`: the rows less their groups' means, scaled by the inverse
    square root of their groups' clamped variances plus the small constant, through the two layers. -/
theorem pay2k1_apply (x0 : Vec Ideal S2000x128 .f32) (x1 : Vec Ideal S2000x1 .i32) (x2 x3 : Vec Ideal S40x128 .f32)
    (x4 : Vec Ideal S128x128 .f32) (x5 : Vec Ideal S1x128 .f32) (x6 : Vec Ideal S128x40 .f32)
    (r : Fin 2000) (j : Fin 40) :
    k1_pay2 (F := Ideal) x0 x1 x2 x3 x4 x5 x6 (ix2 r j)
      = ∑ k : Fin 128,
          max ((∑ d : Fin 128, ((x0 (ix2 r d) - ∑ g : Fin 40, ohB x1 r g * x2 (ix2 g d))
              * Ideal.rsqrt (max (∑ g : Fin 40, ohB x1 r g * x3 (ix2 g d)) 0 + Cert.Spec.eps)) * x4 (ix2 d k))
            + x5 (ix2 (0 : Fin 1) k)) 0 * x6 (ix2 k j) := by
  unfold k1_pay2
  simp only [shapeCast_self, Ideal.ofBits_def, Ideal.ofBits_zero_f32]
  rw [mm_dot_S2000x128_S128x40_S2000x40_1_0_0_1_n_n]
  refine Finset.sum_congr rfl fun k _ => ?_
  rw [truncf_apply, truncf_apply, maximumf_apply, addf_apply, broadcast_apply, mm_dot_S2000x128_S128x128_S2000x128_1_0_0_1_n_n, bc_1x128_2000x128]
  refine congrArg (fun t => max (t + x5 (ix2 (0 : Fin 1) k)) 0 * x6 (ix2 k j)) (Finset.sum_congr rfl fun d _ => ?_)
  rw [truncf_apply, truncf_apply, mulf_apply, subf_apply, wsum_apply, rsqrt_apply, addf_apply, maximumf_apply,
    wsum_apply, broadcast_apply, broadcast_apply]
  rfl

/-- The second kernel's result at row `r`, column `j` of its block. -/
theorem out1_8_apply (x0 : Vec Ideal S2000x128 .f32) (x1 : Vec Ideal S2000x1 .i32) (x2 x3 : Vec Ideal S40x128 .f32)
    (x4 : Vec Ideal S128x128 .f32) (x5 : Vec Ideal S1x128 .f32) (x6 : Vec Ideal S128x40 .f32) (x7 : Vec Ideal S1x40 .f32)
    (r : Fin 2000) (j : Fin 40) :
    out1_8 (F := Ideal) x0 x1 x2 x3 x4 x5 x6 x7 (ix2 r j)
      = Ideal.logistic ((∑ k : Fin 128,
          max ((∑ d : Fin 128, ((x0 (ix2 r d) - ∑ g : Fin 40, ohB x1 r g * x2 (ix2 g d))
              * Ideal.rsqrt (max (∑ g : Fin 40, ohB x1 r g * x3 (ix2 g d)) 0 + Cert.Spec.eps)) * x4 (ix2 d k))
            + x5 (ix2 (0 : Fin 1) k)) 0 * x6 (ix2 k j)) + x7 (ix2 (0 : Fin 1) j)) := by
  unfold out1_8
  rw [pay1_apply, pay2k1_apply]

end Cert.KernelIdeal.PayIdx

end
-- ==== Proof.SpecMath.lean ====
/-
  The two sums both programs take over the rows, compared: a group's rows summed directly, and the same sum taken
  block by block (25 blocks of 2000 rows) with each row weighted by whether it belongs to the group.
-/
import proofs.«421518_j21474836480044_1_alg».proof.Proof.Spec

noncomputable section

namespace Cert.Spec

open Idealize.ShloMosaic

/-- Whether row `n` is of group `g`, as a weight. -/
def oh (tm : Fin 50000 → ℤ) (n : Fin 50000) (g : Fin 40) : EReal := if tm n = (g.val : ℤ) then 1 else 0

/-- Row `r` of block `t`. -/
def row (t : Fin 25) (r : Fin 2000) : Fin 50000 := ⟨2000 * t.val + r.val, by omega⟩

/-- The rows as pairs (block, row within the block): `n = 2000 · (n / 2000) + n % 2000`. -/
def rowEquiv : Fin 25 × Fin 2000 ≃ Fin 50000 where
  toFun p := row p.1 p.2
  invFun n := (⟨n.val / 2000, by omega⟩, ⟨n.val % 2000, by omega⟩)
  left_inv := by
    rintro ⟨t, r⟩
    refine Prod.ext (Fin.ext ?_) (Fin.ext ?_)
    · show (2000 * t.val + r.val) / 2000 = t.val
      omega
    · show (2000 * t.val + r.val) % 2000 = r.val
      omega
  right_inv := by
    intro n
    refine Fin.ext ?_
    show 2000 * (n.val / 2000) + n.val % 2000 = n.val
    omega

/-- The weight times a term is the term on the group's rows and zero elsewhere (for every value of the term). -/
theorem oh_mul (tm : Fin 50000 → ℤ) (n : Fin 50000) (g : Fin 40) (x : EReal) :
    oh tm n g * x = if tm n = (g.val : ℤ) then x else 0 := by
  unfold oh
  split_ifs
  · exact one_mul x
  · exact zero_mul x

/-- A sum over a group's rows is the sum over all blocks and rows of the weighted terms. -/
theorem sum_rowsOf_blocks (tm : Fin 50000 → ℤ) (f : Fin 50000 → EReal) (g : Fin 40) :
    ∑ n ∈ rowsOf tm g, f n = ∑ t : Fin 25, ∑ r : Fin 2000, oh tm (row t r) g * f (row t r) := by
  unfold rowsOf
  rw [Finset.sum_filter, ← Equiv.sum_comp rowEquiv, Fintype.sum_prod_type]
  refine Finset.sum_congr rfl fun t _ => Finset.sum_congr rfl fun r _ => ?_
  rw [oh_mul]
  rfl

/-- Weighting a table's rows by whether they are a row's group picks that group's row, for a group in range. -/
theorem onehot_pick (tm : Fin 50000 → ℤ) (n : Fin 50000) (hn : 0 ≤ tm n ∧ tm n < 40) (T : Fin 40 → EReal) :
    ∑ g : Fin 40, oh tm n g * T g = T (grp tm n) := by
  have hg : tm n = ((grp tm n).val : ℤ) := by
    show tm n = ((min (tm n).toNat 39 : ℕ) : ℤ)
    omega
  rw [Finset.sum_eq_single (grp tm n)]
  · rw [oh_mul, if_pos hg]
  · intro g _ hne
    have hne' : ¬ tm n = (g.val : ℤ) := by
      intro h
      apply hne
      refine Fin.ext ?_
      have : ((grp tm n).val : ℤ) = (g.val : ℤ) := by rw [← hg, h]
      omega
    rw [oh_mul, if_neg hne']
  · intro h
    exact absurd (Finset.mem_univ _) h

/-- The accumulation the first program performs: from zero, one block's partial sum added per step. -/
def accum (B : Fin 25 → EReal) : (n : ℕ) → n < 25 → EReal
  | 0, h => 0 + B ⟨0, h⟩
  | n + 1, h => accum B n (Nat.lt_of_succ_lt h) + B ⟨n + 1, h⟩

/-- After block `n` it is the sum over the blocks up to `n`. -/
theorem accum_eq (B : Fin 25 → EReal) :
    ∀ (n : ℕ) (h : n < 25), accum B n h = ∑ t ∈ Finset.univ.filter (fun t : Fin 25 => t.val ≤ n), B t
  | 0, h => by
    have hs : Finset.univ.filter (fun t : Fin 25 => t.val ≤ 0) = {⟨0, h⟩} := by
      ext t
      simp only [Finset.mem_filter, Finset.mem_univ, true_and, Finset.mem_singleton, Fin.ext_iff]
      omega
    rw [accum, zero_add, hs, Finset.sum_singleton]
  | n + 1, h => by
    have hs : Finset.univ.filter (fun t : Fin 25 => t.val ≤ n + 1)
        = insert ⟨n + 1, h⟩ (Finset.univ.filter (fun t : Fin 25 => t.val ≤ n)) := by
      ext t
      simp only [Finset.mem_filter, Finset.mem_univ, true_and, Finset.mem_insert, Fin.ext_iff]
      omega
    have hni : (⟨n + 1, h⟩ : Fin 25) ∉ Finset.univ.filter (fun t : Fin 25 => t.val ≤ n) := by
      simp only [Finset.mem_filter, Finset.mem_univ, true_and]
      omega
    rw [accum, accum_eq B n, hs, Finset.sum_insert hni, add_comm]

/-- After the last block it is the sum over the blocks. -/
theorem accum_last (B : Fin 25 → EReal) : accum B 24 (by omega) = ∑ t : Fin 25, B t := by
  rw [accum_eq]
  refine Finset.sum_congr ?_ fun _ _ => rfl
  ext t
  simp only [Finset.mem_filter, Finset.mem_univ, true_and, iff_true]
  omega

end Cert.Spec

end
-- ==== Proof.KIStats.lean ====
/-
  Region 0's two result arrays are the specification's tables: the accumulators after the last point are the sums
  over each group's rows (the block-by-block weighted sums regrouped), so what the last point stores is the group's
  mean and variance.
-/
import proofs.«421518_j21474836480044_1_alg».proof.Proof.KIBlocks
import proofs.«421518_j21474836480044_1_alg».proof.Proof.KIPayIdx
import proofs.«421518_j21474836480044_1_alg».proof.Proof.SpecMath
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The rows and their time groups as the region finds them. -/
def hOf (c : Dev nD) : Fin 50000 → Fin 128 → EReal := fun n d => (V c main_v54 : S50000x128.Idx → EReal) (ix2 n d)
def tmOf (c : Dev nD) : Fin 50000 → ℤ := fun n => ((V c main_v55 : S50000x1.Idx → BitVec 32) (ix2 n (0 : Fin 1))).toInt

/-- Block `t` of the 25 as a point of region 0's grid. -/
def pt0 (t : Fin 25) : Fin cfg0.N := ⟨t.val, by have hN : cfg0.N = 25 := N_0; have := t.isLt; omega⟩

/-- Block `t`'s part of group `g`'s sum at feature `d`: its rows weighted by whether they are of the group; -/
def blockSum1 (c : Dev nD) (g : Fin 40) (d : Fin 128) (t : Fin 25) : EReal :=
  ∑ r : Fin 2000, PayIdx.ohB (tblk0 V c (pt0 t)) r g * hblk0 V c (pt0 t) (ix2 r d)
/-- of the sum of squares; -/
def blockSum2 (c : Dev nD) (g : Fin 40) (d : Fin 128) (t : Fin 25) : EReal :=
  ∑ r : Fin 2000, PayIdx.ohB (tblk0 V c (pt0 t)) r g * (hblk0 V c (pt0 t) (ix2 r d) * hblk0 V c (pt0 t) (ix2 r d))
/-- of the count. -/
def blockCnt (c : Dev nD) (g : Fin 40) (t : Fin 25) : EReal :=
  ∑ r : Fin 2000, PayIdx.ohB (tblk0 V c (pt0 t)) r g * (1 : EReal)

/-! ## The accumulators after point `n`: the blocks' parts added up from zero -/

theorem acc1_eq (c : Dev nD) (g : Fin 40) (d : Fin 128) :
    ∀ (n : ℕ) (h : n < 25) (h' : n < cfg0.N), (sAt0 V c n h').1 (ix2 g d) = Cert.Spec.accum (blockSum1 V c g d) n h
  | 0, h, h' => by
    rw [sAt0_zero]
    show k0_pay10 (hblk0 V c ⟨0, h'⟩) (tblk0 V c ⟨0, h'⟩) (k0_pay5 (F := Ideal)) (ix2 g d) = _
    rw [PayIdx.pay10_apply, PayIdx.pay5_apply]
    rfl
  | n + 1, h, h' => by
    rw [sAt0_succ]
    show k0_pay10 (hblk0 V c ⟨n + 1, h'⟩) (tblk0 V c ⟨n + 1, h'⟩) (sAt0 V c n (Nat.lt_of_succ_lt h')).1 (ix2 g d) = _
    rw [PayIdx.pay10_apply, acc1_eq c g d n (Nat.lt_of_succ_lt h) (Nat.lt_of_succ_lt h')]
    rfl

theorem acc2_eq (c : Dev nD) (g : Fin 40) (d : Fin 128) :
    ∀ (n : ℕ) (h : n < 25) (h' : n < cfg0.N), (sAt0 V c n h').2.1 (ix2 g d) = Cert.Spec.accum (blockSum2 V c g d) n h
  | 0, h, h' => by
    rw [sAt0_zero]
    show k0_pay11 (hblk0 V c ⟨0, h'⟩) (tblk0 V c ⟨0, h'⟩) (k0_pay6 (F := Ideal)) (ix2 g d) = _
    rw [PayIdx.pay11_apply, PayIdx.pay6_apply]
    rfl
  | n + 1, h, h' => by
    rw [sAt0_succ]
    show k0_pay11 (hblk0 V c ⟨n + 1, h'⟩) (tblk0 V c ⟨n + 1, h'⟩) (sAt0 V c n (Nat.lt_of_succ_lt h')).2.1 (ix2 g d) = _
    rw [PayIdx.pay11_apply, acc2_eq c g d n (Nat.lt_of_succ_lt h) (Nat.lt_of_succ_lt h')]
    rfl

theorem acc3_eq (c : Dev nD) (g : Fin 40) :
    ∀ (n : ℕ) (h : n < 25) (h' : n < cfg0.N), (sAt0 V c n h').2.2 (ix2 g (0 : Fin 1)) = Cert.Spec.accum (blockCnt V c g) n h
  | 0, h, h' => by
    rw [sAt0_zero]
    show k0_pay1 (k0_pay12 (tblk0 V c ⟨0, h'⟩) (k0_pay7 (F := Ideal))) (ix2 g (0 : Fin 1)) = _
    rw [PayIdx.pay12_apply, PayIdx.pay7_apply]
    rfl
  | n + 1, h, h' => by
    rw [sAt0_succ]
    show k0_pay1 (k0_pay12 (tblk0 V c ⟨n + 1, h'⟩) (sAt0 V c n (Nat.lt_of_succ_lt h')).2.2) (ix2 g (0 : Fin 1)) = _
    rw [PayIdx.pay12_apply, acc3_eq c g n (Nat.lt_of_succ_lt h) (Nat.lt_of_succ_lt h')]
    rfl

/-! ## After the last point: the sums over each group's rows -/

/-- A block's entries are the arrays' entries at the block's rows, and its weights the rows' weights. -/
theorem block_h (c : Dev nD) (t : Fin 25) (r : Fin 2000) (d : Fin 128) :
    hblk0 V c (pt0 t) (ix2 r d) = hOf V c (Cert.Spec.row t r) d :=
  hblk0_apply V c (pt0 t) r d (Cert.Spec.row t r) rfl
theorem block_oh (c : Dev nD) (t : Fin 25) (r : Fin 2000) (g : Fin 40) :
    PayIdx.ohB (tblk0 V c (pt0 t)) r g = Cert.Spec.oh (tmOf V c) (Cert.Spec.row t r) g := by
  unfold PayIdx.ohB Cert.Spec.oh tmOf
  rw [tblk0_apply V c (pt0 t) r (Cert.Spec.row t r) rfl]

theorem sum1_eq (c : Dev nD) (g : Fin 40) (d : Fin 128) :
    (sAt0 V c 24 (by decide)).1 (ix2 g d) = Cert.Spec.sum1 (hOf V c) (tmOf V c) g d := by
  rw [acc1_eq V c g d 24 (by omega), Cert.Spec.accum_last]
  unfold Cert.Spec.sum1
  rw [Cert.Spec.sum_rowsOf_blocks (tmOf V c) (fun n => hOf V c n d) g]
  refine Finset.sum_congr rfl fun t _ => Finset.sum_congr rfl fun r _ => ?_
  rw [block_h, block_oh]

theorem sum2_eq (c : Dev nD) (g : Fin 40) (d : Fin 128) :
    (sAt0 V c 24 (by decide)).2.1 (ix2 g d) = Cert.Spec.sum2 (hOf V c) (tmOf V c) g d := by
  rw [acc2_eq V c g d 24 (by omega), Cert.Spec.accum_last]
  unfold Cert.Spec.sum2
  rw [Cert.Spec.sum_rowsOf_blocks (tmOf V c) (fun n => hOf V c n d * hOf V c n d) g]
  refine Finset.sum_congr rfl fun t _ => Finset.sum_congr rfl fun r _ => ?_
  rw [block_h, block_oh]

theorem cnt_eq (c : Dev nD) (g : Fin 40) :
    (sAt0 V c 24 (by decide)).2.2 (ix2 g (0 : Fin 1)) = Cert.Spec.cnt (tmOf V c) g := by
  rw [acc3_eq V c g 24 (by omega), Cert.Spec.accum_last]
  unfold Cert.Spec.cnt
  rw [Cert.Spec.sum_rowsOf_blocks (tmOf V c) (fun _ => (1 : EReal)) g]
  refine Finset.sum_congr rfl fun t _ => Finset.sum_congr rfl fun r _ => ?_
  rw [block_oh]

/-- The mean table the region leaves. -/
theorem mean_table (c : Dev nD) (g : Fin 40) (d : Fin 128) :
    ((dat0 V c).arrAt 2 cfg0.N : S40x128.Idx → EReal) (ix2 g d) = Cert.Spec.mean (hOf V c) (tmOf V c) g d := by
  rw [final0_2, PayIdx.pay3_apply, sum1_eq, cnt_eq]
  rfl

/-- The variance table the region leaves. -/
theorem var_table (c : Dev nD) (g : Fin 40) (d : Fin 128) :
    ((dat0 V c).arrAt 3 cfg0.N : S40x128.Idx → EReal) (ix2 g d) = Cert.Spec.var (hOf V c) (tmOf V c) g d := by
  rw [final0_3, PayIdx.pay4_apply, sum1_eq, sum2_eq, cnt_eq]
  rfl

end Cert.KernelIdeal.Hand

end
-- ==== Proof.KIHead.lean ====
/-
  The kernel program's host prefix read at an index: the propagated rows are the reference's (the same fifty-five
  operations), the time groups a column, the weights transposed, the biases rows.
-/
import proofs.«421518_j21474836480044_1_alg».proof.Proof.Gen.KernelIdeal.Launch
import proofs.«421518_j21474836480044_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- Core `c`'s buffers after the host operations, from the launch memory. -/
abbrev Wh (c : Dev nD) : Valuation τ sig (Elt Ideal) := StableHlo.after hostOps0 (fun b => m ((c : Dev nD), b))
abbrev Vh (c : Dev nD) (b : Ref sig .tc) : Buf (Elt Ideal) ((c : Thread nD τ).loc b) := Wh m c b

/-! ## The propagation, stage by stage, over the three arguments -/

/-- The arrays of features and of edge ends. -/
abbrev Feat : Type := (⟨S50000x128, .f32⟩ : BufTy).Contents (Elt Ideal)
abbrev Ends : Type := (⟨S625000, .i32⟩ : BufTy).Contents (Elt Ideal)

/-- The edge ends as a column of indices. -/
def kcol (a : Ends) : (⟨S625000x1, .i32⟩ : BufTy).Contents (Elt Ideal) :=
  broadcastInDim S625000x1 ![0] bcast_S625000_S625000x1_0 a

/-- The number of edges at each node, from one end of the edges: ones scattered onto zeros. -/
def kdegc (a : Ends) : (⟨S50000, .f32⟩ : BufTy).Contents (Elt Ideal) :=
  Host.scatterAdd scatter_S50000_S625000x1_S625000_n_0_0_1
    (broadcastInDim S50000 ![] bcast_S_S50000 (constant (F := Ideal) S_ .f32 0x00000000#32))
    (kcol a)
    (broadcastInDim S625000 ![] bcast_S_S625000 (constant (F := Ideal) S_ .f32 0x3F800000#32))

/-- The degree normaliser: the reciprocal square root of that count clamped below at one. -/
def knorm (a : Ends) : (⟨S50000, .f32⟩ : BufTy).Contents (Elt Ideal) :=
  Host.rsqrt (maximumf (kdegc a) (broadcastInDim S50000 ![] bcast_S_S50000 (constant (F := Ideal) S_ .f32 0x3F800000#32)))

/-- The normaliser spread along the features. -/
def knb (a : Ends) : Feat :=
  broadcastInDim S50000x128 ![0, 1] bcast_S50000x1_S50000x128_0_1 (broadcastInDim S50000x1 ![0] bcast_S50000_S50000x1_0 (knorm a))

/-- The source ends as gather indices: a negative one wrapped by the number of nodes. -/
def kgidx (a5 : Ends) : (⟨S625000x1, .i32⟩ : BufTy).Contents (Elt Ideal) :=
  kcol (select (cmpi .slt a5 (broadcastInDim S625000 ![] bcast_S_S625000 (constantI S_ 32 0#32)))
    (addi a5 (broadcastInDim S625000 ![] bcast_S_S625000 (constantI S_ 32 50000#32))) a5)

/-- One hop: the rows `x` normalised at the source, gathered along the edges, summed at the destination, normalised
    there, then averaged with the features. -/
def khop (x a0 : Feat) (a5 a6 : Ends) : Feat :=
  addf
    (mulf (broadcastInDim S50000x128 ![] bcast_S_S50000x128 (constant (F := Ideal) S_ .f32 0x3F000000#32))
      (mulf
        (Host.scatterAdd scatter_S50000x128_S625000x1_S625000x128_1_0_0_1
          (broadcastInDim S50000x128 ![] bcast_S_S50000x128 (constant (F := Ideal) S_ .f32 0x00000000#32))
          (kcol a6)
          (Host.gather gather_S50000x128_S625000x1_S625000x128_1_0_n_n_0_1_1128 (mulf x (knb a5)) (kgidx a5)))
        (knb a6)))
    (mulf (broadcastInDim S50000x128 ![] bcast_S_S50000x128 (constant (F := Ideal) S_ .f32 0x3F000000#32)) a0)

/-! ## Each stage is the reference's -/

open Cert.ReferenceIdeal in
theorem knorm_eq9 (a5 : Ends) : knorm a5 = Read.val_main_v9 (F := Ideal) a5 := by
  unfold knorm kdegc kcol Read.val_main_v9 Read.val_main_v8 Read.val_main_v7 Read.val_main_cst_2 Read.val_main_v3
    Read.val_main_v2 Read.val_main_v1 Read.val_main_cst_0 Read.val_main_v0 Read.val_main_cst
  rfl

open Cert.ReferenceIdeal in
theorem knorm_eq12 (a6 : Ends) : knorm a6 = Read.val_main_v12 (F := Ideal) a6 := by
  unfold knorm kdegc kcol Read.val_main_v12 Read.val_main_v11 Read.val_main_v10 Read.val_main_cst_3 Read.val_main_v6
    Read.val_main_v5 Read.val_main_v4 Read.val_main_cst_1 Read.val_main_v0 Read.val_main_cst
  rfl

open Cert.ReferenceIdeal in
theorem knb_eq14 (a5 : Ends) : knb a5 = Read.val_main_v14 (F := Ideal) a5 := by
  unfold knb Read.val_main_v14 Read.val_main_v13
  rw [knorm_eq9]
open Cert.ReferenceIdeal in
theorem knb_eq35 (a5 : Ends) : knb a5 = Read.val_main_v35 (F := Ideal) a5 := by
  unfold knb Read.val_main_v35 Read.val_main_v34
  rw [knorm_eq9]
open Cert.ReferenceIdeal in
theorem knb_eq27 (a6 : Ends) : knb a6 = Read.val_main_v27 (F := Ideal) a6 := by
  unfold knb Read.val_main_v27 Read.val_main_v26
  rw [knorm_eq12]
open Cert.ReferenceIdeal in
theorem knb_eq48 (a6 : Ends) : knb a6 = Read.val_main_v48 (F := Ideal) a6 := by
  unfold knb Read.val_main_v48 Read.val_main_v47
  rw [knorm_eq12]

open Cert.ReferenceIdeal in
theorem kgidx_eq21 (a5 : Ends) : kgidx a5 = Read.val_main_v21 (F := Ideal) a5 := by
  unfold kgidx kcol Read.val_main_v21 Read.val_main_v20 Read.val_main_v19 Read.val_main_v18 Read.val_main_c_4
    Read.val_main_v17 Read.val_main_v16 Read.val_main_c
  rfl
open Cert.ReferenceIdeal in
theorem kgidx_eq42 (a5 : Ends) : kgidx a5 = Read.val_main_v42 (F := Ideal) a5 := by
  unfold kgidx kcol Read.val_main_v42 Read.val_main_v41 Read.val_main_v40 Read.val_main_v39 Read.val_main_c_9
    Read.val_main_v38 Read.val_main_v37 Read.val_main_c_8
  rfl

open Cert.ReferenceIdeal in
/-- The first hop. -/
theorem khop_eq33 (a0 : Feat) (a5 a6 : Ends) : khop a0 a0 a5 a6 = Read.val_main_v33 (F := Ideal) a0 a5 a6 := by
  unfold khop
  rw [knb_eq14 a5, knb_eq27 a6, kgidx_eq21 a5]
  unfold kcol Read.val_main_v33 Read.val_main_v32 Read.val_main_v31 Read.val_main_cst_7 Read.val_main_v30 Read.val_main_v29
    Read.val_main_cst_6 Read.val_main_v28 Read.val_main_v25 Read.val_main_v24 Read.val_main_v23 Read.val_main_cst_5
    Read.val_main_v22 Read.val_main_v15
  rfl

open Cert.ReferenceIdeal in
/-- The second hop, from the first hop's rows. -/
theorem khop_eq54 (a0 : Feat) (a5 a6 : Ends) :
    khop (Read.val_main_v33 (F := Ideal) a0 a5 a6) a0 a5 a6 = Read.val_main_v54 (F := Ideal) a0 a5 a6 := by
  unfold khop
  rw [knb_eq35 a5, knb_eq48 a6, kgidx_eq42 a5]
  unfold kcol Read.val_main_v54 Read.val_main_v53 Read.val_main_v52 Read.val_main_cst_12 Read.val_main_v51 Read.val_main_v50
    Read.val_main_cst_11 Read.val_main_v49 Read.val_main_v46 Read.val_main_v45 Read.val_main_v44 Read.val_main_cst_10
    Read.val_main_v43 Read.val_main_v36
  rfl

/-! ## The host prefix computes the two hops -/

set_option maxHeartbeats 4000000 in
/-- The propagated rows after the host operations: two hops from the features. -/
theorem Vh_v54_hops (c : Dev nD) :
    (Vh m c main_v54 : S50000x128.Idx → EReal)
      = khop (khop (m ((c : Thread nD τ).loc main_arg0)) (m ((c : Thread nD τ).loc main_arg0)) (m ((c : Thread nD τ).loc main_arg5)) (m ((c : Thread nD τ).loc main_arg6)))
          (m ((c : Thread nD τ).loc main_arg0)) (m ((c : Thread nD τ).loc main_arg5)) (m ((c : Thread nD τ).loc main_arg6)) := by
  show StableHlo.after hostOps0 (fun b => m ((c : Dev nD), b)) (Proc.devRef .tc main_v54) = _
  after_results_simp
  unfold khop knb knorm kdegc kgidx kcol
  rfl

/-- The propagated rows the regions find are the reference's, of the same arguments. -/
theorem Vh_v54 (c : Dev nD) :
    (Vh m c main_v54 : S50000x128.Idx → EReal)
      = Cert.ReferenceIdeal.Read.val_main_v54 (F := Ideal) (m ((c : Thread nD τ).loc main_arg0)) (m ((c : Thread nD τ).loc main_arg5)) (m ((c : Thread nD τ).loc main_arg6)) := by
  rw [Vh_v54_hops, khop_eq33, khop_eq54]

end Cert.KernelIdeal.Hand

end
-- ==== Proof.LibColumn.lean ====
/-
  GENERAL LEMMAS: a column of row values read at an index.

  A reduction along the rows of an [a, b] array that keeps the reduced axis leaves an [a] vector cast to the column [a, 1],
  which is then broadcast back along the rows to [a, b]. Both steps only rename the index: the column at (i, 0) is the
  vector at i, and the broadcast at (p, c) is the column at (p, 0).
-/
import Idealize.ShloMosaic.Lib.ValueLayout

namespace Cert.Column

open Idealize.ShloMosaic Idealize.ShloMosaic.ValueIdx

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast along the rows to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.KIHeadL.lean ====
/-
  The kernel program's reshapes and transposes of its operands read at an index: the time groups a column, the
  weights transposed, the biases rows.
-/
import proofs.«421518_j21474836480044_1_alg».proof.Proof.KIHead
import Idealize.ShloMosaic.Lib.ValueIdx
import Idealize.ShloMosaic.Lib.ValueLayout
import Idealize.ShloMosaic.Lib.Pipeline.Value
import Idealize.ShloMosaic.Lib.StableHlo.Run
import proofs.«421518_j21474836480044_1_alg».proof.Proof.LibColumn

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The time groups as a column. -/
theorem Vh_v55 (c : Dev nD) (n : Fin 50000) :
    (Vh m c main_v55 : S50000x1.Idx → BitVec 32) (ix2 n (0 : Fin 1)) = (m ((c : Thread nD τ).loc main_arg7) : S50000.Idx → BitVec 32) (ix1 n) := by
  show StableHlo.after hostOps0 (fun b => m ((c : Dev nD), b)) (Proc.devRef .tc main_v55) _ = _
  after_results
  -- the column [50000, 1] at (n, 0) is the vector at n: the same row-major position
  exact Cert.Column.shapeCast_a_a1_apply (α := BitVec 32) (a := 50000) _ shapeCasts_S50000_S50000x1 n 0

/-- The first layer's weights, transposed. -/
theorem Vh_v56 (c : Dev nD) (d k : Fin 128) :
    (Vh m c main_v56 : S128x128.Idx → EReal) (ix2 d k) = (m ((c : Thread nD τ).loc main_arg1) : S128x128.Idx → EReal) (ix2 k d) := by
  show StableHlo.after hostOps0 (fun b => m ((c : Dev nD), b)) (Proc.devRef .tc main_v56) _ = _
  after_results
  -- the permutation [1, 0] swaps the two coordinates
  exact transpose_ix2_apply (α := EReal) (a := 128) (b := 128) _ transposes_S128x128_S128x128_1_0 d k

/-- The second layer's weights, transposed. -/
theorem Vh_v57 (c : Dev nD) (k : Fin 128) (j : Fin 40) :
    (Vh m c main_v57 : S128x40.Idx → EReal) (ix2 k j) = (m ((c : Thread nD τ).loc main_arg3) : S40x128.Idx → EReal) (ix2 j k) := by
  show StableHlo.after hostOps0 (fun b => m ((c : Dev nD), b)) (Proc.devRef .tc main_v57) _ = _
  after_results
  -- the permutation [1, 0] swaps the two coordinates
  exact transpose_ix2_apply (α := EReal) (a := 40) (b := 128) _ transposes_S40x128_S128x40_1_0 k j

/-- The biases as rows. -/
theorem Vh_v58 (c : Dev nD) (k : Fin 128) :
    (Vh m c main_v58 : S1x128.Idx → EReal) (ix2 (0 : Fin 1) k) = (m ((c : Thread nD τ).loc main_arg2) : S128.Idx → EReal) (ix1 k) := by
  show StableHlo.after hostOps0 (fun b => m ((c : Dev nD), b)) (Proc.devRef .tc main_v58) _ = _
  after_results
  -- the row [1, 128] at (0, k) is the vector at k: the same row-major position
  exact shapeCast_a_1a_apply (α := EReal) (a := 128) _ shapeCasts_S128_S1x128 0 k
theorem Vh_v59 (c : Dev nD) (j : Fin 40) :
    (Vh m c main_v59 : S1x40.Idx → EReal) (ix2 (0 : Fin 1) j) = (m ((c : Thread nD τ).loc main_arg4) : S40.Idx → EReal) (ix1 j) := by
  show StableHlo.after hostOps0 (fun b => m ((c : Dev nD), b)) (Proc.devRef .tc main_v59) _ = _
  after_results
  -- the row [1, 40] at (0, j) is the vector at j: the same row-major position
  exact shapeCast_a_1a_apply (α := EReal) (a := 40) _ shapeCasts_S40_S1x40 0 j

end Cert.KernelIdeal.Hand

end
-- ==== Proof.LibRowGather.lean ====
/-
  `stablehlo.gather` as jnp's `x[idx]` lowers it for a table `x : [N, D]` and a list of M row indices carried as a column
  `[M, 1]`: offset axis 1, collapsed slice axis 0, start index map [0], index vector axis 1, slices of one whole row.
  Result element (i, k) is the table's element (r, k) at the row r the start index `idx[i, 0]` names, read as a signed
  integer and clamped into [0, N − 1].
-/
import Idealize.ShloMosaic.Lib.ValueIdx

noncomputable section

namespace Cert.LibRowGather

open Idealize.ShloMosaic Idealize.ShloMosaic.ValueIdx

variable {α : Type}

/-- Those dimension numbers; their conditions `wf` are decided on a program's literal shapes. -/
abbrev rowDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE GATHER READ AT (i, k): the table at the clamped start row and column k. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowDims N D M wf) x idx (ix2 i k)
      = x (ix2 ⟨min (idx (ix2 i (0 : Fin 1))).toInt.toNat (N - 1), by omega⟩ k) := by
  unfold Host.gather
  congr 1
  -- axis 0 is collapsed (no offset coordinate) and carries the clamped start row
  have h0 : (rowDims N D M wf).start (ix2 i k) idx (0 : Fin 2) + (rowDims N D M wf).batchCoord (ix2 i k) (0 : Fin 2)
      + (rowDims N D M wf).offCoord (ix2 i k) (0 : Fin 2) = min (idx (ix2 i (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 i k) ⟨List.idxOf (0 : Fin 2) (rowDims N D M wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  -- axis 1 is the offset axis: no start, the result's own column
  have h1 : (rowDims N D M wf).start (ix2 i k) idx (1 : Fin 2) + (rowDims N D M wf).batchCoord (ix2 i k) (1 : Fin 2)
      + (rowDims N D M wf).offCoord (ix2 i k) (1 : Fin 2) = k.val := by
    rw [GatherDims.batchCoord_eq_zero _ _ _ List.not_mem_nil]
    unfold GatherDims.start
    rw [dif_neg (show (1 : Fin 2) ∉ (rowDims N D M wf).startIndexMap from
      fun h => Nat.one_ne_zero (congrArg Fin.val (List.mem_singleton.mp h)))]
    simp only [Nat.add_zero, Nat.zero_add]
    unfold GatherDims.offCoord
    rw [dif_pos (show (1 : Fin 2) ∈ (rowDims N D M wf).sKept from (GatherDims.mem_sKept _ _).mpr
      ⟨fun h => Nat.one_ne_zero (congrArg Fin.val (List.mem_singleton.mp h)), List.not_mem_nil⟩)]
    rfl
  funext a
  refine Fin.ext ?_
  match a with
  | ⟨0, _⟩ => exact h0
  | ⟨1, _⟩ => exact h1

end Cert.LibRowGather

end
-- ==== Proof.LibScatterIdx.lean ====
/-
  Where an update of a scatter lands. For update index `j` the result index is, on every operand axis, the start read
  off the scatter indices plus the window coordinate, and the update is dropped when that leaves the operand on some
  axis. So the update lands on a given operand index `i` exactly when start plus window equals `i`'s coordinate on
  every axis: no separate range condition is needed, because `i` is itself inside the operand.
-/
import Idealize.ShloMosaic.PureOps.Dims

namespace Cert.Lib.ScatterIdx

open Idealize.ShloMosaic

/-- An update lands on `i` iff on every axis its start plus its window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h
    by_cases hin : ∀ a, 0 ≤ d.start j idx a + d.window j a ∧ d.start j idx a + d.window j a < s.size a
    · rw [dif_pos hin] at h
      intro a
      have ha := congrArg Fin.val (congrFun (Option.some.inj h) a)
      have h0 := (hin a).1
      simp only at ha
      omega
    · rw [dif_neg hin] at h
      cases h
  · intro h
    have hin : ∀ a, 0 ≤ d.start j idx a + d.window j a ∧ d.start j idx a + d.window j a < s.size a := by
      intro a
      have := h a
      have := (i a).isLt
      constructor <;> omega
    rw [dif_pos hin]
    congr 1
    funext a
    apply Fin.ext
    have := h a
    simp only
    omega

end Cert.Lib.ScatterIdx
-- ==== Proof.RefGather.lean ====
/-
  The reference's standardisation read at an index: each row less its group's mean, times the inverse square root of
  its group's variance clamped at zero plus the guard; the two tables are read at the row's group (for a group in
  range the wrap of a negative index and the clamp are the identity).
-/
import proofs.«421518_j21474836480044_1_alg».proof.Proof.Gen.ReferenceIdeal.Run
import proofs.«421518_j21474836480044_1_alg».proof.Proof.Gen.ReferenceIdeal.Read
import proofs.«421518_j21474836480044_1_alg».proof.Proof.Spec
import proofs.«421518_j21474836480044_1_alg».proof.Proof.LibRowGather
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.ValueIdx

/-- The table row a row's group names. -/
def grpOf (x7 : (⟨S50000, .i32⟩ : BufTy).Contents (Elt Ideal)) (n : Fin 50000) : Fin 40 :=
  Cert.Spec.grp (fun n => (x7 (ix1 n)).toInt) n

/-- The wrap of a negative index is the identity on a nonnegative word (first table's copy). -/
theorem wrap80 (x7 : (⟨S50000, .i32⟩ : BufTy).Contents (Elt Ideal)) (n : Fin 50000)
    (h0 : 0 ≤ (x7 (ix1 n)).toInt) : Read.val_main_v80 (F := Ideal) x7 (ix1 n) = x7 (ix1 n) := by
  rw [Read.val_main_v80_apply, Read.val_main_v77_apply, Read.val_main_v76_apply, Read.val_main_c_18_apply]
  have hc : ¬ IntOp.cmpi .slt (x7 (ix1 n)) 0#32 = 1#1 := by
    rw [IntOp.cmpi_slt, show (0#32 : BitVec 32).toInt = 0 from by decide]; omega
  exact if_neg hc

/-- The same wrap, second table's copy. -/
theorem wrap88 (x7 : (⟨S50000, .i32⟩ : BufTy).Contents (Elt Ideal)) (n : Fin 50000)
    (h0 : 0 ≤ (x7 (ix1 n)).toInt) : Read.val_main_v88 (F := Ideal) x7 (ix1 n) = x7 (ix1 n) := by
  rw [Read.val_main_v88_apply, Read.val_main_v85_apply, Read.val_main_v84_apply, Read.val_main_c_20_apply]
  have hc : ¬ IntOp.cmpi .slt (x7 (ix1 n)) 0#32 = 1#1 := by
    rw [IntOp.cmpi_slt, show (0#32 : BitVec 32).toInt = 0 from by decide]; omega
  exact if_neg hc

/-- The row gather of a 40-row table at a column of start indices reads, at (n, d), the table at the clamped start row. -/
theorem gather_tab {α : Type} (T : S40x128.Idx → α) (idx : IVec S50000x1 32) (n : Fin 50000) (d : Fin 128) :
    Host.gather gather_S40x128_S50000x1_S50000x128_1_0_n_n_0_1_1128 T idx (ix2 n d)
      = T (ix2 ⟨min (idx (ix2 n (0 : Fin 1))).toInt.toNat 39, by omega⟩ d) :=
  Cert.LibRowGather.gather_rows_apply (N := 40) (D := 128) (M := 50000) (by decide)
    gather_S40x128_S50000x1_S50000x128_1_0_n_n_0_1_1128_wf T idx n d

/-- The same, with the clamped start row named. -/
theorem gather_tab_at {α : Type} (T : S40x128.Idx → α) (idx : IVec S50000x1 32) (n : Fin 50000) (d : Fin 128) (g : Fin 40)
    (hg : min (idx (ix2 n (0 : Fin 1))).toInt.toNat 39 = g.val) :
    Host.gather gather_S40x128_S50000x1_S50000x128_1_0_n_n_0_1_1128 T idx (ix2 n d) = T (ix2 g d) := by
  rw [gather_tab]
  exact congrArg (fun r => T (ix2 r d)) (Fin.ext hg)

/-- The standardised rows: stage `%96` at (n, d) from the rows `%54` and the two tables `%66`, `%75` at the row's group. -/
theorem hn_apply (x0 : (⟨S50000x128, .f32⟩ : BufTy).Contents (Elt Ideal)) (x5 x6 : (⟨S625000, .i32⟩ : BufTy).Contents (Elt Ideal)) (x7 : (⟨S50000, .i32⟩ : BufTy).Contents (Elt Ideal))
    (hr : ∀ n : Fin 50000, 0 ≤ (x7 (ix1 n)).toInt ∧ (x7 (ix1 n)).toInt < 40) (n : Fin 50000) (d : Fin 128) :
    Read.val_main_v96 (F := Ideal) x0 x5 x6 x7 (ix2 n d)
      = (Read.val_main_v54 (F := Ideal) x0 x5 x6 (ix2 n d) - Read.val_main_v66 (F := Ideal) x0 x5 x6 x7 (ix2 (grpOf x7 n) d))
        * Ideal.rsqrt (max (Read.val_main_v75 (F := Ideal) x0 x5 x6 x7 (ix2 (grpOf x7 n) d)) 0 + Cert.Spec.eps) := by
  -- the elementwise stages, outermost first, down to the two gathers and the two constants
  rw [Read.val_main_v96_apply, Read.val_main_v83_apply, Read.val_main_v95_apply, Read.val_main_v94_apply,
    Read.val_main_v92_apply, Read.val_main_v93_apply, Read.val_main_cst_23_apply, Read.val_main_v91_apply,
    Read.val_main_cst_22_apply]
  -- the column of start indices at (n, 0) is the wrapped group of row n, which is the group itself
  have hi81 : Read.val_main_v81 (F := Ideal) x7 (ix2 n (0 : Fin 1)) = x7 (ix1 n) := by
    rw [Read.val_main_v81_apply, show Read.idx_main_v81 (ix2 n (0 : Fin 1)) = ix1 n from
      funext fun a => match a with | ⟨0, _⟩ => rfl, wrap80 x7 n (hr n).1]
  have hi89 : Read.val_main_v89 (F := Ideal) x7 (ix2 n (0 : Fin 1)) = x7 (ix1 n) := by
    rw [Read.val_main_v89_apply, show Read.idx_main_v89 (ix2 n (0 : Fin 1)) = ix1 n from
      funext fun a => match a with | ⟨0, _⟩ => rfl, wrap88 x7 n (hr n).1]
  -- so each gather reads its table at the row's group
  have e82 : Read.val_main_v82 (F := Ideal) x0 x5 x6 x7 (ix2 n d)
      = Read.val_main_v66 (F := Ideal) x0 x5 x6 x7 (ix2 (grpOf x7 n) d) := by
    unfold Read.val_main_v82
    exact gather_tab_at _ _ n d (grpOf x7 n) (by rw [hi81]; rfl)
  have e90 : Read.val_main_v90 (F := Ideal) x0 x5 x6 x7 (ix2 n d)
      = Read.val_main_v75 (F := Ideal) x0 x5 x6 x7 (ix2 (grpOf x7 n) d) := by
    unfold Read.val_main_v90
    exact gather_tab_at _ _ n d (grpOf x7 n) (by rw [hi89]; rfl)
  rw [e82, e90]
  simp only [Ideal.mulf_def, Ideal.subf_def, Ideal.hostUnary_rsqrt_def, Ideal.addf_def, Ideal.maximumf_def,
    Ideal.ofBits_def, Ideal.ofBits_zero_f32, Cert.Spec.eps]

end Cert.ReferenceIdeal.RefValue

end
-- ==== Proof.RefTail.lean ====
/-
  The reference's two affine layers and the logistic function read at an index, over the standardised rows `%96`.
-/
import proofs.«421518_j21474836480044_1_alg».proof.Proof.Gen.ReferenceIdeal.Run
import proofs.«421518_j21474836480044_1_alg».proof.Proof.Gen.ReferenceIdeal.Read
import proofs.«421518_j21474836480044_1_alg».proof.Proof.Spec

import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.ValueIdx

/-! ## The index maps of the last operations, at coordinates -/

theorem lidx104 (n : Fin 50000) (j : Fin 40) (k : Fin 128) : Read.lidx_main_v104 (ix2 n j) k = ix2 n k :=
  funext fun a => Fin.ext (by match a with | ⟨0, _⟩ => rfl | ⟨1, _⟩ => rfl)
theorem ridx104 (n : Fin 50000) (j : Fin 40) (k : Fin 128) : Read.ridx_main_v104 (ix2 n j) k = ix2 k j :=
  funext fun a => Fin.ext (by match a with | ⟨0, _⟩ => rfl | ⟨1, _⟩ => rfl)
theorem idx103 (k : Fin 128) (j : Fin 40) : Read.idx_main_v103 (ix2 k j) = ix2 j k :=
  funext fun a => Fin.ext (by match a with | ⟨0, _⟩ => rfl | ⟨1, _⟩ => rfl)
theorem lidx98 (n : Fin 50000) (k d : Fin 128) : Read.lidx_main_v98 (ix2 n k) d = ix2 n d :=
  funext fun a => Fin.ext (by match a with | ⟨0, _⟩ => rfl | ⟨1, _⟩ => rfl)
theorem ridx98 (n : Fin 50000) (k d : Fin 128) : Read.ridx_main_v98 (ix2 n k) d = ix2 d k :=
  funext fun a => Fin.ext (by match a with | ⟨0, _⟩ => rfl | ⟨1, _⟩ => rfl)
theorem idx97 (d k : Fin 128) : Read.idx_main_v97 (ix2 d k) = ix2 k d :=
  funext fun a => Fin.ext (by match a with | ⟨0, _⟩ => rfl | ⟨1, _⟩ => rfl)
theorem idx99_100 (n : Fin 50000) (k : Fin 128) : Read.idx_main_v99 (Read.idx_main_v100 (ix2 n k)) = ix1 k :=
  funext fun a => Fin.ext (by match a with | ⟨0, _⟩ => rfl)
theorem idx105_106 (n : Fin 50000) (j : Fin 40) : Read.idx_main_v105 (Read.idx_main_v106 (ix2 n j)) = ix1 j :=
  funext fun a => Fin.ext (by match a with | ⟨0, _⟩ => rfl)

/-- The result at (n, j) from the standardised rows: the first layer, clamped below at zero, the second, the logistic. -/
theorem tail_apply (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S40x128, .f32⟩ : BufTy).Contents (Elt Ideal)) (x4 : (⟨S40, .f32⟩ : BufTy).Contents (Elt Ideal)) (x5 x6 : (⟨S625000, .i32⟩ : BufTy).Contents (Elt Ideal)) (x7 : (⟨S50000, .i32⟩ : BufTy).Contents (Elt Ideal)) (n : Fin 50000) (j : Fin 40) :
    Read.val_main_v113 (F := Ideal) x0 x1 x2 x3 x4 x5 x6 x7 (ix2 n j)
      = Ideal.logistic ((∑ k : Fin 128,
          max ((∑ d : Fin 128, Read.val_main_v96 (F := Ideal) x0 x5 x6 x7 (ix2 n d) * x1 (ix2 k d)) + x2 (ix1 k)) 0 * x3 (ix2 j k))
        + x4 (ix1 j)) := by
  rw [Read.val_main_v113_apply, Read.val_main_v112_apply, Read.val_main_cst_25_apply, Read.val_main_v111_apply,
    Read.val_main_v110_apply, Read.val_main_cst_24_apply, Read.val_main_v109_apply, Read.val_main_v108_apply,
    Read.val_main_v107_apply, Read.val_main_v104_apply, Read.val_main_v106_apply, Read.val_main_v105_apply, idx105_106]
  simp only [Read.val_main_v102_apply, Read.val_main_v101_apply, Read.val_main_v98_apply, Read.val_main_v97_apply,
    Read.val_main_v100_apply, Read.val_main_v99_apply, Read.val_main_call0_v0_apply, Read.val_main_call0_cst_apply,
    Read.val_main_v103_apply, lidx104, ridx104, idx103, lidx98, ridx98, idx97, idx99_100]
  simp only [Ideal.hostDivf_def, Ideal.ofBits_def, Ideal.ofBits_one_f32, Ideal.ofBits_zero_f32, Ideal.addf_def,
    Ideal.hostUnary_exp_def, Ideal.hostNegf_def, Ideal.negf_def, Ideal.maximumf_def]
  rfl

end Cert.ReferenceIdeal.RefValue

end
-- ==== Proof.RefSide.lean ====
/-
  The reference read down to the specification: its result at row `n`, column `j` is the specification's entry there,
  over the rows its own first fifty-five operations (the graph propagation) produce.

  The three accumulating scatters over the time groups are the sums over each group's rows; the two gathers of the
  tables at the groups read the group's row (in range, the wrap and the clamp are the identity); the two products are
  sums over the contracted axis; the closing negate, exponential, add, divide is the logistic function.
-/
import proofs.«421518_j21474836480044_1_alg».proof.Proof.Gen.ReferenceIdeal.Run
import proofs.«421518_j21474836480044_1_alg».proof.Proof.Gen.ReferenceIdeal.Read
import proofs.«421518_j21474836480044_1_alg».proof.Proof.Spec
import proofs.«421518_j21474836480044_1_alg».proof.Proof.LibRowGather
import proofs.«421518_j21474836480044_1_alg».proof.Proof.LibScatterIdx
import proofs.«421518_j21474836480044_1_alg».proof.Proof.RefGather
import proofs.«421518_j21474836480044_1_alg».proof.Proof.RefTail
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.ReferenceIdeal.RefValue

open Cert.ReferenceIdeal Cert.ReferenceIdeal.Gen Idealize.ShloMosaic Idealize.ShloMosaic.ValueIdx

/-- The specification's entry over the reference's argument arrays: the rows are what the graph propagation (the
    reference's operations up to `%54`) makes of the features and the edges. -/
def specAt (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S40x128, .f32⟩ : BufTy).Contents (Elt Ideal)) (x4 : (⟨S40, .f32⟩ : BufTy).Contents (Elt Ideal)) (x5 x6 : (⟨S625000, .i32⟩ : BufTy).Contents (Elt Ideal)) (x7 : (⟨S50000, .i32⟩ : BufTy).Contents (Elt Ideal)) (n : Fin 50000) (j : Fin 40) : EReal :=
  Cert.Spec.out (fun n d => Read.val_main_v54 (F := Ideal) x0 x5 x6 (ix2 n d)) (fun n => (x7 (ix1 n)).toInt)
    (fun k d => x1 (ix2 k d)) (fun k => x2 (ix1 k)) (fun j k => x3 (ix2 j k)) (fun j => x4 (ix1 j)) n j

/-! ## Where an update of the two accumulating scatters lands -/

/-- The scatter of whole rows into the table of 40 groups. -/
private abbrev dR := scatter_S40x128_S50000x1_S50000x128_1_0_0_1

/-- On the group axis the window starts at the group word of the update's row, read signed. -/
theorem dR_start0 (w : Nat) (j : S50000x128.Idx) (idx : IVec S50000x1 w) :
    dR.start j idx (0 : Fin 2) = (idx (ix2 (j 0) (0 : Fin 1))).toInt := by
  unfold ScatterDims.start
  rw [dif_pos (show (0 : Fin 2) ∈ dR.scatterDimsToOperandDims from List.mem_singleton.mpr rfl)]
  congr 2
  funext b
  refine Fin.ext ?_
  match b with
  | ⟨0, _⟩ => rfl
  | ⟨1, _⟩ => rfl

/-- The feature axis has no start. -/
theorem dR_start1 (w : Nat) (j : S50000x128.Idx) (idx : IVec S50000x1 w) :
    dR.start j idx (1 : Fin 2) = 0 := by
  unfold ScatterDims.start
  rw [dif_neg (show (1 : Fin 2) ∉ dR.scatterDimsToOperandDims from
    fun h => Nat.one_ne_zero (congrArg Fin.val (List.mem_singleton.mp h)))]

/-- The group axis is an inserted axis: no window coordinate. -/
theorem dR_window0 (j : S50000x128.Idx) : dR.window j (0 : Fin 2) = 0 := by
  unfold ScatterDims.window
  rw [dif_neg (show (0 : Fin 2) ∉ dR.sKept by decide)]

/-- The feature axis carries the update's own feature coordinate. -/
theorem dR_window1 (j : S50000x128.Idx) : dR.window j (1 : Fin 2) = (j 1).val := by
  unfold ScatterDims.window
  rw [dif_pos (show (1 : Fin 2) ∈ dR.sKept by decide)]
  rfl

theorem row_lands_gen (w : Nat) (j : S50000x128.Idx) (idx : IVec S50000x1 w) (i : S40x128.Idx) :
    dR.resultIdx? j idx = some i
      ↔ (idx (ix2 (j 0) (0 : Fin 1))).toInt = ((i 0).val : Int) ∧ (j 1).val = (i 1).val := by
  rw [Cert.Lib.ScatterIdx.resultIdx?_eq_some_iff]
  constructor
  · intro h
    have h0 := h (0 : Fin 2)
    have h1 := h (1 : Fin 2)
    rw [dR_start0, dR_window0] at h0
    rw [dR_start1, dR_window1] at h1
    constructor
    · simpa using h0
    · exact_mod_cast (by simpa using h1)
  · rintro ⟨h0, h1⟩ a
    match a with
    | ⟨0, _⟩ =>
      show dR.start j idx (0 : Fin 2) + (dR.window j (0 : Fin 2) : Int) = _
      rw [dR_start0, dR_window0, h0]; simp
    | ⟨1, _⟩ =>
      show dR.start j idx (1 : Fin 2) + (dR.window j (1 : Fin 2) : Int) = _
      rw [dR_start1, dR_window1, h1]; simp

/-- The update (n, d') lands on (g, d) exactly when row n's group word reads g and d' = d. -/
theorem row_lands (w : Nat) (n : Fin 50000) (d' : Fin 128) (idx : IVec S50000x1 w) (g : Fin 40) (d : Fin 128) :
    dR.resultIdx? (ix2 n d') idx = some (ix2 g d) ↔ (idx (ix2 n (0 : Fin 1))).toInt = (g.val : Int) ∧ d' = d := by
  rw [row_lands_gen w (ix2 n d') idx (ix2 g d)]
  exact and_congr Iff.rfl Fin.val_inj

/-- The scatter of one unit per row into the 40 counts. -/
private abbrev dC := scatter_S40_S50000x1_S50000_n_0_0_1

theorem dC_start0 (w : Nat) (j : S50000.Idx) (idx : IVec S50000x1 w) :
    dC.start j idx (0 : Fin 1) = (idx (ix2 (j 0) (0 : Fin 1))).toInt := by
  unfold ScatterDims.start
  rw [dif_pos (show (0 : Fin 1) ∈ dC.scatterDimsToOperandDims from List.mem_singleton.mpr rfl)]
  congr 2
  funext b
  refine Fin.ext ?_
  match b with
  | ⟨0, _⟩ => rfl
  | ⟨1, _⟩ => rfl

theorem dC_window0 (j : S50000.Idx) : dC.window j (0 : Fin 1) = 0 := by
  unfold ScatterDims.window
  rw [dif_neg (show (0 : Fin 1) ∉ dC.sKept by decide)]

theorem count_lands_gen (w : Nat) (j : S50000.Idx) (idx : IVec S50000x1 w) (i : S40.Idx) :
    dC.resultIdx? j idx = some i ↔ (idx (ix2 (j 0) (0 : Fin 1))).toInt = ((i 0).val : Int) := by
  rw [Cert.Lib.ScatterIdx.resultIdx?_eq_some_iff]
  constructor
  · intro h
    have h0 := h (0 : Fin 1)
    rw [dC_start0, dC_window0] at h0
    simpa using h0
  · intro h0 a
    match a with
    | ⟨0, _⟩ =>
      show dC.start j idx (0 : Fin 1) + (dC.window j (0 : Fin 1) : Int) = _
      rw [dC_start0, dC_window0, h0]; simp

/-- Row n's unit lands on group g exactly when n's group word reads g. -/
theorem count_lands (w : Nat) (n : Fin 50000) (idx : IVec S50000x1 w) (g : Fin 40) :
    dC.resultIdx? (ix1 n) idx = some (ix1 g) ↔ (idx (ix2 n (0 : Fin 1))).toInt = (g.val : Int) :=
  count_lands_gen w (ix1 n) idx (ix1 g)

/-! ## The sum over the updates that land is the sum over the group's rows -/

/-- A sum over the updates (n, d') with row n in group g and d' = d is the sum over the group's rows at feature d:
    the two index sets correspond by (n, d) ↔ n. -/
theorem sum_rows (tm : Fin 50000 → ℤ) (f : S50000x128.Idx → EReal) (P : S50000x128.Idx → Prop) [DecidablePred P]
    (g : Fin 40) (d : Fin 128) (hP : ∀ (n : Fin 50000) (d' : Fin 128), P (ix2 n d') ↔ tm n = (g.val : ℤ) ∧ d' = d) :
    ∑ j ∈ Finset.univ.filter P, f j = ∑ n ∈ Cert.Spec.rowsOf tm g, f (ix2 n d) := by
  unfold Cert.Spec.rowsOf
  have key : ∀ j : S50000x128.Idx, P j → tm (j 0) = (g.val : ℤ) ∧ (j 1 : Fin 128) = d := fun j hj =>
    (hP (j 0) (j 1)).mp ((congrArg P (eq_ix2 j)).mp hj)
  refine Finset.sum_nbij' (fun j => (j 0 : Fin 50000)) (fun n => ix2 n d) ?_ ?_ ?_ ?_ ?_
  · intro j hj
    exact Finset.mem_filter.mpr ⟨Finset.mem_univ _, (key j (Finset.mem_filter.mp hj).2).1⟩
  · intro n hn
    exact Finset.mem_filter.mpr ⟨Finset.mem_univ _, (hP n d).mpr ⟨(Finset.mem_filter.mp hn).2, rfl⟩⟩
  · intro j hj
    have h1 := (key j (Finset.mem_filter.mp hj).2).2
    rw [← h1]; exact (eq_ix2 j).symm
  · intro n hn; rfl
  · intro j hj
    have h1 := (key j (Finset.mem_filter.mp hj).2).2
    rw [← h1]; exact congrArg f (eq_ix2 j)

/-- The same for the rank-one updates of the count. -/
theorem sum_rows1 (tm : Fin 50000 → ℤ) (f : S50000.Idx → EReal) (P : S50000.Idx → Prop) [DecidablePred P]
    (g : Fin 40) (hP : ∀ n : Fin 50000, P (ix1 n) ↔ tm n = (g.val : ℤ)) :
    ∑ j ∈ Finset.univ.filter P, f j = ∑ n ∈ Cert.Spec.rowsOf tm g, f (ix1 n) := by
  unfold Cert.Spec.rowsOf
  have key : ∀ j : S50000.Idx, P j → tm (j 0) = (g.val : ℤ) := fun j hj =>
    (hP (j 0)).mp ((congrArg P (eq_ix1 j)).mp hj)
  refine Finset.sum_nbij' (fun j => (j 0 : Fin 50000)) (fun n => ix1 n) ?_ ?_ ?_ ?_ ?_
  · intro j hj
    exact Finset.mem_filter.mpr ⟨Finset.mem_univ _, key j (Finset.mem_filter.mp hj).2⟩
  · intro n hn
    exact Finset.mem_filter.mpr ⟨Finset.mem_univ _, (hP n).mpr (Finset.mem_filter.mp hn).2⟩
  · intro j hj; exact (eq_ix1 j).symm
  · intro n hn; rfl
  · intro j hj; exact congrArg f (eq_ix1 j)

/-! ## The three scatters, the clamped count, and the two tables -/

/-- The group words as a column read the word of the row. -/
theorem col_idx57 (a : Fin 50000) : Read.idx_main_v57 (ix2 a (0 : Fin 1)) = ix1 a :=
  funext fun b => match b with | ⟨0, _⟩ => rfl
theorem col_idx62 (a : Fin 50000) : Read.idx_main_v62 (ix2 a (0 : Fin 1)) = ix1 a :=
  funext fun b => match b with | ⟨0, _⟩ => rfl
theorem col_idx69 (a : Fin 50000) : Read.idx_main_v69 (ix2 a (0 : Fin 1)) = ix1 a :=
  funext fun b => match b with | ⟨0, _⟩ => rfl

/-- The count scatter: zero plus one unit per row of the group. -/
theorem cnt_apply (x7 : (⟨S50000, .i32⟩ : BufTy).Contents (Elt Ideal)) (g : Fin 40) :
    Read.val_main_v58 (F := Ideal) x7 (ix1 g) = Cert.Spec.cnt (fun n => (x7 (ix1 n)).toInt) g := by
  unfold Read.val_main_v58
  show Ideal.hostScatterAdd dC _ _ _ (ix1 g) = _
  unfold Ideal.hostScatterAdd
  rw [Read.val_main_v56_apply, Read.val_main_cst_14_apply, Ideal.ofBits_def, Ideal.ofBits_zero_f32, zero_add]
  rw [sum_rows1 (fun n => (x7 (ix1 n)).toInt) _ _ g (fun n => by
    rw [count_lands, Read.val_main_v57_apply, col_idx57])]
  unfold Cert.Spec.cnt
  refine Finset.sum_congr rfl fun n _ => ?_
  rw [Read.val_main_v55_apply, Read.val_main_cst_13_apply, Ideal.ofBits_def, Ideal.ofBits_one_f32]

/-- The row scatter of the propagated rows: zero plus the sum of the group's rows. -/
theorem sum1_apply (x0 : (⟨S50000x128, .f32⟩ : BufTy).Contents (Elt Ideal)) (x5 x6 : (⟨S625000, .i32⟩ : BufTy).Contents (Elt Ideal))
    (x7 : (⟨S50000, .i32⟩ : BufTy).Contents (Elt Ideal)) (g : Fin 40) (d : Fin 128) :
    Read.val_main_v63 (F := Ideal) x0 x5 x6 x7 (ix2 g d)
      = Cert.Spec.sum1 (fun n d => Read.val_main_v54 (F := Ideal) x0 x5 x6 (ix2 n d)) (fun n => (x7 (ix1 n)).toInt) g d := by
  unfold Read.val_main_v63
  show Ideal.hostScatterAdd dR _ _ _ (ix2 g d) = _
  unfold Ideal.hostScatterAdd
  rw [Read.val_main_v61_apply, Read.val_main_cst_16_apply, Ideal.ofBits_def, Ideal.ofBits_zero_f32, zero_add]
  rw [sum_rows (fun n => (x7 (ix1 n)).toInt) _ _ g d (fun n d' => by
    rw [row_lands, Read.val_main_v62_apply, col_idx62])]
  rfl

/-- The row scatter of the squares: zero plus the sum of the squares of the group's rows. -/
theorem sum2_apply (x0 : (⟨S50000x128, .f32⟩ : BufTy).Contents (Elt Ideal)) (x5 x6 : (⟨S625000, .i32⟩ : BufTy).Contents (Elt Ideal))
    (x7 : (⟨S50000, .i32⟩ : BufTy).Contents (Elt Ideal)) (g : Fin 40) (d : Fin 128) :
    Read.val_main_v70 (F := Ideal) x0 x5 x6 x7 (ix2 g d)
      = Cert.Spec.sum2 (fun n d => Read.val_main_v54 (F := Ideal) x0 x5 x6 (ix2 n d)) (fun n => (x7 (ix1 n)).toInt) g d := by
  unfold Read.val_main_v70
  show Ideal.hostScatterAdd dR _ _ _ (ix2 g d) = _
  unfold Ideal.hostScatterAdd
  rw [Read.val_main_v68_apply, Read.val_main_cst_17_apply, Ideal.ofBits_def, Ideal.ofBits_zero_f32, zero_add]
  rw [sum_rows (fun n => (x7 (ix1 n)).toInt) _ _ g d (fun n d' => by
    rw [row_lands, Read.val_main_v69_apply, col_idx69])]
  rfl

/-- The count broadcast along the features reads the group's count. -/
theorem bc_idx (g : Fin 40) (d : Fin 128) : Read.idx_main_v64 (Read.idx_main_v65 (ix2 g d)) = ix1 g :=
  funext fun b => match b with | ⟨0, _⟩ => rfl
theorem bc_idx' (g : Fin 40) (d : Fin 128) : Read.idx_main_v71 (Read.idx_main_v72 (ix2 g d)) = ix1 g :=
  funext fun b => match b with | ⟨0, _⟩ => rfl

/-- The count clamped below at one. -/
theorem cntc_apply (x7 : (⟨S50000, .i32⟩ : BufTy).Contents (Elt Ideal)) (g : Fin 40) :
    Read.val_main_v60 (F := Ideal) x7 (ix1 g) = Cert.Spec.cntc (fun n => (x7 (ix1 n)).toInt) g := by
  rw [Read.val_main_v60_apply, Ideal.maximumf_def, cnt_apply, Read.val_main_v59_apply, Read.val_main_cst_15_apply,
    Ideal.ofBits_def, Ideal.ofBits_one_f32]
  rfl

/-- The table of means: the group's sum over its clamped count. -/
theorem mean_apply (x0 : (⟨S50000x128, .f32⟩ : BufTy).Contents (Elt Ideal)) (x5 x6 : (⟨S625000, .i32⟩ : BufTy).Contents (Elt Ideal))
    (x7 : (⟨S50000, .i32⟩ : BufTy).Contents (Elt Ideal)) (g : Fin 40) (d : Fin 128) :
    Read.val_main_v66 (F := Ideal) x0 x5 x6 x7 (ix2 g d)
      = Cert.Spec.mean (fun n d => Read.val_main_v54 (F := Ideal) x0 x5 x6 (ix2 n d)) (fun n => (x7 (ix1 n)).toInt) g d := by
  rw [Read.val_main_v66_apply, Ideal.hostDivf_def, sum1_apply, Read.val_main_v65_apply, Read.val_main_v64_apply, bc_idx,
    cntc_apply]
  rfl

/-- The table of variances: the mean square less the squared mean. -/
theorem var_apply (x0 : (⟨S50000x128, .f32⟩ : BufTy).Contents (Elt Ideal)) (x5 x6 : (⟨S625000, .i32⟩ : BufTy).Contents (Elt Ideal))
    (x7 : (⟨S50000, .i32⟩ : BufTy).Contents (Elt Ideal)) (g : Fin 40) (d : Fin 128) :
    Read.val_main_v75 (F := Ideal) x0 x5 x6 x7 (ix2 g d)
      = Cert.Spec.var (fun n d => Read.val_main_v54 (F := Ideal) x0 x5 x6 (ix2 n d)) (fun n => (x7 (ix1 n)).toInt) g d := by
  rw [Read.val_main_v75_apply, Ideal.subf_def, Read.val_main_v73_apply, Ideal.hostDivf_def, sum2_apply,
    Read.val_main_v72_apply, Read.val_main_v71_apply, bc_idx', cntc_apply, Read.val_main_v74_apply, Ideal.mulf_def,
    mean_apply]
  rfl

/-- The standardised row is the specification's, over the two tables at the row's group. -/
theorem hn_spec (x0 : (⟨S50000x128, .f32⟩ : BufTy).Contents (Elt Ideal)) (x5 x6 : (⟨S625000, .i32⟩ : BufTy).Contents (Elt Ideal))
    (x7 : (⟨S50000, .i32⟩ : BufTy).Contents (Elt Ideal))
    (hr : ∀ n : Fin 50000, 0 ≤ (x7 (ix1 n)).toInt ∧ (x7 (ix1 n)).toInt < 40) (n : Fin 50000) (d : Fin 128) :
    Read.val_main_v96 (F := Ideal) x0 x5 x6 x7 (ix2 n d)
      = Cert.Spec.hn (fun n d => Read.val_main_v54 (F := Ideal) x0 x5 x6 (ix2 n d)) (fun n => (x7 (ix1 n)).toInt) n d := by
  rw [hn_apply x0 x5 x6 x7 hr n d, mean_apply, var_apply]
  rfl

/-- The reference's result is the specification, entry by entry, where every time group is one of the 40. -/
theorem ref_value (x0 : (⟨S50000x128, .f32⟩ : BufTy).Contents (Elt Ideal)) (x1 : (⟨S128x128, .f32⟩ : BufTy).Contents (Elt Ideal)) (x2 : (⟨S128, .f32⟩ : BufTy).Contents (Elt Ideal)) (x3 : (⟨S40x128, .f32⟩ : BufTy).Contents (Elt Ideal)) (x4 : (⟨S40, .f32⟩ : BufTy).Contents (Elt Ideal)) (x5 x6 : (⟨S625000, .i32⟩ : BufTy).Contents (Elt Ideal)) (x7 : (⟨S50000, .i32⟩ : BufTy).Contents (Elt Ideal))
    (hr : ∀ n : Fin 50000, 0 ≤ (x7 (ix1 n)).toInt ∧ (x7 (ix1 n)).toInt < 40) (n : Fin 50000) (j : Fin 40) :
    Read.val_main_v113 (F := Ideal) x0 x1 x2 x3 x4 x5 x6 x7 (ix2 n j) = specAt x0 x1 x2 x3 x4 x5 x6 x7 n j := by
  rw [tail_apply]
  simp only [hn_spec x0 x5 x6 x7 hr]
  rfl

end Cert.ReferenceIdeal.RefValue

end
-- ==== Proof.KIValue.lean ====
/-
  The kernel program's result, entry by entry, is the specification over the same arguments: the host prefix makes
  the rows the reference's own, region 0 leaves the two tables, and region 1's block at a row is the specification's
  formula once the weighted sums over the groups pick the row's group (every group being one of the 40).
-/
import proofs.«421518_j21474836480044_1_alg».proof.Proof.KIRun
import proofs.«421518_j21474836480044_1_alg».proof.Proof.KIStats
import proofs.«421518_j21474836480044_1_alg».proof.Proof.KIHead
import proofs.«421518_j21474836480044_1_alg».proof.Proof.KIHeadL
import proofs.«421518_j21474836480044_1_alg».proof.Proof.KIArgs
import proofs.«421518_j21474836480044_1_alg».proof.Proof.RefSide
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## The specification's data, of the launch memory -/

/-- The rows the specification is stated over: the graph propagation of the features along the edges, -/
def hS (c : Dev nD) : Fin 50000 → Fin 128 → EReal := fun n d =>
  Cert.ReferenceIdeal.Read.val_main_v54 (F := Ideal) (m ((c : Thread nD τ).loc main_arg0)) (m ((c : Thread nD τ).loc main_arg5)) (m ((c : Thread nD τ).loc main_arg6)) (ix2 n d)
/-- and their time groups. -/
def tmS (c : Dev nD) : Fin 50000 → ℤ := fun n => (((m ((c : Thread nD τ).loc main_arg7)) : S50000.Idx → BitVec 32) (ix1 n)).toInt

/-! ## What region 1 finds in each of its input arrays -/

/-- Region 0 writes neither the rows nor the groups: region 1 finds them as the host operations left them. -/
theorem V2_v54 (c : Dev nD) : V2 m ρ c main_v54 = Vh m c main_v54 := (W2_arr m ρ c 0).trans (final0_in (V1 m ρ) c).1
theorem V2_v55 (c : Dev nD) : V2 m ρ c main_v55 = Vh m c main_v55 := (W2_arr m ρ c 1).trans (final0_in (V1 m ρ) c).2

/-- The rows and groups region 0 works over are the specification's. -/
theorem hOf_V1 (c : Dev nD) : hOf (V1 m ρ) c = hS m c := by
  funext n d
  exact congrFun (Vh_v54 m c) (ix2 n d)
theorem tmOf_V1 (c : Dev nD) : tmOf (V1 m ρ) c = tmS m c := by
  funext n
  exact congrArg BitVec.toInt (Vh_v55 m c n)

/-- A row is row `n % 2000` of block `n / 2000`. -/
theorem row_split (n : Fin 50000) : n.val = 2000 * (ptOf n).val + (rowIn n).val := by
  show n.val = 2000 * (n.val / 2000) + n.val % 2000
  omega

/-! ## Region 1's blocks at a row, as the specification's data -/

/-- The row itself, -/
theorem x0_at (c : Dev nD) (n : Fin 50000) (d : Fin 128) :
    (iblk1 (V2 m ρ) c 0 (ptOf n) : Vec Ideal S2000x128 .f32) (ix2 (rowIn n) d) = hS m c n d := by
  exact (iblk1_0_apply (V2 m ρ) c (ptOf n) (rowIn n) d n (row_split n)).trans
    ((congrFun (V2_v54 m ρ c) (ix2 n d)).trans (congrFun (Vh_v54 m c) (ix2 n d)))
/-- the weight of a group at the row, -/
theorem oh_at (c : Dev nD) (n : Fin 50000) (g : Fin 40) :
    PayIdx.ohB (iblk1 (V2 m ρ) c 1 (ptOf n)) (rowIn n) g = Cert.Spec.oh (tmS m c) n g := by
  unfold PayIdx.ohB Cert.Spec.oh
  rw [iblk1_1_apply (V2 m ρ) c (ptOf n) (rowIn n) n (row_split n), V2_v55, Vh_v55]
  rfl
/-- the two tables region 0 left: the groups' means and variances, -/
theorem x2_at (c : Dev nD) (t : Fin cfg1.N) (g : Fin 40) (d : Fin 128) :
    (iblk1 (V2 m ρ) c 2 t : Vec Ideal S40x128 .f32) (ix2 g d) = Cert.Spec.mean (hS m c) (tmS m c) g d := by
  have e : (V2 m ρ c main_v60_0 : S40x128.Idx → EReal) = ((dat0 (V1 m ρ) c).arrAt 2 cfg0.N : S40x128.Idx → EReal) := W2_arr m ρ c 2
  rw [iblk1_2_eq (V2 m ρ) c t, e, mean_table (V1 m ρ) c g d, hOf_V1, tmOf_V1]
theorem x3_at (c : Dev nD) (t : Fin cfg1.N) (g : Fin 40) (d : Fin 128) :
    (iblk1 (V2 m ρ) c 3 t : Vec Ideal S40x128 .f32) (ix2 g d) = Cert.Spec.var (hS m c) (tmS m c) g d := by
  have e : (V2 m ρ c main_v60_1 : S40x128.Idx → EReal) = ((dat0 (V1 m ρ) c).arrAt 3 cfg0.N : S40x128.Idx → EReal) := W2_arr m ρ c 3
  rw [iblk1_3_eq (V2 m ρ) c t, e, var_table (V1 m ρ) c g d, hOf_V1, tmOf_V1]
/-- and the weights and biases, which no region writes. -/
theorem x4_at (c : Dev nD) (t : Fin cfg1.N) (d k : Fin 128) :
    (iblk1 (V2 m ρ) c 4 t : Vec Ideal S128x128 .f32) (ix2 d k) = ((m ((c : Thread nD τ).loc main_arg1)) : S128x128.Idx → EReal) (ix2 k d) := by
  have e : V2 m ρ c main_v56 = Vh m c main_v56 := W2_of_ne m ρ c main_v56 (by decide)
  rw [iblk1_4_eq (V2 m ρ) c t, e, Vh_v56]
theorem x5_at (c : Dev nD) (t : Fin cfg1.N) (k : Fin 128) :
    (iblk1 (V2 m ρ) c 5 t : Vec Ideal S1x128 .f32) (ix2 (0 : Fin 1) k) = ((m ((c : Thread nD τ).loc main_arg2)) : S128.Idx → EReal) (ix1 k) := by
  have e : V2 m ρ c main_v58 = Vh m c main_v58 := W2_of_ne m ρ c main_v58 (by decide)
  rw [iblk1_5_eq (V2 m ρ) c t, e, Vh_v58]
theorem x6_at (c : Dev nD) (t : Fin cfg1.N) (k : Fin 128) (j : Fin 40) :
    (iblk1 (V2 m ρ) c 6 t : Vec Ideal S128x40 .f32) (ix2 k j) = ((m ((c : Thread nD τ).loc main_arg3)) : S40x128.Idx → EReal) (ix2 j k) := by
  have e : V2 m ρ c main_v57 = Vh m c main_v57 := W2_of_ne m ρ c main_v57 (by decide)
  rw [iblk1_6_eq (V2 m ρ) c t, e, Vh_v57]
theorem x7_at (c : Dev nD) (t : Fin cfg1.N) (j : Fin 40) :
    (iblk1 (V2 m ρ) c 7 t : Vec Ideal S1x40 .f32) (ix2 (0 : Fin 1) j) = ((m ((c : Thread nD τ).loc main_arg4)) : S40.Idx → EReal) (ix1 j) := by
  have e : V2 m ρ c main_v59 = Vh m c main_v59 := W2_of_ne m ρ c main_v59 (by decide)
  rw [iblk1_7_eq (V2 m ρ) c t, e, Vh_v59]

/-- The result array after the run is the specification, where every time group is one of the 40. -/
theorem kernel_value (c : Dev nD)
    (hr : ∀ n : Fin 50000, 0 ≤ (((m ((c : Thread nD τ).loc main_arg7)) : S50000.Idx → BitVec 32) (ix1 n)).toInt ∧ (((m ((c : Thread nD τ).loc main_arg7)) : S50000.Idx → BitVec 32) (ix1 n)).toInt < 40)
    (n : Fin 50000) (j : Fin 40) :
    (W3 m ρ c (Proc.devRef .tc main_v61) : S50000x40.Idx → EReal) (ix2 n j)
      = Cert.ReferenceIdeal.RefValue.specAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) n j := by
  show _ = Cert.Spec.out (hS m c) (tmS m c) (fun k d => (m ((c : Thread nD τ).loc main_arg1)) (ix2 k d)) (fun k => (m ((c : Thread nD τ).loc main_arg2)) (ix1 k))
    (fun j k => (m ((c : Thread nD τ).loc main_arg3)) (ix2 j k)) (fun j => (m ((c : Thread nD τ).loc main_arg4)) (ix1 j)) n j
  unfold Cert.Spec.out Cert.Spec.hid Cert.Spec.hn
  refine (congrFun (W3_arr m ρ c 8) (ix2 n j)).trans ?_
  refine (final1_8 (V2 m ρ) c n j).trans ?_
  refine (PayIdx.out1_8_apply _ _ _ _ _ _ _ _ (rowIn n) j).trans ?_
  simp only [x0_at, oh_at, x2_at, x3_at, x4_at, x5_at, x6_at, x7_at]
  simp only [Cert.Spec.onehot_pick (tmS m c) n (hr n)]

end Cert.KernelIdeal.Hand

end
-- ==== Proof.PreDecode.lean ====
/-
  The precondition read at an entry of the time groups: every group is one of the 40.
-/
import proofs.«421518_j21474836480044_1_alg».proof.Pre_finite_inputs
import proofs.«421518_j21474836480044_1_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.PreDecode

open Cert.Pre_finite_inputs Idealize.ShloMosaic Idealize.ShloMosaic.ValueIdx

variable [Cert.Pre_finite_inputs.Facts]

/-- Where the precondition holds, every time group lies in [0, 40) as a signed integer. -/
theorem times_range {F : FTy → Type} [FloatOps F] (x0 : FVec F S50000x128 .f32) (x1 : FVec F S128x128 .f32) (x2 : FVec F S128 .f32)
    (x3 : FVec F S40x128 .f32) (x4 : FVec F S40 .f32) (x5 x6 : IVec S625000 32) (x7 : IVec S50000 32)
    (h : fn (F := F) x0 x1 x2 x3 x4 x5 x6 x7 = fun _ => 1#1) (n : Fin 50000) :
    0 ≤ (x7 (ix1 n)).toInt ∧ (x7 (ix1 n)).toInt < 40 := by
  -- a scalar has exactly one index
  haveI : Subsingleton S_.Idx := ⟨fun a b => funext fun d => d.elim0⟩
  -- the scalar read at its one index is a conjunction of seven bits; keep the last two
  have h0 : fn (F := F) x0 x1 x2 x3 x4 x5 x6 x7 ix0 = 1#1 := congrFun h ix0
  dsimp only [fn, fn_part1, andi] at h0
  obtain ⟨h27, h30⟩ := IntOp.andi_eq_one.1 h0
  obtain ⟨-, h26⟩ := IntOp.andi_eq_one.1 h27
  -- a conjunction over all entries that is 1 is 1 at entry n
  have hge := Host.reduce_andi_all _ _ _ _ _ h26 (ix1 n)
  have hlt := Host.reduce_andi_all _ _ _ _ _ h30 (ix1 n)
  -- at entry n the comparisons are of the word x7 n with the constants 0 and 40, read signed
  dsimp only [cmpi, broadcastInDim, constantI] at hge hlt
  have h1 := IntOp.cmpi_sge.1 hge
  have h2 := IntOp.cmpi_slt.1 hlt
  rw [show (0#32 : BitVec 32).toInt = 0 from by decide] at h1
  rw [show (40#32 : BitVec 32).toInt = 40 from by decide] at h2
  exact ⟨h1, h2⟩

end Cert.PreDecode

end
-- ==== Proof.lean ====
/-
  The certificate: a graph-propagated feature table is standardised per time group and passed through a two-layer
  perceptron and the logistic function; the kernel program computes the per-group statistics and the standardisation
  in two kernel regions, the reference by scatter-adds and gathers on the host.

  Both programs run to the end from any memory where the precondition holds — every float input finite, every time
  group one of the forty — leave their arguments unchanged, and end with the same result as extended reals, entry by
  entry: the statistics region's block-by-block weighted sums are the sums over each group's rows, the weighted
  sums of the two tables over the groups pick the row's group, and everything else is the same operation on both
  sides (a product against a transposed operand, an addition of a broadcast row, the logistic function spelt
  1 / (1 + e^(-x))). The range of the time groups is what makes the reference's gather of a table's row at a group
  and the kernel's comparison against the forty group numbers the same selection.
-/
import proofs.«421518_j21474836480044_1_alg».proof.Defs
import proofs.«421518_j21474836480044_1_alg».proof.Proof.Gen.Kernel
import proofs.«421518_j21474836480044_1_alg».proof.Proof.Gen.KernelIdeal
import proofs.«421518_j21474836480044_1_alg».proof.Proof.Gen.ReferenceIdeal
import proofs.«421518_j21474836480044_1_alg».proof.Proof.Gen.Pre_finite_inputs
import proofs.«421518_j21474836480044_1_alg».proof.Proof.Gen.ReferenceIdeal.Run
import proofs.«421518_j21474836480044_1_alg».proof.Proof.Gen.ReferenceIdeal.Read
import proofs.«421518_j21474836480044_1_alg».proof.Proof.KFrame
import proofs.«421518_j21474836480044_1_alg».proof.Proof.KIFrame
import proofs.«421518_j21474836480044_1_alg».proof.Proof.KIValue
import proofs.«421518_j21474836480044_1_alg».proof.Proof.RefSide
import proofs.«421518_j21474836480044_1_alg».proof.Proof.PreDecode
import Idealize.ShloMosaic.Adequacy
import Idealize.ShloMosaic.Init

noncomputable section

namespace Cert.Proof

open Idealize.ShloMosaic Idealize.SL.Sem Idealize.ShloMosaic.ValueIdx

/-- The word-level program runs and keeps its arguments. -/
theorem frame_p : Cert.frame_Kernel (hKernel := Cert.Kernel.Gen.facts) (hPre_finite_inputs := Cert.Pre_finite_inputs.Gen.facts) :=
  fun m ρ _ => Cert.Kernel.Hand.frame (F := Bits) m ρ

/-- So does its reading over the extended reals. -/
theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the same result: each is the specification of
    the arguments, entry by entry, every time group being one of the forty by the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) (n : Fin 50000),
      0 ≤ (((m ((c.tc : Thread Cert.KernelIdeal.nD Cert.KernelIdeal.τ).loc Cert.KernelIdeal.main_arg7)) : Cert.KernelIdeal.S50000.Idx → BitVec 32) (ix1 n)).toInt
      ∧ (((m ((c.tc : Thread Cert.KernelIdeal.nD Cert.KernelIdeal.τ).loc Cert.KernelIdeal.main_arg7)) : Cert.KernelIdeal.S50000.Idx → BitVec 32) (ix1 n)).toInt < 40 :=
    fun c n => Cert.PreDecode.times_range _ _ _ _ _ _ _ _ (hpre c) n
  refine ⟨fun c => Cert.KernelIdeal.Hand.W3 m ρ c (Proc.devRef .tc Cert.KernelIdeal.main_v61), Cert.KernelIdeal.Hand.run_value m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v113_eq]
  obtain ⟨h0, h1, h2, h3, h4, h5, h6, h7⟩ := hagree c
  rw [h0, h1, h2, h3, h4, h5, h6, h7]
  funext i
  obtain ⟨n, j, rfl⟩ : ∃ (n : Fin 50000) (j : Fin 40), i = ix2 n j := ⟨i 0, i 1, eq_ix2 i⟩
  rw [Cert.ReferenceIdeal.RefValue.ref_value _ _ _ _ _ _ _ _ (hr c) n j]
  exact (Cert.KernelIdeal.Hand.kernel_value m ρ c (hr c) n j).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
